-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x512 : Shape := ⟨2, ![1, 512]⟩
abbrev S1x3072 : Shape := ⟨2, ![1, 3072]⟩
abbrev S1x50257 : Shape := ⟨2, ![1, 50257]⟩
abbrev S1024x1024 : Shape := ⟨2, ![1024, 1024]⟩
abbrev S2048x1024 : Shape := ⟨2, ![2048, 1024]⟩
abbrev S1x2048 : Shape := ⟨2, ![1, 2048]⟩

abbrev nBuf : Space → Nat
  | .hbm => 49
  | .vmem => 23
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x512, .f32⟩
  | .hbm, ⟨25, _⟩ => ⟨S1x1024, .f32⟩
  | .hbm, ⟨26, _⟩ => ⟨S1x3072, .f32⟩
  | .hbm, ⟨27, _⟩ => ⟨S1x3072, .f32⟩
  | .hbm, ⟨28, _⟩ => ⟨S1x50257, .f32⟩
  | .hbm, ⟨29, _⟩ => ⟨S1x1024, .f32⟩
  | .hbm, ⟨30, _⟩ => ⟨S1x512, .f32⟩
  | .hbm, ⟨31, _⟩ => ⟨S1x1024, .f32⟩
  | .hbm, ⟨32, _⟩ => ⟨S1x50257, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1x1, .f32⟩
  | .hbm, ⟨39, _⟩ => ⟨S1x50257, .f32⟩
  | .hbm, ⟨40, _⟩ => ⟨S1x50257, .f32⟩
  | .hbm, ⟨41, _⟩ => ⟨S1x50257, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S1x1, .f32⟩
  | .hbm, ⟨46, _⟩ => ⟨S1x50257, .f32⟩
  | .hbm, ⟨47, _⟩ => ⟨S1x50257, .f32⟩
  | .hbm, ⟨48, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x2048, .f32⟩
  | .local _ .vmem, ⟨4, _⟩ => ⟨S1x512, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S3072x1024, .f32⟩
  | .local _ .vmem, ⟨12, _⟩ => ⟨S3072x1024, .f32⟩
  | .local _ .vmem, ⟨13, _⟩ => ⟨S1x3072, .f32⟩
  | .local _ .vmem, ⟨14, _⟩ => ⟨S1x3072, .f32⟩
  | .local _ .vmem, ⟨15, _⟩ => ⟨S1x1024, .f32⟩
  | .local _ .vmem, ⟨16, _⟩ => ⟨S1x1024, .f32⟩
  | .local _ .vmem, ⟨17, _⟩ => ⟨S2048x1024, .f32⟩
  | .local _ .vmem, ⟨18, _⟩ => ⟨S2048x1024, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v16 : Ref sig .tc := ⟨.hbm, 47, rfl⟩
abbrev main_v17 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3072x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3072x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  shapeCasts_S512_S1x512 : S512.ShapeCasts S1x512
  shapeCasts_S1024_S1x1024 : S1024.ShapeCasts S1x1024
  shapeCasts_S3072_S1x3072 : S3072.ShapeCasts S1x3072
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  slices_S512x2048_o0_0_S512x1024 : S512x2048.Slices ![0, 0] S512x1024
  slices_S512x2048_o0_1024_S512x1024 : S512x2048.Slices ![0, 1024] S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  slices_S1024x2048_o0_0_S1024x1024 : S1024x2048.Slices ![0, 0] S1024x1024
  slices_S1024x2048_o0_1024_S1024x1024 : S1024x2048.Slices ![0, 1024] S1024x1024
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x1024_S512x1024_S1x512_1_1_0_0_n_n_wf : DotDims.WF S1x1024 S512x1024 S1x512 [1] [1] [0] [0] [] []
  dot_S1x512_S512x1024_S1x1024_1_0_0_1_n_n_wf : DotDims.WF S1x512 S512x1024 S1x1024 [1] [0] [0] [1] [] []
  dot_S1x1024_S1024x1024_S1x1024_1_1_0_0_n_n_wf : DotDims.WF S1x1024 S1024x1024 S1x1024 [1] [1] [0] [0] [] []
  dot_S1x1024_S3072x1024_S1x3072_1_1_0_0_n_n_wf : DotDims.WF S1x1024 S3072x1024 S1x3072 [1] [1] [0] [0] [] []
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3072x1024.size a ≤ S3072x1024.size a
  hwx1_2 : ∀ i : grid1.Coords, EltTy.bits .f32 = 32 ∨ (Rect.block (s := S3072x1024) S3072x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x1024.size a ≤ S3072x1024.size a
  hwx1_3 : ∀ i : grid1.Coords, EltTy.bits .f32 = 32 ∨ (Rect.block (s := S3072x1024) S3072x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3072.size a ≤ S1x3072.size a
  hwx1_4 : ∀ i : grid1.Coords, EltTy.bits .f32 = 32 ∨ (Rect.block (s := S1x3072) S1x3072.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3072.size a ≤ S1x3072.size a
  hwx1_5 : ∀ i : grid1.Coords, EltTy.bits .f32 = 32 ∨ (Rect.block (s := S1x3072) S1x3072.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x1024.size a < S50257x1024.size a
  hwx2_1 : ∀ i : grid2.Coords, EltTy.bits .f32 = 32 ∨ (Rect.unit (s := S50257x1024) (fun a => cc2_transform_1 i a * S2048x1024.size a) (fun a => (Pipeline.Clip.of (cc2_transform_1 i a) (S2048x1024.size a) (S50257x1024.size a)).extent (S2048x1024.size a)) fun a => Pipeline.Clip.inb (Pipeline.Clip.ok_of (hstart2_1 i a))).WholeWords (EltTy.packing .f32)
  hwxs2_1 : ∀ i : grid2.Coords, EltTy.bits .f32 = 32 ∨ (Rect.unit (s := S2048x1024) (fun _ => 0) (fun a => (Pipeline.Clip.of (cc2_transform_1 i a) (S2048x1024.size a) (S50257x1024.size a)).extent (S2048x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x2048.size a < S1x50257.size a
  hwx2_2 : ∀ i : grid2.Coords, EltTy.bits .f32 = 32 ∨ (Rect.unit (s := S1x50257) (fun a => cc2_transform_2 i a * S1x2048.size a) (fun a => (Pipeline.Clip.of (cc2_transform_2 i a) (S1x2048.size a) (S1x50257.size a)).extent (S1x2048.size a)) fun a => Pipeline.Clip.inb (Pipeline.Clip.ok_of (hstart2_2 i a))).WholeWords (EltTy.packing .f32)
  hwxs2_2 : ∀ i : grid2.Coords, EltTy.bits .f32 = 32 ∨ (Rect.unit (s := S1x2048) (fun _ => 0) (fun a => (Pipeline.Clip.of (cc2_transform_2 i a) (S1x2048.size a) (S1x50257.size a)).extent (S1x2048.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x2048.size a < S1x50257.size a
  hwx2_3 : ∀ i : grid2.Coords, EltTy.bits .f32 = 32 ∨ (Rect.unit (s := S1x50257) (fun a => cc2_transform_3 i a * S1x2048.size a) (fun a => (Pipeline.Clip.of (cc2_transform_3 i a) (S1x2048.size a) (S1x50257.size a)).extent (S1x2048.size a)) fun a => Pipeline.Clip.inb (Pipeline.Clip.ok_of (hstart2_3 i a))).WholeWords (EltTy.packing .f32)
  hwxs2_3 : ∀ i : grid2.Coords, EltTy.bits .f32 = 32 ∨ (Rect.unit (s := S1x2048) (fun _ => 0) (fun a => (Pipeline.Clip.of (cc2_transform_3 i a) (S1x2048.size a) (S1x50257.size a)).extent (S1x2048.size a)) fun a => (Nat.zero_add _).trans_le (Pipeline.Clip.extent_le (Pipeline.Clip.ok_of (hstart2_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S512x1024_S1x512_1_1_0_0_n_n : DotDims S1x1024 S512x1024 S1x512 where
  lhsContracting := [1]
  rhsContracting := [1]
  lhsNonContracting := [0]
  rhsNonContracting := [0]
  lhsBatch := []
  rhsBatch := []
  wf := dot_S1x1024_S512x1024_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev win0_0 : Pipeline.Window sig grid0 :=
  Pipeline.Window.ofSpec (Memref.whole main_v6) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S1x1024.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S1x512.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v13_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S3072x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S3072x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x3072.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x1024.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v14) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S2048x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v12) S1x2048.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v15) S1x2048.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x512, .f32⟩
  | .hbm, ⟨42, _⟩ => ⟨S1x512, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.RefRead.lean ====
/-
  The reference's run, read one operation at a time: this module only brings the reference's run and its stages into
  scope for the modules that compare them with the kernel's.
-/
import proofs.«168297_j82532091560494_1_alg».proof.Proof.RefReadP
-- ==== Proof.LibAfterAt.lean ====
/-
  Reading a straight line of operations in which every buffer is written at most once after the place that matters.

  A line `ops` comes with the list `wl` of the references its operations write, position by position. A reference outside
  `wl` keeps its contents over the whole line; the result of the operation at position `k`, if no later operation writes
  it, is that operation's function of what its operands hold after the first `k` operations; and an operand that no operation
  from position `k` on writes holds after the first `k` operations what it holds at the end. Together: each result at
  the END of the line is its operation's function of its operands at the END of the line.
-/
import Idealize.ShloMosaic.Lib.StableHlo.Run

noncomputable section

namespace Idealize.ShloMosaic.StableHlo

open Idealize.SL.Sem

variable {τ : Topo} {sig : RefSig} {Val : EltTy → Type}

/-- A line run to the end is its first `k` operations, then the rest. -/
theorem after_take_drop : ∀ (ops : List (HloOp τ sig Val)) (k : Nat) (V : Valuation τ sig Val),
    after ops V = after (ops.drop k) (after (ops.take k) V)
  | [], k, V => by rw [List.drop_nil, List.take_nil]; rfl
  | _ :: _, 0, _ => rfl
  | op :: ops, k + 1, V => by
    rw [List.drop_succ_cons, List.take_succ_cons, after_cons, after_cons]
    exact after_take_drop ops k _

/-- `wl` lists, position by position, the one reference each operation of `ops` writes. -/
def WritesAre (ops : List (HloOp τ sig Val)) (wl : List (Ref sig .tc)) : Prop :=
  List.Forall₂ (fun op r => op.writes = {Proc.devRef (τ := τ) .tc r}) ops wl

theorem WritesAre.drop {ops : List (HloOp τ sig Val)} {wl : List (Ref sig .tc)} (h : WritesAre ops wl) (k : Nat) :
    WritesAre (ops.drop k) (wl.drop k) := List.forall₂_drop k h

/-- A reference the line never writes keeps its contents. -/
theorem after_of_writesAre {ops : List (HloOp τ sig Val)} {wl : List (Ref sig .tc)} (h : WritesAre ops wl)
    (V : Valuation τ sig Val) {r : Ref sig .tc} (hr : r ∉ wl) :
    after ops V (Proc.devRef .tc r) = V (Proc.devRef .tc r) := by
  induction h generalizing V with
  | nil => rfl
  | cons hop _ ih =>
    rw [after_cons, ih _ (fun hm => hr (List.mem_cons_of_mem _ hm)), HloOp.result_of_not_mem]
    rw [hop, Finset.mem_singleton]
    exact devRef_ne_of_ne (fun e => hr (e ▸ List.mem_cons_self))

/-- The result of the operation at position `k`, not written again, is the operation's result on the first `k`. -/
theorem after_at {ops : List (HloOp τ sig Val)} {wl : List (Ref sig .tc)} (h : WritesAre ops wl)
    (V : Valuation τ sig Val) (k : Nat) {op : HloOp τ sig Val} (hk : ops[k]? = some op) {y : Ref sig .tc}
    (hy : y ∉ wl.drop (k + 1)) :
    after ops V (Proc.devRef .tc y) = op.result (after (ops.take k) V) (Proc.devRef .tc y) := by
  obtain ⟨hlt, hop⟩ := List.getElem?_eq_some_iff.mp hk
  rw [after_take_drop ops k V, List.drop_eq_getElem_cons hlt, hop, after_cons, after_of_writesAre (h.drop (k + 1)) _ hy]

/-- An operand no operation from position `k` on writes: after the first `k` it holds what it holds at the end. -/
theorem after_before {ops : List (HloOp τ sig Val)} {wl : List (Ref sig .tc)} (h : WritesAre ops wl)
    (V : Valuation τ sig Val) (k : Nat) {x : Ref sig .tc} (hx : x ∉ wl.drop k) :
    after (ops.take k) V (Proc.devRef .tc x) = after ops V (Proc.devRef .tc x) := by
  rw [after_take_drop ops k V, after_of_writesAre (h.drop k) _ hx]

section Builders

variable {ops : List (HloOp τ sig Val)} {wl : List (Ref sig .tc)} (h : WritesAre ops wl) (V : Valuation τ sig Val) (k : Nat)
variable {x a b c y : Ref sig .tc}
include h

theorem after_nullary_at {v : y.ty.Contents Val} {hy} (hk : ops[k]? = some (nullary y v hy))
    (hy' : y ∉ wl.drop (k + 1)) : after ops V (Proc.devRef .tc y) = v := by
  rw [after_at h V k hk hy', nullary_result]

theorem after_unary_at {f : x.ty.Contents Val → y.ty.Contents Val} {hx hy} (hk : ops[k]? = some (unary x y f hx hy))
    (hx' : x ∉ wl.drop k) (hy' : y ∉ wl.drop (k + 1)) :
    after ops V (Proc.devRef .tc y) = f (after ops V (Proc.devRef .tc x)) := by
  rw [after_at h V k hk hy', unary_result, ← after_before h V k hx']

theorem after_binary_at {f : a.ty.Contents Val → b.ty.Contents Val → y.ty.Contents Val} {ha hb hy}
    (hk : ops[k]? = some (binary a b y f ha hb hy)) (ha' : a ∉ wl.drop k) (hb' : b ∉ wl.drop k) (hy' : y ∉ wl.drop (k + 1)) :
    after ops V (Proc.devRef .tc y) = f (after ops V (Proc.devRef .tc a)) (after ops V (Proc.devRef .tc b)) := by
  rw [after_at h V k hk hy', binary_result, ← after_before h V k ha', ← after_before h V k hb']

theorem after_ternary_at {f : c.ty.Contents Val → a.ty.Contents Val → b.ty.Contents Val → y.ty.Contents Val} {hc ha hb hy}
    (hk : ops[k]? = some (ternary c a b y f hc ha hb hy)) (hc' : c ∉ wl.drop k) (ha' : a ∉ wl.drop k) (hb' : b ∉ wl.drop k)
    (hy' : y ∉ wl.drop (k + 1)) :
    after ops V (Proc.devRef .tc y)
      = f (after ops V (Proc.devRef .tc c)) (after ops V (Proc.devRef .tc a)) (after ops V (Proc.devRef .tc b)) := by
  rw [after_at h V k hk hy', ternary_result, ← after_before h V k hc', ← after_before h V k ha', ← after_before h V k hb']

theorem after_reshape_at {he : x.ty.elt = y.ty.elt} {hn : x.ty.shape.ShapeCasts y.ty.shape} {hx hy}
    (hk : ops[k]? = some (reshape x y he hn hx hy)) (hx' : x ∉ wl.drop k) (hy' : y ∉ wl.drop (k + 1)) :
    after ops V (Proc.devRef .tc y) = fun i => he ▸ shapeCast y.ty.shape (after ops V (Proc.devRef .tc x)) hn i := by
  rw [after_at h V k hk hy', reshape_result, ← after_before h V k hx']

end Builders

end Idealize.ShloMosaic.StableHlo

end
-- ==== Proof.RefRunHand.lean ====
/-
  The reference's run, stage by stage. The reference is a straight line of ninety-nine host operations, each writing a
  buffer of its own that no later operation writes again. So at the END of the line each result is its operation's
  function of its operands at the end of the line, and an argument, which no operation writes, holds what it held at
  launch. Going down the line once, every buffer at the end is the stage that names it — the operation's function of the
  stages of its operands — as a function of the arguments; in particular the three results are.
-/
import proofs.«168297_j82532091560494_1_alg».proof.Proof.RefReadP
import proofs.«168297_j82532091560494_1_alg».proof.Proof.LibAfterAt

noncomputable section

namespace Cert.RefHand

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The buffer each operation writes, position by position. -/
abbrev wl : List (Ref sig .tc) :=
  [main_c, main_v0, main_v1, main_c_0, main_v2, main_v3, main_v4, main_v5, main_v6, main_v7, main_v8, main_v9, main_v10, main_v11, main_v12, main_cst, main_v13, main_cst_1, main_v14, main_v15, main_v16, main_v17, main_v18, main_v19, main_cst_2, main_v20, main_v21, main_v22, main_v23, main_v24, main_v25, main_v26, main_v27, main_v28, main_v29, main_call0_cst, main_call0_v0, main_v30, main_v31, main_v32, main_v33, main_v34, main_v35, main_v36, main_v37, main_v38, main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66, main_v67, main_v68, main_v69, main_v70, main_call1_cst, main_call1_v0, main_call1_cst_0, main_call1_v1, main_call1_v2, main_call1_v3, main_call1_v4, main_call1_v5, main_call1_v6, main_call1_cst_1, main_call1_v7, main_call1_v8, main_call1_v9, main_call1_v10, main_v71, main_v72]

/-- Each operation writes exactly the buffer the list names at its position. -/
theorem hW : WritesAre (ops (F := F)) wl := by
  unfold WritesAre
  repeat' (first | exact List.Forall₂.nil | refine List.Forall₂.cons rfl ?_)

variable (m : (ℓ : Loc nD τ sig) → Buf (Elt F) ℓ) (c : Dev nD)

/-- The buffers at launch, as the line finds them. -/
abbrev V₀ : Valuation τ sig (Elt F) := fun b => m (c, b)

/-! ## No operation writes an argument -/

theorem arg_0 : after (ops (F := F)) (V₀ m c) (Proc.devRef .tc main_arg0) = m ((c.tc : Thread nD τ).loc main_arg0) :=
  after_of_writesAre hW _ (by decide)
theorem arg_1 : after (ops (F := F)) (V₀ m c) (Proc.devRef .tc main_arg1) = m ((c.tc : Thread nD τ).loc main_arg1) :=
  after_of_writesAre hW _ (by decide)
theorem arg_2 : after (ops (F := F)) (V₀ m c) (Proc.devRef .tc main_arg2) = m ((c.tc : Thread nD τ).loc main_arg2) :=
  after_of_writesAre hW _ (by decide)
theorem arg_3 : after (ops (F := F)) (V₀ m c) (Proc.devRef .tc main_arg3) = m ((c.tc : Thread nD τ).loc main_arg3) :=
  after_of_writesAre hW _ (by decide)
theorem arg_4 : after (ops (F := F)) (V₀ m c) (Proc.devRef .tc main_arg4) = m ((c.tc : Thread nD τ).loc main_arg4) :=
  after_of_writesAre hW _ (by decide)
theorem arg_5 : after (ops (F := F)) (V₀ m c) (Proc.devRef .tc main_arg5) = m ((c.tc : Thread nD τ).loc main_arg5) :=
  after_of_writesAre hW _ (by decide)
theorem arg_6 : after (ops (F := F)) (V₀ m c) (Proc.devRef .tc main_arg6) = m ((c.tc : Thread nD τ).loc main_arg6) :=
  after_of_writesAre hW _ (by decide)
theorem arg_7 : after (ops (F := F)) (V₀ m c) (Proc.devRef .tc main_arg7) = m ((c.tc : Thread nD τ).loc main_arg7) :=
  after_of_writesAre hW _ (by decide)
theorem arg_8 : after (ops (F := F)) (V₀ m c) (Proc.devRef .tc main_arg8) = m ((c.tc : Thread nD τ).loc main_arg8) :=
  after_of_writesAre hW _ (by decide)
theorem arg_9 : after (ops (F := F)) (V₀ m c) (Proc.devRef .tc main_arg9) = m ((c.tc : Thread nD τ).loc main_arg9) :=
  after_of_writesAre hW _ (by decide)
theorem arg_10 : after (ops (F := F)) (V₀ m c) (Proc.devRef .tc main_arg10) = m ((c.tc : Thread nD τ).loc main_arg10) :=
  after_of_writesAre hW _ (by decide)
theorem arg_11 : after (ops (F := F)) (V₀ m c) (Proc.devRef .tc main_arg11) = m ((c.tc : Thread nD τ).loc main_arg11) :=
  after_of_writesAre hW _ (by decide)
theorem arg_12 : after (ops (F := F)) (V₀ m c) (Proc.devRef .tc main_arg12) = m ((c.tc : Thread nD τ).loc main_arg12) :=
  after_of_writesAre hW _ (by decide)
theorem arg_13 : after (ops (F := F)) (V₀ m c) (Proc.devRef .tc main_arg13) = m ((c.tc : Thread nD τ).loc main_arg13) :=
  after_of_writesAre hW _ (by decide)

/-! ## Every buffer at the end of the line is its stage -/

theorem st_main_c : after (ops (F := F)) (V₀ m c) (Proc.devRef .tc main_c) = val_main_c (F := F) :=
  (after_nullary_at hW _ 0 rfl (by decide)).trans (rfl)
theorem st_main_v0 : after (ops (F := F)) (V₀ m c) (Proc.devRef .tc main_v0) = val_main_v0 (F := F) :=
  (after_unary_at hW _ 1 rfl (by decide) (by decide)).trans (by rw [st_main_c m c]; rfl)
theorem st_main_v1 : after (ops (F := F)) (V₀ m c) (Proc.devRef .tc main_v1) = val_main_v1 (F := F) (m ((c.tc : Thread nD τ).loc main_arg0)) :=
  (after_binary_at hW _ 2 rfl (by decide) (by decide) (by decide)).trans (by rw [arg_0 m c, st_main_v0 m c]; rfl)
theorem st_main_c_0 : after (ops (F := F)) (V₀ m c) (Proc.devRef .tc main_c_0) = val_main_c_0 (F := F) :=
  (after_nullary_at hW _ 3 rfl (by decide)).trans (rfl)
theorem st_main_v2 : after (ops (F := F)) (V₀ m c) (Proc.devRef .tc main_v2) = val_main_v2 (F := F) :=
  (after_unary_at hW _ 4 rfl (by decide) (by decide)).trans (by rw [st_main_c_0 m c]; rfl)
theorem st_main_v3 : after (ops (F := F)) (V₀ m c) (Proc.devRef .tc main_v3) = val_main_v3 (F := F) (m ((c.tc : Thread nD τ).loc main_arg0)) :=
  (after_binary_at hW _ 5 rfl (by decide) (by decide) (by decide)).trans (by rw [arg_0 m c, st_main_v2 m c]; rfl)
theorem st_main_v4 : after (ops (F := F)) (V₀ m c) (Proc.devRef .tc main_v4) = val_main_v4 (F := F) (m ((c.tc : Thread nD τ).loc main_arg0)) :=
  (after_ternary_at hW _ 6 rfl (by decide) (by decide) (by decide) (by decide)).trans (by rw [st_main_v1 m c, st_main_v3 m c, arg_0 m c]; rfl)
theorem st_main_v5 : after (ops (F := F)) (V₀ m c) (Proc.devRef .tc main_v5) = val_main_v5 (F := F) (m ((c.tc : Thread nD τ).loc main_arg0)) :=
  (after_unary_at hW _ 7 rfl (by decide) (by decide)).trans (by rw [st_main_v4 m c]; rfl)
theorem st_main_v6 : after (ops (F := F)) (V₀ m c) (Proc.devRef .tc main_v6) = val_main_v6 (F := F) (m ((c.tc : Thread nD τ).loc main_arg0)) (m ((c.tc : Thread nD τ).loc main_arg3)) :=
  (after_binary_at hW _ 8 rfl (by decide) (by decide) (by decide)).trans (by rw [arg_3 m c, st_main_v5 m c]; rfl)
theorem st_main_v7 : after (ops (F := F)) (V₀ m c) (Proc.devRef .tc main_v7) = val_main_v7 (F := F) (m ((c.tc : Thread nD τ).loc main_arg1)) :=
  (after_reshape_at hW _ 9 rfl (by decide) (by decide)).trans (by rw [arg_1 m c]; rfl)
theorem st_main_v8 : after (ops (F := F)) (V₀ m c) (Proc.devRef .tc main_v8) = val_main_v8 (F := F) (m ((c.tc : Thread nD τ).loc main_arg0)) (m ((c.tc : Thread nD τ).loc main_arg1)) (m ((c.tc : Thread nD τ).loc main_arg3)) :=
  (after_binary_at hW _ 10 rfl (by decide) (by decide) (by decide)).trans (by rw [st_main_v6 m c, st_main_v7 m c]; rfl)
theorem st_main_v9 : after (ops (F := F)) (V₀ m c) (Proc.devRef .tc main_v9) = val_main_v9 (F := F) (m ((c.tc : Thread nD τ).loc main_arg4)) :=
  (after_unary_at hW _ 11 rfl (by decide) (by decide)).trans (by rw [arg_4 m c]; rfl)
theorem st_main_v10 : after (ops (F := F)) (V₀ m c) (Proc.devRef .tc main_v10) = val_main_v10 (F := F) (m ((c.tc : Thread nD τ).loc main_arg0)) (m ((c.tc : Thread nD τ).loc main_arg1)) (m ((c.tc : Thread nD τ).loc main_arg3)) (m ((c.tc : Thread nD τ).loc main_arg4)) :=
  (after_binary_at hW _ 12 rfl (by decide) (by decide) (by decide)).trans (by rw [st_main_v8 m c, st_main_v9 m c]; rfl)
theorem st_main_v11 : after (ops (F := F)) (V₀ m c) (Proc.devRef .tc main_v11) = val_main_v11 (F := F) (m ((c.tc : Thread nD τ).loc main_arg5)) :=
  (after_unary_at hW _ 13 rfl (by decide) (by decide)).trans (by rw [arg_5 m c]; rfl)
theorem st_main_v12 : after (ops (F := F)) (V₀ m c) (Proc.devRef .tc main_v12) = val_main_v12 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_binary_at hW _ 14 rfl (by decide) (by decide) (by decide)).trans (by rw [st_main_v10 m c, st_main_v11 m c]; rfl)
theorem st_main_cst : after (ops (F := F)) (V₀ m c) (Proc.devRef .tc main_cst) = val_main_cst (F := F) :=
  (after_nullary_at hW _ 15 rfl (by decide)).trans (rfl)
theorem st_main_v13 : after (ops (F := F)) (V₀ m c) (Proc.devRef .tc main_v13) = val_main_v13 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_binary_at hW _ 16 rfl (by decide) (by decide) (by decide)).trans (by rw [st_main_v12 m c, st_main_cst m c]; rfl)
theorem st_main_cst_1 : after (ops (F := F)) (V₀ m c) (Proc.devRef .tc main_cst_1) = val_main_cst_1 (F := F) :=
  (after_nullary_at hW _ 17 rfl (by decide)).trans (rfl)
theorem st_main_v14 : after (ops (F := F)) (V₀ m c) (Proc.devRef .tc main_v14) = val_main_v14 (F := F) :=
  (after_unary_at hW _ 18 rfl (by decide) (by decide)).trans (by rw [st_main_cst_1 m c]; rfl)
theorem st_main_v15 : after (ops (F := F)) (V₀ m c) (Proc.devRef .tc main_v15) = val_main_v15 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_binary_at hW _ 19 rfl (by decide) (by decide) (by decide)).trans (by rw [st_main_v14 m c, st_main_v13 m c]; rfl)
theorem st_main_v16 : after (ops (F := F)) (V₀ m c) (Proc.devRef .tc main_v16) = val_main_v16 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_unary_at hW _ 20 rfl (by decide) (by decide)).trans (by rw [st_main_v15 m c]; rfl)
theorem st_main_v17 : after (ops (F := F)) (V₀ m c) (Proc.devRef .tc main_v17) = val_main_v17 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_unary_at hW _ 21 rfl (by decide) (by decide)).trans (by rw [st_main_v16 m c]; rfl)
theorem st_main_v18 : after (ops (F := F)) (V₀ m c) (Proc.devRef .tc main_v18) = val_main_v18 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_binary_at hW _ 22 rfl (by decide) (by decide) (by decide)).trans (by rw [st_main_v12 m c, st_main_v17 m c]; rfl)
theorem st_main_v19 : after (ops (F := F)) (V₀ m c) (Proc.devRef .tc main_v19) = val_main_v19 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_unary_at hW _ 23 rfl (by decide) (by decide)).trans (by rw [st_main_v18 m c]; rfl)
theorem st_main_cst_2 : after (ops (F := F)) (V₀ m c) (Proc.devRef .tc main_cst_2) = val_main_cst_2 (F := F) :=
  (after_nullary_at hW _ 24 rfl (by decide)).trans (rfl)
theorem st_main_v20 : after (ops (F := F)) (V₀ m c) (Proc.devRef .tc main_v20) = val_main_v20 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_binary_at hW _ 25 rfl (by decide) (by decide) (by decide)).trans (by rw [st_main_v19 m c, st_main_cst_2 m c]; rfl)
theorem st_main_v21 : after (ops (F := F)) (V₀ m c) (Proc.devRef .tc main_v21) = val_main_v21 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_unary_at hW _ 26 rfl (by decide) (by decide)).trans (by rw [st_main_v20 m c]; rfl)
theorem st_main_v22 : after (ops (F := F)) (V₀ m c) (Proc.devRef .tc main_v22) = val_main_v22 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_unary_at hW _ 27 rfl (by decide) (by decide)).trans (by rw [st_main_v21 m c]; rfl)
theorem st_main_v23 : after (ops (F := F)) (V₀ m c) (Proc.devRef .tc main_v23) = val_main_v23 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (after_binary_at hW _ 28 rfl (by decide) (by decide) (by decide)).trans (by rw [st_main_v19 m c, st_main_v22 m c]; rfl)
theorem st_main_v24 : after (ops (F := F)) (V₀ m c) (Proc.devRef .tc main_v24) = val_main_v24 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (after_binary_at hW _ 29 rfl (by decide) (by decide) (by decide)).trans (by rw [st_main_v23 m c, arg_2 m c]; rfl)
theorem st_main_v25 : after (ops (F := F)) (V₀ m c) (Proc.devRef .tc main_v25) = val_main_v25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (after_binary_at hW _ 30 rfl (by decide) (by decide) (by decide)).trans (by rw [st_main_v6 m c, st_main_v24 m c]; rfl)
theorem st_main_v26 : after (ops (F := F)) (V₀ m c) (Proc.devRef .tc main_v26) = val_main_v26 (F := F) (m ((c.tc : Thread nD τ).loc main_arg6)) :=
  (after_unary_at hW _ 31 rfl (by decide) (by decide)).trans (by rw [arg_6 m c]; rfl)
theorem st_main_v27 : after (ops (F := F)) (V₀ m c) (Proc.devRef .tc main_v27) = val_main_v27 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (after_binary_at hW _ 32 rfl (by decide) (by decide) (by decide)).trans (by rw [st_main_v25 m c, st_main_v26 m c]; rfl)
theorem st_main_v28 : after (ops (F := F)) (V₀ m c) (Proc.devRef .tc main_v28) = val_main_v28 (F := F) (m ((c.tc : Thread nD τ).loc main_arg7)) :=
  (after_unary_at hW _ 33 rfl (by decide) (by decide)).trans (by rw [arg_7 m c]; rfl)
theorem st_main_v29 : after (ops (F := F)) (V₀ m c) (Proc.devRef .tc main_v29) = val_main_v29 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (after_binary_at hW _ 34 rfl (by decide) (by decide) (by decide)).trans (by rw [st_main_v27 m c, st_main_v28 m c]; rfl)
theorem st_main_call0_cst : after (ops (F := F)) (V₀ m c) (Proc.devRef .tc main_call0_cst) = val_main_call0_cst (F := F) :=
  (after_nullary_at hW _ 35 rfl (by decide)).trans (rfl)
theorem st_main_call0_v0 : after (ops (F := F)) (V₀ m c) (Proc.devRef .tc main_call0_v0) = val_main_call0_v0 (F := F) :=
  (after_unary_at hW _ 36 rfl (by decide) (by decide)).trans (by rw [st_main_call0_cst m c]; simp only [TRef.ofBuf, TRef.toBuf, cast_eq] <;> rfl)
theorem st_main_v30 : after (ops (F := F)) (V₀ m c) (Proc.devRef .tc main_v30) = val_main_v30 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (after_binary_at hW _ 37 rfl (by decide) (by decide) (by decide)).trans (by rw [st_main_v29 m c, st_main_call0_v0 m c]; simp only [TRef.ofBuf, TRef.toBuf, cast_eq] <;> rfl)
theorem st_main_v31 : after (ops (F := F)) (V₀ m c) (Proc.devRef .tc main_v31) = val_main_v31 (F := F) (m ((c.tc : Thread nD τ).loc main_arg8)) :=
  (after_unary_at hW _ 38 rfl (by decide) (by decide)).trans (by rw [arg_8 m c]; rfl)
theorem st_main_v32 : after (ops (F := F)) (V₀ m c) (Proc.devRef .tc main_v32) = val_main_v32 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (after_binary_at hW _ 39 rfl (by decide) (by decide) (by decide)).trans (by rw [st_main_v30 m c, st_main_v31 m c]; rfl)
theorem st_main_v33 : after (ops (F := F)) (V₀ m c) (Proc.devRef .tc main_v33) = val_main_v33 (F := F) (m ((c.tc : Thread nD τ).loc main_arg10)) :=
  (after_unary_at hW _ 40 rfl (by decide) (by decide)).trans (by rw [arg_10 m c]; rfl)
theorem st_main_v34 : after (ops (F := F)) (V₀ m c) (Proc.devRef .tc main_v34) = val_main_v34 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) :=
  (after_binary_at hW _ 41 rfl (by decide) (by decide) (by decide)).trans (by rw [st_main_v32 m c, st_main_v33 m c]; rfl)
theorem st_main_v35 : after (ops (F := F)) (V₀ m c) (Proc.devRef .tc main_v35) = val_main_v35 (F := F) (m ((c.tc : Thread nD τ).loc main_arg9)) :=
  (after_unary_at hW _ 42 rfl (by decide) (by decide)).trans (by rw [arg_9 m c]; rfl)
theorem st_main_v36 : after (ops (F := F)) (V₀ m c) (Proc.devRef .tc main_v36) = val_main_v36 (F := F) (m ((c.tc : Thread nD τ).loc main_arg1)) (m ((c.tc : Thread nD τ).loc main_arg9)) :=
  (after_binary_at hW _ 43 rfl (by decide) (by decide) (by decide)).trans (by rw [st_main_v7 m c, st_main_v35 m c]; rfl)
theorem st_main_v37 : after (ops (F := F)) (V₀ m c) (Proc.devRef .tc main_v37) = val_main_v37 (F := F) (m ((c.tc : Thread nD τ).loc main_arg11)) :=
  (after_unary_at hW _ 44 rfl (by decide) (by decide)).trans (by rw [arg_11 m c]; rfl)
theorem st_main_v38 : after (ops (F := F)) (V₀ m c) (Proc.devRef .tc main_v38) = val_main_v38 (F := F) (m ((c.tc : Thread nD τ).loc main_arg1)) (m ((c.tc : Thread nD τ).loc main_arg9)) (m ((c.tc : Thread nD τ).loc main_arg11)) :=
  (after_binary_at hW _ 45 rfl (by decide) (by decide) (by decide)).trans (by rw [st_main_v36 m c, st_main_v37 m c]; rfl)
theorem st_main_v39 : after (ops (F := F)) (V₀ m c) (Proc.devRef .tc main_v39) = val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) :=
  (after_unary_at hW _ 46 rfl (by decide) (by decide)).trans (by rw [st_main_v34 m c]; rfl)
theorem st_main_v40 : after (ops (F := F)) (V₀ m c) (Proc.devRef .tc main_v40) = val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) :=
  (after_unary_at hW _ 47 rfl (by decide) (by decide)).trans (by rw [st_main_v34 m c]; rfl)
theorem st_main_v41 : after (ops (F := F)) (V₀ m c) (Proc.devRef .tc main_v41) = val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) :=
  (after_unary_at hW _ 48 rfl (by decide) (by decide)).trans (by rw [st_main_v34 m c]; rfl)
theorem st_main_v42 : after (ops (F := F)) (V₀ m c) (Proc.devRef .tc main_v42) = val_main_v42 (F := F) (m ((c.tc : Thread nD τ).loc main_arg1)) (m ((c.tc : Thread nD τ).loc main_arg9)) (m ((c.tc : Thread nD τ).loc main_arg11)) :=
  (after_unary_at hW _ 49 rfl (by decide) (by decide)).trans (by rw [st_main_v38 m c]; rfl)
theorem st_main_v43 : after (ops (F := F)) (V₀ m c) (Proc.devRef .tc main_v43) = val_main_v43 (F := F) (m ((c.tc : Thread nD τ).loc main_arg1)) (m ((c.tc : Thread nD τ).loc main_arg9)) (m ((c.tc : Thread nD τ).loc main_arg11)) :=
  (after_unary_at hW _ 50 rfl (by decide) (by decide)).trans (by rw [st_main_v38 m c]; rfl)
theorem st_main_v44 : after (ops (F := F)) (V₀ m c) (Proc.devRef .tc main_v44) = val_main_v44 (F := F) (m ((c.tc : Thread nD τ).loc main_arg1)) (m ((c.tc : Thread nD τ).loc main_arg9)) (m ((c.tc : Thread nD τ).loc main_arg11)) :=
  (after_unary_at hW _ 51 rfl (by decide) (by decide)).trans (by rw [st_main_v38 m c]; rfl)
theorem st_main_v45 : after (ops (F := F)) (V₀ m c) (Proc.devRef .tc main_v45) = val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 52 rfl (by decide) (by decide) (by decide)).trans (by rw [st_main_v39 m c, st_main_v42 m c]; rfl)
theorem st_main_v46 : after (ops (F := F)) (V₀ m c) (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_unary_at hW _ 53 rfl (by decide) (by decide)).trans (by rw [st_main_v45 m c]; rfl)
theorem st_main_v47 : after (ops (F := F)) (V₀ m c) (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_unary_at hW _ 54 rfl (by decide) (by decide)).trans (by rw [st_main_v46 m c]; rfl)
theorem st_main_cst_3 : after (ops (F := F)) (V₀ m c) (Proc.devRef .tc main_cst_3) = val_main_cst_3 (F := F) :=
  (after_nullary_at hW _ 55 rfl (by decide)).trans (rfl)
theorem st_main_v48 : after (ops (F := F)) (V₀ m c) (Proc.devRef .tc main_v48) = val_main_v48 (F := F) :=
  (after_unary_at hW _ 56 rfl (by decide) (by decide)).trans (by rw [st_main_cst_3 m c]; rfl)
theorem st_main_v49 : after (ops (F := F)) (V₀ m c) (Proc.devRef .tc main_v49) = val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 57 rfl (by decide) (by decide) (by decide)).trans (by rw [st_main_v48 m c, st_main_v47 m c]; rfl)
theorem st_main_cst_4 : after (ops (F := F)) (V₀ m c) (Proc.devRef .tc main_cst_4) = val_main_cst_4 (F := F) :=
  (after_nullary_at hW _ 58 rfl (by decide)).trans (rfl)
theorem st_main_v50 : after (ops (F := F)) (V₀ m c) (Proc.devRef .tc main_v50) = val_main_v50 (F := F) :=
  (after_unary_at hW _ 59 rfl (by decide) (by decide)).trans (by rw [st_main_cst_4 m c]; rfl)
theorem st_main_v51 : after (ops (F := F)) (V₀ m c) (Proc.devRef .tc main_v51) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 60 rfl (by decide) (by decide) (by decide)).trans (by rw [st_main_v50 m c, st_main_v49 m c]; rfl)
theorem st_main_v52 : after (ops (F := F)) (V₀ m c) (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 61 rfl (by decide) (by decide) (by decide)).trans (by rw [st_main_v40 m c, st_main_v43 m c]; rfl)
theorem st_main_v53 : after (ops (F := F)) (V₀ m c) (Proc.devRef .tc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_unary_at hW _ 62 rfl (by decide) (by decide)).trans (by rw [st_main_v52 m c]; rfl)
theorem st_main_v54 : after (ops (F := F)) (V₀ m c) (Proc.devRef .tc main_v54) = val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_unary_at hW _ 63 rfl (by decide) (by decide)).trans (by rw [st_main_v53 m c]; rfl)
theorem st_main_cst_5 : after (ops (F := F)) (V₀ m c) (Proc.devRef .tc main_cst_5) = val_main_cst_5 (F := F) :=
  (after_nullary_at hW _ 64 rfl (by decide)).trans (rfl)
theorem st_main_v55 : after (ops (F := F)) (V₀ m c) (Proc.devRef .tc main_v55) = val_main_v55 (F := F) :=
  (after_unary_at hW _ 65 rfl (by decide) (by decide)).trans (by rw [st_main_cst_5 m c]; rfl)
theorem st_main_v56 : after (ops (F := F)) (V₀ m c) (Proc.devRef .tc main_v56) = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 66 rfl (by decide) (by decide) (by decide)).trans (by rw [st_main_v55 m c, st_main_v54 m c]; rfl)
theorem st_main_cst_6 : after (ops (F := F)) (V₀ m c) (Proc.devRef .tc main_cst_6) = val_main_cst_6 (F := F) :=
  (after_nullary_at hW _ 67 rfl (by decide)).trans (rfl)
theorem st_main_v57 : after (ops (F := F)) (V₀ m c) (Proc.devRef .tc main_v57) = val_main_v57 (F := F) :=
  (after_unary_at hW _ 68 rfl (by decide) (by decide)).trans (by rw [st_main_cst_6 m c]; rfl)
theorem st_main_v58 : after (ops (F := F)) (V₀ m c) (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 69 rfl (by decide) (by decide) (by decide)).trans (by rw [st_main_v57 m c, st_main_v56 m c]; rfl)
theorem st_main_v59 : after (ops (F := F)) (V₀ m c) (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 70 rfl (by decide) (by decide) (by decide)).trans (by rw [st_main_v51 m c, st_main_v44 m c]; rfl)
theorem st_main_v60 : after (ops (F := F)) (V₀ m c) (Proc.devRef .tc main_v60) = val_main_v60 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 71 rfl (by decide) (by decide) (by decide)).trans (by rw [st_main_v41 m c, st_main_v59 m c]; rfl)
theorem st_main_v61 : after (ops (F := F)) (V₀ m c) (Proc.devRef .tc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_unary_at hW _ 72 rfl (by decide) (by decide)).trans (by rw [st_main_v60 m c]; rfl)
theorem st_main_cst_7 : after (ops (F := F)) (V₀ m c) (Proc.devRef .tc main_cst_7) = val_main_cst_7 (F := F) :=
  (after_nullary_at hW _ 73 rfl (by decide)).trans (rfl)
theorem st_main_v62 : after (ops (F := F)) (V₀ m c) (Proc.devRef .tc main_v62) = val_main_v62 (F := F) :=
  (after_unary_at hW _ 74 rfl (by decide) (by decide)).trans (by rw [st_main_cst_7 m c]; rfl)
theorem st_main_v63 : after (ops (F := F)) (V₀ m c) (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 75 rfl (by decide) (by decide) (by decide)).trans (by rw [st_main_v62 m c, st_main_v58 m c]; rfl)
theorem st_main_v64 : after (ops (F := F)) (V₀ m c) (Proc.devRef .tc main_v64) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 76 rfl (by decide) (by decide) (by decide)).trans (by rw [st_main_v63 m c, st_main_v61 m c]; rfl)
theorem st_main_v65 : after (ops (F := F)) (V₀ m c) (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 77 rfl (by decide) (by decide) (by decide)).trans (by rw [st_main_v58 m c, st_main_v7 m c]; rfl)
theorem st_main_v66 : after (ops (F := F)) (V₀ m c) (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_binary_at hW _ 78 rfl (by decide) (by decide) (by decide)).trans (by rw [st_main_v64 m c, st_main_v65 m c]; rfl)
theorem st_main_v67 : after (ops (F := F)) (V₀ m c) (Proc.devRef .tc main_v67) = val_main_v67 (F := F) (m ((c.tc : Thread nD τ).loc main_arg12)) :=
  (after_unary_at hW _ 79 rfl (by decide) (by decide)).trans (by rw [arg_12 m c]; rfl)
theorem st_main_v68 : after (ops (F := F)) (V₀ m c) (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (after_binary_at hW _ 80 rfl (by decide) (by decide) (by decide)).trans (by rw [st_main_v66 m c, st_main_v67 m c]; rfl)
theorem st_main_v69 : after (ops (F := F)) (V₀ m c) (Proc.devRef .tc main_v69) = val_main_v69 (F := F) (m ((c.tc : Thread nD τ).loc main_arg13)) :=
  (after_unary_at hW _ 81 rfl (by decide) (by decide)).trans (by rw [arg_13 m c]; rfl)
theorem st_main_v70 : after (ops (F := F)) (V₀ m c) (Proc.devRef .tc main_v70) = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_binary_at hW _ 82 rfl (by decide) (by decide) (by decide)).trans (by rw [st_main_v68 m c, st_main_v69 m c]; rfl)
theorem st_main_call1_cst : after (ops (F := F)) (V₀ m c) (Proc.devRef .tc main_call1_cst) = val_main_call1_cst (F := F) :=
  (after_nullary_at hW _ 83 rfl (by decide)).trans (rfl)
theorem st_main_call1_v0 : after (ops (F := F)) (V₀ m c) (Proc.devRef .tc main_call1_v0) = val_main_call1_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_binary_at hW _ 84 rfl (by decide) (by decide) (by decide)).trans (by rw [st_main_v70 m c, st_main_call1_cst m c]; simp only [TRef.ofBuf, TRef.toBuf, cast_eq] <;> rfl)
theorem st_main_call1_cst_0 : after (ops (F := F)) (V₀ m c) (Proc.devRef .tc main_call1_cst_0) = val_main_call1_cst_0 (F := F) :=
  (after_nullary_at hW _ 85 rfl (by decide)).trans (rfl)
theorem st_main_call1_v1 : after (ops (F := F)) (V₀ m c) (Proc.devRef .tc main_call1_v1) = val_main_call1_v1 (F := F) :=
  (after_unary_at hW _ 86 rfl (by decide) (by decide)).trans (by rw [st_main_call1_cst_0 m c]; simp only [TRef.ofBuf, TRef.toBuf, cast_eq] <;> rfl)
theorem st_main_call1_v2 : after (ops (F := F)) (V₀ m c) (Proc.devRef .tc main_call1_v2) = val_main_call1_v2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_binary_at hW _ 87 rfl (by decide) (by decide) (by decide)).trans (by rw [st_main_call1_v1 m c, st_main_call1_v0 m c]; simp only [TRef.ofBuf, TRef.toBuf, cast_eq] <;> rfl)
theorem st_main_call1_v3 : after (ops (F := F)) (V₀ m c) (Proc.devRef .tc main_call1_v3) = val_main_call1_v3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_unary_at hW _ 88 rfl (by decide) (by decide)).trans (by rw [st_main_call1_v2 m c]; simp only [TRef.ofBuf, TRef.toBuf, cast_eq] <;> rfl)
theorem st_main_call1_v4 : after (ops (F := F)) (V₀ m c) (Proc.devRef .tc main_call1_v4) = val_main_call1_v4 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_unary_at hW _ 89 rfl (by decide) (by decide)).trans (by rw [st_main_call1_v3 m c]; simp only [TRef.ofBuf, TRef.toBuf, cast_eq] <;> rfl)
theorem st_main_call1_v5 : after (ops (F := F)) (V₀ m c) (Proc.devRef .tc main_call1_v5) = val_main_call1_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_binary_at hW _ 90 rfl (by decide) (by decide) (by decide)).trans (by rw [st_main_v70 m c, st_main_call1_v4 m c]; simp only [TRef.ofBuf, TRef.toBuf, cast_eq] <;> rfl)
theorem st_main_call1_v6 : after (ops (F := F)) (V₀ m c) (Proc.devRef .tc main_call1_v6) = val_main_call1_v6 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_unary_at hW _ 91 rfl (by decide) (by decide)).trans (by rw [st_main_call1_v5 m c]; simp only [TRef.ofBuf, TRef.toBuf, cast_eq] <;> rfl)
theorem st_main_call1_cst_1 : after (ops (F := F)) (V₀ m c) (Proc.devRef .tc main_call1_cst_1) = val_main_call1_cst_1 (F := F) :=
  (after_nullary_at hW _ 92 rfl (by decide)).trans (rfl)
theorem st_main_call1_v7 : after (ops (F := F)) (V₀ m c) (Proc.devRef .tc main_call1_v7) = val_main_call1_v7 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_binary_at hW _ 93 rfl (by decide) (by decide) (by decide)).trans (by rw [st_main_call1_v6 m c, st_main_call1_cst_1 m c]; simp only [TRef.ofBuf, TRef.toBuf, cast_eq] <;> rfl)
theorem st_main_call1_v8 : after (ops (F := F)) (V₀ m c) (Proc.devRef .tc main_call1_v8) = val_main_call1_v8 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_unary_at hW _ 94 rfl (by decide) (by decide)).trans (by rw [st_main_call1_v7 m c]; simp only [TRef.ofBuf, TRef.toBuf, cast_eq] <;> rfl)
theorem st_main_call1_v9 : after (ops (F := F)) (V₀ m c) (Proc.devRef .tc main_call1_v9) = val_main_call1_v9 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_unary_at hW _ 95 rfl (by decide) (by decide)).trans (by rw [st_main_call1_v8 m c]; simp only [TRef.ofBuf, TRef.toBuf, cast_eq] <;> rfl)
theorem st_main_call1_v10 : after (ops (F := F)) (V₀ m c) (Proc.devRef .tc main_call1_v10) = val_main_call1_v10 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_unary_at hW _ 96 rfl (by decide) (by decide)).trans (by rw [st_main_call1_v9 m c]; simp only [TRef.ofBuf, TRef.toBuf, cast_eq] <;> rfl)
theorem st_main_v71 : after (ops (F := F)) (V₀ m c) (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (after_binary_at hW _ 97 rfl (by decide) (by decide) (by decide)).trans (by rw [st_main_call1_v5 m c, st_main_call1_v10 m c]; simp only [TRef.ofBuf, TRef.toBuf, cast_eq] <;> rfl)
theorem st_main_v72 : after (ops (F := F)) (V₀ m c) (Proc.devRef .tc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (after_unary_at hW _ 98 rfl (by decide) (by decide)).trans (by rw [st_main_v66 m c]; rfl)

/-! ## The run -/

/-- On every device, from any memory with zero counters, every weakly fair execution of the reference terminates with
    each result at its stage of the arguments and every argument unchanged. -/
theorem run (ρ : Dev nD → PrngReg) :
    θ_run defs (onTc (τ := τ) (main (F := F))) ⟨m, fun _ => 0, ρ⟩ fun r => ∀ c : Dev nD,
      r.2.mem ((c.tc : Thread nD τ).loc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v23) = val_main_v23 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v71).trans (st_main_v71 m c),
      (h c main_v72).trans (st_main_v72 m c),
      (h c main_v23).trans (st_main_v23 m c),
      (h c main_arg0).trans (arg_0 m c),
      (h c main_arg1).trans (arg_1 m c),
      (h c main_arg2).trans (arg_2 m c),
      (h c main_arg3).trans (arg_3 m c),
      (h c main_arg4).trans (arg_4 m c),
      (h c main_arg5).trans (arg_5 m c),
      (h c main_arg6).trans (arg_6 m c),
      (h c main_arg7).trans (arg_7 m c),
      (h c main_arg8).trans (arg_8 m c),
      (h c main_arg9).trans (arg_9 m c),
      (h c main_arg10).trans (arg_10 m c),
      (h c main_arg11).trans (arg_11 m c),
      (h c main_arg12).trans (arg_12 m c),
      (h c main_arg13).trans (arg_13 m c)⟩)
    (run_seq scopedRefs_eq scopedSems_eq defs main (fun _ => ops) main_eq (fun _ => ops_sub) m ρ)

end Cert.RefHand

end
-- ==== Proof.KB.Body0.lean ====
/-
  The first region: attention and combination, one grid point, every window a whole array. From the seven input
  arrays as the region finds them the body leaves, in the first output, the rectified combination of the embedded row
  and the attended encoder row, and in the second the attention weights; both are pure functions of the inputs, so the
  two output arrays after the region are those functions of the input arrays and the inputs are unchanged.
-/
import proofs.«168297_j82532091560494_1_alg».proof.Proof.Gen.Kernel.Launch
import proofs.«168297_j82532091560494_1_alg».proof.Proof.Gen.Kernel.Skeleton
import proofs.«168297_j82532091560494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at the point whether or not it was fetched there: unfetched, the block
    index has not moved, and the body leaves every input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

abbrev r0_a : Rect S1x1024 := Rect.unit (s := S1x1024) ![0, 0] S1x1024.size inb_S1x1024_S1x1024_0_0
abbrev r0_b : Rect S1x512 := Rect.unit (s := S1x512) ![0, 0] S1x512.size inb_S1x512_S1x512_0_0
abbrev r0_c : Rect S512x1024 := Rect.unit (s := S512x1024) ![0, 0] S512x1024.size inb_S512x1024_S512x1024_0_0
abbrev r0_d : Rect S512x2048 := Rect.unit (s := S512x2048) ![0, 0] S512x2048.size inb_S512x2048_S512x2048_0_0
abbrev r0_e : Rect S1024x2048 := Rect.unit (s := S1024x2048) ![0, 0] S1024x2048.size inb_S1024x2048_S1024x2048_0_0

/-- The attention weights from the embedded row, the hidden row, the attention matrix and its bias. -/
def out0_8 (x0 x1 : Vec F S1x1024 .f32) (x3 : Vec F S512x2048 .f32) (x4 : Vec F S1x512 .f32) : Vec F S1x512 .f32 :=
  View.canon [⟨r0_b, k0_pay3 (View.ld x0 r0_a) (View.ld x1 r0_a) (View.ld x3 r0_d) (View.ld x4 r0_b)⟩]

/-- The rectified combination from all seven inputs. -/
def out0_7 (x0 x1 : Vec F S1x1024 .f32) (x2 : Vec F S512x1024 .f32) (x3 : Vec F S512x2048 .f32) (x4 : Vec F S1x512 .f32)
    (x5 : Vec F S1024x2048 .f32) (x6 : Vec F S1x1024 .f32) : Vec F S1x1024 .f32 :=
  View.canon [⟨r0_a, k0_pay1 (k0_pay4 (View.ld x0 r0_a) (View.ld x1 r0_a) (View.ld x3 r0_d) (View.ld x4 r0_b) (View.ld x2 r0_c) (View.ld x5 r0_e)) (View.ld x6 r0_a)⟩]

/-- Both offsets of a whole-buffer access are zero. -/
theorem hz0 : (![0, 0] : Fin 2 → Nat) = fun _ => 0 := funext fun a => by fin_cases a <;> rfl

/-- The one store into each output buffer is through the whole buffer, so it covers it. -/
theorem cover0_7 (p0 : Vec F S1x1024 .f32) (y : S1x1024.Idx) :
    ∃ pc ∈ ([⟨r0_a, p0⟩] : List (View.Piece (Elt F) S1x1024 .f32)), y ∈ pc.1.set :=
  ⟨_, List.mem_singleton_self _, View.mem_set_unit_zero hz0 inb_S1x1024_S1x1024_0_0 y⟩
theorem cover0_8 (p0 : Vec F S1x512 .f32) (y : S1x512.Idx) :
    ∃ pc ∈ ([⟨r0_b, p0⟩] : List (View.Piece (Elt F) S1x512 .f32)), y ∈ pc.1.set :=
  ⟨_, List.mem_singleton_self _, View.mem_set_unit_zero hz0 inb_S1x512_S1x512_0_0 y⟩

/-! ## The body's triple -/

set_option maxHeartbeats 1000000 in
/-- The body on whole buffers, the inputs' holding `x0 … x6` and the outputs' anything, ends with the inputs' as they
    were, the first output's at the rectified combination and the second's at the attention weights. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512 .f32) (harg9 : arg9.IsWhole)
    (x0 x1 : Vec F S1x1024 .f32) (x2 : Vec F S512x1024 .f32) (x3 : Vec F S512x2048 .f32) (x4 : Vec F S1x512 .f32) (x5 : Vec F S1024x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x3 x4)) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-! ## The pipeline's proof data -/

/-- After the body each input's buffer holds its block and each output's the body's function of the input blocks;
    nothing is owed, every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 3 t) (iblk0 V c 4 t) := by dsimp only [dat0]

/-- Each input's buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at the point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- At the one grid point the body, handed every input buffer at its block, returns them so and each output buffer at
    its function of the input blocks. -/
theorem body_obligation0 (c : Dev nD) : BodyObligation (dat0 (F := F) V c) (defs₀ (F := F)) Variants.none () Set.univ := fun t => by
  rw [bigSep_W0, bigSep_W0]
  exact sound_body0 V c t

/-! ## The arrays after the region -/

/-- Every index map is constantly zero and every block is its whole array, so each input block is the array itself. -/
theorem iblk0_0 (c : Dev nD) (t : Fin cfg0.N) : iblk0 V c 0 t = V c main_v6 := by
  have hz' : (fun a => win0_0.index t a * main_v6.ty.shape.size a) = fun _ => 0 := funext fun a => by fin_cases a <;> rfl
  exact Memref.read_access_unit_zero (Elt F) main_v6 hz' (fun a => by rw [congrFun hz' a]; simp) (V c main_v6)
theorem iblk0_1 (c : Dev nD) (t : Fin cfg0.N) : iblk0 V c 1 t = V c main_v7 := by
  have hz' : (fun a => win0_1.index t a * main_v7.ty.shape.size a) = fun _ => 0 := funext fun a => by fin_cases a <;> rfl
  exact Memref.read_access_unit_zero (Elt F) main_v7 hz' (fun a => by rw [congrFun hz' a]; simp) (V c main_v7)
theorem iblk0_2 (c : Dev nD) (t : Fin cfg0.N) : iblk0 V c 2 t = V c main_arg2 := by
  have hz' : (fun a => win0_2.index t a * main_arg2.ty.shape.size a) = fun _ => 0 := funext fun a => by fin_cases a <;> rfl
  exact Memref.read_access_unit_zero (Elt F) main_arg2 hz' (fun a => by rw [congrFun hz' a]; simp) (V c main_arg2)
theorem iblk0_3 (c : Dev nD) (t : Fin cfg0.N) : iblk0 V c 3 t = V c main_arg4 := by
  have hz' : (fun a => win0_3.index t a * main_arg4.ty.shape.size a) = fun _ => 0 := funext fun a => by fin_cases a <;> rfl
  exact Memref.read_access_unit_zero (Elt F) main_arg4 hz' (fun a => by rw [congrFun hz' a]; simp) (V c main_arg4)
theorem iblk0_4 (c : Dev nD) (t : Fin cfg0.N) : iblk0 V c 4 t = V c main_v8 := by
  have hz' : (fun a => win0_4.index t a * main_v8.ty.shape.size a) = fun _ => 0 := funext fun a => by fin_cases a <;> rfl
  exact Memref.read_access_unit_zero (Elt F) main_v8 hz' (fun a => by rw [congrFun hz' a]; simp) (V c main_v8)
theorem iblk0_5 (c : Dev nD) (t : Fin cfg0.N) : iblk0 V c 5 t = V c main_arg6 := by
  have hz' : (fun a => win0_5.index t a * main_arg6.ty.shape.size a) = fun _ => 0 := funext fun a => by fin_cases a <;> rfl
  exact Memref.read_access_unit_zero (Elt F) main_arg6 hz' (fun a => by rw [congrFun hz' a]; simp) (V c main_arg6)
theorem iblk0_6 (c : Dev nD) (t : Fin cfg0.N) : iblk0 V c 6 t = V c main_v9 := by
  have hz' : (fun a => win0_6.index t a * main_v9.ty.shape.size a) = fun _ => 0 := funext fun a => by fin_cases a <;> rfl
  exact Memref.read_access_unit_zero (Elt F) main_v9 hz' (fun a => by rw [congrFun hz' a]; simp) (V c main_v9)

/-- The block an output window writes back, read off a whole-array contents, is that contents. -/
theorem blk0_7 (t : Fin cfg0.N) (G : Vec F S1x1024 .f32) : ((cfg0.win 7).blk t).view.read (Elt F) G = G := by
  have hz' : (fun a => win0_7.index t a * main_v13_0.ty.shape.size a) = fun _ => 0 := funext fun a => by fin_cases a <;> rfl
  exact Memref.read_access_unit_zero (Elt F) main_v13_0 hz' (fun a => by rw [congrFun hz' a]; simp) G
theorem blk0_8 (t : Fin cfg0.N) (G : Vec F S1x512 .f32) : ((cfg0.win 8).blk t).view.read (Elt F) G = G := by
  have hz' : (fun a => win0_8.index t a * main_v13_1.ty.shape.size a) = fun _ => 0 := funext fun a => by fin_cases a <;> rfl
  exact Memref.read_access_unit_zero (Elt F) main_v13_1 hz' (fun a => by rw [congrFun hz' a]; simp) G

/-- The one point's block of each output window is the whole array. -/
theorem mem_blk0_7 (t : Fin cfg0.N) (i : S1x1024.Idx) : i ∈ ((cfg0.win 7).blk t).view.set := by
  have hz' : (fun a => win0_7.index t a * main_v13_0.ty.shape.size a) = fun _ => 0 := funext fun a => by fin_cases a <;> rfl
  show i ∈ ((View.whole main_v13_0).slice (win0_7.rect t)).set
  rw [View.set_slice_whole]
  exact View.mem_set_unit_zero hz' (fun a => by rw [congrFun hz' a]; simp) i
theorem mem_blk0_8 (t : Fin cfg0.N) (i : S1x512.Idx) : i ∈ ((cfg0.win 8).blk t).view.set := by
  have hz' : (fun a => win0_8.index t a * main_v13_1.ty.shape.size a) = fun _ => 0 := funext fun a => by fin_cases a <;> rfl
  show i ∈ ((View.whole main_v13_1).slice (win0_8.rect t)).set
  rw [View.set_slice_whole]
  exact View.mem_set_unit_zero hz' (fun a => by rw [congrFun hz' a]; simp) i

/-- An output window of this region is uncut: what is written back of a buffer's contents is the contents. -/
theorem cut0_7 (t : Fin cfg0.N) (G : Vec F S1x1024 .f32) : (cfg0.win 7).cut (grid0.coords t) G = G := rfl
theorem cut0_8 (t : Fin cfg0.N) (G : Vec F S1x512 .f32) : (cfg0.win 8).cut (grid0.coords t) G = G := rfl

/-- What the point writes back of the first output is the rectified combination of the input arrays. -/
theorem flushed0_7 (c : Dev nD) (t : Fin cfg0.N) :
    (dat0 V c).flushed 7 t = ((cfg0.win 7).blk t).view.read (Elt F)
      (k0_pay1 (k0_pay4 (V c main_v6) (V c main_v7) (V c main_arg4) (V c main_v8) (V c main_arg2) (V c main_arg6)) (V c main_v9)) := by
  rw [blk0_7]
  show (cfg0.win 7).cut (grid0.coords t) ((dat0 V c).after 7 t) = _
  rw [after0_7]
  unfold out0_7
  rw [View.canon_unit_zero hz0]
  simp only [View.ld_unit_zero (S := S1x1024) hz0, View.ld_unit_zero (S := S1x512) hz0, View.ld_unit_zero (S := S512x1024) hz0,
    View.ld_unit_zero (S := S512x2048) hz0, View.ld_unit_zero (S := S1024x2048) hz0]
  rw [iblk0_0, iblk0_1, iblk0_2, iblk0_3, iblk0_4, iblk0_5, iblk0_6]
  exact cut0_7 t _

/-- What the point writes back of the second output is the attention weights of the input arrays. -/
theorem flushed0_8 (c : Dev nD) (t : Fin cfg0.N) :
    (dat0 V c).flushed 8 t = ((cfg0.win 8).blk t).view.read (Elt F)
      (k0_pay3 (V c main_v6) (V c main_v7) (V c main_arg4) (V c main_v8)) := by
  rw [blk0_8]
  show (cfg0.win 8).cut (grid0.coords t) ((dat0 V c).after 8 t) = _
  rw [after0_8]
  unfold out0_8
  rw [View.canon_unit_zero hz0]
  simp only [View.ld_unit_zero (S := S1x1024) hz0, View.ld_unit_zero (S := S1x512) hz0, View.ld_unit_zero (S := S512x2048) hz0]
  rw [iblk0_0, iblk0_1, iblk0_3, iblk0_4]
  exact cut0_8 t _

/-- The first output array after the region: the rectified combination of the input arrays. -/
theorem arr0_x (c : Dev nD) :
    (dat0 V c).arrAt 7 cfg0.N
      = k0_pay1 (k0_pay4 (V c main_v6) (V c main_v7) (V c main_arg4) (V c main_v8) (V c main_arg2) (V c main_arg6)) (V c main_v9) :=
  (dat0 V c).arrAt_eq_of_cover 7 _ (fun t _ => flushed0_7 V c t) fun i => ⟨t0_0, flush0_7 t0_0, mem_blk0_7 t0_0 i⟩

/-- The second output array after the region: the attention weights of the input arrays. -/
theorem arr0_a (c : Dev nD) :
    (dat0 V c).arrAt 8 cfg0.N = k0_pay3 (V c main_v6) (V c main_v7) (V c main_arg4) (V c main_v8) :=
  (dat0 V c).arrAt_eq_of_cover 8 _ (fun t _ => flushed0_8 V c t) fun i => ⟨t0_0, flush0_8 t0_0, mem_blk0_8 t0_0 i⟩

end Cert.Kernel.Own

end
-- ==== Proof.KB.Body1.lean ====
/-
  The second region: one step of the gated recurrent cell, one grid point, every window a whole array. From the six
  input arrays as the region finds them the body leaves the new hidden row in the output, a pure function of the
  inputs; the inputs are unchanged.
-/
import proofs.«168297_j82532091560494_1_alg».proof.Proof.Gen.Kernel.Launch
import proofs.«168297_j82532091560494_1_alg».proof.Proof.Gen.Kernel.Skeleton
import proofs.«168297_j82532091560494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at the point, whether or not a transfer put it there: the window is whole
    and never idle, and the body leaves the block in place. One lemma per input window, for any proof data over the
    region's entry contents. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

abbrev r1_a : Rect S1x1024 := Rect.unit (s := S1x1024) ![0, 0] S1x1024.size inb_S1x1024_S1x1024_0_0
abbrev r1_b : Rect S3072x1024 := Rect.unit (s := S3072x1024) ![0, 0] S3072x1024.size inb_S3072x1024_S3072x1024_0_0
abbrev r1_c : Rect S1x3072 := Rect.unit (s := S1x3072) ![0, 0] S1x3072.size inb_S1x3072_S1x3072_0_0

/-- The new hidden row from the input row, the hidden row, the two gate matrices and their biases. -/
def out1_6 (x0 x1 : Vec F S1x1024 .f32) (x2 x3 : Vec F S3072x1024 .f32) (x4 x5 : Vec F S1x3072 .f32) : Vec F S1x1024 .f32 :=
  View.canon [⟨r1_a, k1_pay1 (View.ld x0 r1_a) (View.ld x1 r1_a) (View.ld x2 r1_b) (View.ld x3 r1_b) (View.ld x4 r1_c) (View.ld x5 r1_c)⟩]

/-! ## The body's stores cover the output -/

/-- The one store's rectangle is the whole row, so it covers it. -/
theorem cover1_6 (p0 : Vec F S1x1024 .f32) (y : S1x1024.Idx) :
    ∃ pc ∈ ([⟨r1_a, p0⟩] : List (View.Piece (Elt F) S1x1024 .f32)), y ∈ pc.1.set :=
  View.cover_of_tiled [⟨r1_a, p0⟩] S1x1024.size (by rfl) y

/-! ## The body's triple -/

set_option maxHeartbeats 1000000 in
/-- On any seven whole buffers, the six inputs at read contents `x0 … x5` and the output at anything, the body runs to
    the inputs as they were and the output at the new hidden row of the inputs. -/
theorem sound_kernel1 (c : Dev nD) (E : Set ℕ) (i : grid1.Coords) (arg1 : Memref sig .tc .vmem S1x1024 .f32) (harg1 : arg1.IsWhole) (arg2 : Memref sig .tc .vmem S1x1024 .f32) (harg2 : arg2.IsWhole) (arg3 : Memref sig .tc .vmem S3072x1024 .f32) (harg3 : arg3.IsWhole) (arg4 : Memref sig .tc .vmem S3072x1024 .f32) (harg4 : arg4.IsWhole) (arg5 : Memref sig .tc .vmem S1x3072 .f32) (harg5 : arg5.IsWhole) (arg6 : Memref sig .tc .vmem S1x3072 .f32) (harg6 : arg6.IsWhole) (arg7 : Memref sig .tc .vmem S1x1024 .f32) (harg7 : arg7.IsWhole)
    (x0 x1 : Vec F S1x1024 .f32) (x2 x3 : Vec F S3072x1024 .f32) (x4 x5 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- After the body each input's buffer holds its block and the output's the body's function of the input blocks;
    nothing is owed, every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

/-- Each input's buffer holds its block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at the point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- At the one grid point the body, handed every input buffer at its block, returns them so and the output buffer at
    its function of the input blocks. -/
theorem body_obligation1 (c : Dev nD) : BodyObligation (dat1 (F := F) V c) (defs₀ (F := F)) Variants.none () Set.univ := fun t => by
  rw [bigSep_W1, bigSep_W1]
  exact sound_body1 V c t

/-! ## The blocks are the arrays -/

theorem hz1 : (![0, 0] : Fin 2 → Nat) = fun _ => 0 := funext fun a => by fin_cases a <;> rfl

/-- Every index map of the region is constant zero and every block a whole array: an input window's block, read off
    its array, is the array. -/
theorem iblk1_0 (c : Dev nD) (t : Fin cfg1.N) : iblk1 V c 0 t = V c main_v13_0 := by
  have hz' : (fun a => win1_0.index t a * main_v13_0.ty.shape.size a) = fun _ => 0 := funext fun a => by fin_cases a <;> rfl
  exact Memref.read_access_unit_zero (Elt F) main_v13_0 hz' (fun a => by rw [congrFun hz' a]; simp) (V c main_v13_0)
theorem iblk1_1 (c : Dev nD) (t : Fin cfg1.N) : iblk1 V c 1 t = V c main_v7 := by
  have hz' : (fun a => win1_1.index t a * main_v7.ty.shape.size a) = fun _ => 0 := funext fun a => by fin_cases a <;> rfl
  exact Memref.read_access_unit_zero (Elt F) main_v7 hz' (fun a => by rw [congrFun hz' a]; simp) (V c main_v7)
theorem iblk1_2 (c : Dev nD) (t : Fin cfg1.N) : iblk1 V c 2 t = V c main_arg8 := by
  have hz' : (fun a => win1_2.index t a * main_arg8.ty.shape.size a) = fun _ => 0 := funext fun a => by fin_cases a <;> rfl
  exact Memref.read_access_unit_zero (Elt F) main_arg8 hz' (fun a => by rw [congrFun hz' a]; simp) (V c main_arg8)
theorem iblk1_3 (c : Dev nD) (t : Fin cfg1.N) : iblk1 V c 3 t = V c main_arg9 := by
  have hz' : (fun a => win1_3.index t a * main_arg9.ty.shape.size a) = fun _ => 0 := funext fun a => by fin_cases a <;> rfl
  exact Memref.read_access_unit_zero (Elt F) main_arg9 hz' (fun a => by rw [congrFun hz' a]; simp) (V c main_arg9)
theorem iblk1_4 (c : Dev nD) (t : Fin cfg1.N) : iblk1 V c 4 t = V c main_v10 := by
  have hz' : (fun a => win1_4.index t a * main_v10.ty.shape.size a) = fun _ => 0 := funext fun a => by fin_cases a <;> rfl
  exact Memref.read_access_unit_zero (Elt F) main_v10 hz' (fun a => by rw [congrFun hz' a]; simp) (V c main_v10)
theorem iblk1_5 (c : Dev nD) (t : Fin cfg1.N) : iblk1 V c 5 t = V c main_v11 := by
  have hz' : (fun a => win1_5.index t a * main_v11.ty.shape.size a) = fun _ => 0 := funext fun a => by fin_cases a <;> rfl
  exact Memref.read_access_unit_zero (Elt F) main_v11 hz' (fun a => by rw [congrFun hz' a]; simp) (V c main_v11)

/-- The one store through the whole row leaves its payload, and each load through a whole rectangle reads the buffer. -/
theorem out1_6_eq (x0 x1 : Vec F S1x1024 .f32) (x2 x3 : Vec F S3072x1024 .f32) (x4 x5 : Vec F S1x3072 .f32) :
    out1_6 x0 x1 x2 x3 x4 x5 = k1_pay1 x0 x1 x2 x3 x4 x5 := by
  unfold out1_6
  rw [View.canon_unit_zero hz1]
  simp only [View.ld_unit_zero (S := S1x1024) hz1, View.ld_unit_zero (S := S3072x1024) hz1, View.ld_unit_zero (S := S1x3072) hz1]

/-- What the point writes back is the whole-array block of the new hidden row of the input arrays. -/
theorem flushed1_6 (c : Dev nD) (t : Fin cfg1.N) :
    (dat1 V c).flushed 6 t = ((cfg1.win 6).blk t).view.read (Elt F)
      (k1_pay1 (V c main_v13_0) (V c main_v7) (V c main_arg8) (V c main_arg9) (V c main_v10) (V c main_v11)) := by
  show (cfg1.win 6).cut (grid1.coords t) ((dat1 V c).after 6 t) = _
  rw [after1_6, out1_6_eq, iblk1_0, iblk1_1, iblk1_2, iblk1_3, iblk1_4, iblk1_5]
  have hz' : (fun a => win1_6.index t a * main_v14.ty.shape.size a) = fun _ => 0 := funext fun a => by fin_cases a <;> rfl
  exact (Memref.read_access_unit_zero (Elt F) main_v14 hz' (fun a => by rw [congrFun hz' a]; simp) _).symm

/-! ## The array after the region -/

/-- The output array after the region: the new hidden row of the input arrays. -/
theorem arr1_h (c : Dev nD) :
    (dat1 V c).arrAt 6 cfg1.N
      = k1_pay1 (V c main_v13_0) (V c main_v7) (V c main_arg8) (V c main_arg9) (V c main_v10) (V c main_v11) :=
  (dat1 V c).arrAt_eq_of_cover 6 _ (fun t _ => flushed1_6 V c t) fun i =>
    ⟨t1_0, flush1_6 t1_0, by
      show i ∈ ((View.whole main_v14).slice (win1_6.rect t1_0)).set
      rw [View.set_slice_whole]
      have hz' : (fun a => win1_6.index t1_0 a * win1_6.size a) = fun _ => 0 := funext fun a => by fin_cases a <;> rfl
      exact View.mem_set_unit_zero hz' _ i⟩

end Cert.Kernel.Own

end
-- ==== Proof.KB.Vals01.lean ====
/-
  What the TensorCore's buffers hold at the first boundaries between the items of the program: at launch; after the
  first stretch of host operations; after the first region and after the second, whose output arrays hold what the
  region's write-backs leave and whose every other buffer is untouched. Neither the host operations nor the two
  regions write an argument, so every argument's buffer still holds what it held at launch.
-/
import proofs.«168297_j82532091560494_1_alg».proof.Proof.Gen.Kernel.Launch
import proofs.«168297_j82532091560494_1_alg».proof.Proof.Gen.Kernel.Skeleton
import proofs.«168297_j82532091560494_1_alg».proof.Proof.Gen.Kernel.Points
import proofs.«168297_j82532091560494_1_alg».proof.Proof.KB.Body0
import proofs.«168297_j82532091560494_1_alg».proof.Proof.KB.Body1
import proofs.«168297_j82532091560494_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- At launch. -/
abbrev W0 (c : Dev nD) : Valuation τ sig (Elt F) := fun b => m (c, b)
/-- After the first stretch of host operations: the first region's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first region: its arrays at what its write-backs leave, every other buffer as it was. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second region: the third region's entry. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b

/-! ## A region's arrays after it, and the buffers it leaves alone -/

/-- After the first region each of its arrays holds what its write-backs leave, -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- and a buffer that is none of its arrays what it held before. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same of the second region. -/
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- An input window's array is never written back to: after the region it holds what it held at entry. -/
theorem keep0_in (c : Dev nD) (w : Fin cfg0.W) (hw : (cfg0.win w).isOut = false) :
    V2 m c (Pipeline.arrRef spec0 w) = V1 m c (Pipeline.arrRef spec0 w) :=
  (W2_arr m c w).trans (((dat0 (V1 m) c).arrAt_in w hw _).trans (A_eq0 (V1 m) c w))
theorem keep1_in (c : Dev nD) (w : Fin cfg1.W) (hw : (cfg1.win w).isOut = false) :
    V3 m c (Pipeline.arrRef spec1 w) = V2 m c (Pipeline.arrRef spec1 w) :=
  (W3_arr m c w).trans (((dat1 (V2 m) c).arrAt_in w hw _).trans (A_eq1 (V2 m) c w))

/-- The first region's output windows stage the two result arrays and no other. -/
theorem out_arr0 : ∀ w : Fin cfg0.W, (cfg0.win w).isOut = false ∨ Pipeline.arrRef spec0 w = main_v13_0 ∨ Pipeline.arrRef spec0 w = main_v13_1 := by
  decide
/-- The second region's one output window stages the new hidden row's array. -/
theorem out_arr1 : ∀ w : Fin cfg1.W, (cfg1.win w).isOut = false ∨ Pipeline.arrRef spec1 w = main_v14 := by
  decide

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The first region changes only its two output arrays: any other buffer, an input array of it or a buffer it never
    stages, holds after it what it held before. -/
theorem keep0 (c : Dev nD) (b : Ref sig .tc) (h7 : b ≠ main_v13_0) (h8 : b ≠ main_v13_1) : V2 m c b = V1 m c b := by
  by_cases h : ∃ w, Pipeline.arrRef spec0 w = b
  · obtain ⟨w, rfl⟩ := h
    rcases out_arr0 w with hw | hw | hw
    · exact keep0_in m c w hw
    · exact absurd hw h7
    · exact absurd hw h8
  · exact W2_of_ne m c b fun w e => h ⟨w, e⟩
/-- The second region changes only its output array. -/
theorem keep1 (c : Dev nD) (b : Ref sig .tc) (h6 : b ≠ main_v14) : V3 m c b = V2 m c b := by
  by_cases h : ∃ w, Pipeline.arrRef spec1 w = b
  · obtain ⟨w, rfl⟩ := h
    rcases out_arr1 w with hw | hw
    · exact keep1_in m c w hw
    · exact absurd hw h6
  · exact W3_of_ne m c b fun w e => h ⟨w, e⟩

/-! ## Every argument is as launched when the third region is entered -/

/-- No host operation of the first stretch writes a buffer outside the stretch's own results. -/
theorem W1_of (c : Dev nD) (r : Ref sig .tc) (h : r ∉ hostOps0_W) : W1 m c (Proc.devRef .tc r) = m ((c : Thread nD τ).loc r) :=
  StableHlo.after_of_writes_sub hostOps0 _ hostOps0_writes h

/-- A buffer that no host operation of the first stretch writes and that is no output array of the first two regions
    holds, when the third region is entered, what it held at launch. -/
theorem W3_of_launch (c : Dev nD) (r : Ref sig .tc) (h : r ∉ hostOps0_W) (h7 : r ≠ main_v13_0) (h8 : r ≠ main_v13_1) (h6 : r ≠ main_v14) :
    W3 m c (Proc.devRef .tc r) = m ((c : Thread nD τ).loc r) :=
  (keep1 m c r h6).trans <| (keep0 m c r h7 h8).trans <| W1_of m c r h

theorem W3_main_arg0 (c : Dev nD) : W3 m c (Proc.devRef .tc main_arg0) = m ((c : Thread nD τ).loc main_arg0) :=
  W3_of_launch m c main_arg0 (by decide) (by decide) (by decide) (by decide)
theorem W3_main_arg1 (c : Dev nD) : W3 m c (Proc.devRef .tc main_arg1) = m ((c : Thread nD τ).loc main_arg1) :=
  W3_of_launch m c main_arg1 (by decide) (by decide) (by decide) (by decide)
theorem W3_main_arg2 (c : Dev nD) : W3 m c (Proc.devRef .tc main_arg2) = m ((c : Thread nD τ).loc main_arg2) :=
  W3_of_launch m c main_arg2 (by decide) (by decide) (by decide) (by decide)
theorem W3_main_arg3 (c : Dev nD) : W3 m c (Proc.devRef .tc main_arg3) = m ((c : Thread nD τ).loc main_arg3) :=
  W3_of_launch m c main_arg3 (by decide) (by decide) (by decide) (by decide)
theorem W3_main_arg4 (c : Dev nD) : W3 m c (Proc.devRef .tc main_arg4) = m ((c : Thread nD τ).loc main_arg4) :=
  W3_of_launch m c main_arg4 (by decide) (by decide) (by decide) (by decide)
theorem W3_main_arg5 (c : Dev nD) : W3 m c (Proc.devRef .tc main_arg5) = m ((c : Thread nD τ).loc main_arg5) :=
  W3_of_launch m c main_arg5 (by decide) (by decide) (by decide) (by decide)
theorem W3_main_arg6 (c : Dev nD) : W3 m c (Proc.devRef .tc main_arg6) = m ((c : Thread nD τ).loc main_arg6) :=
  W3_of_launch m c main_arg6 (by decide) (by decide) (by decide) (by decide)
theorem W3_main_arg7 (c : Dev nD) : W3 m c (Proc.devRef .tc main_arg7) = m ((c : Thread nD τ).loc main_arg7) :=
  W3_of_launch m c main_arg7 (by decide) (by decide) (by decide) (by decide)
theorem W3_main_arg8 (c : Dev nD) : W3 m c (Proc.devRef .tc main_arg8) = m ((c : Thread nD τ).loc main_arg8) :=
  W3_of_launch m c main_arg8 (by decide) (by decide) (by decide) (by decide)
theorem W3_main_arg9 (c : Dev nD) : W3 m c (Proc.devRef .tc main_arg9) = m ((c : Thread nD τ).loc main_arg9) :=
  W3_of_launch m c main_arg9 (by decide) (by decide) (by decide) (by decide)
theorem W3_main_arg10 (c : Dev nD) : W3 m c (Proc.devRef .tc main_arg10) = m ((c : Thread nD τ).loc main_arg10) :=
  W3_of_launch m c main_arg10 (by decide) (by decide) (by decide) (by decide)
theorem W3_main_arg11 (c : Dev nD) : W3 m c (Proc.devRef .tc main_arg11) = m ((c : Thread nD τ).loc main_arg11) :=
  W3_of_launch m c main_arg11 (by decide) (by decide) (by decide) (by decide)
theorem W3_main_arg12 (c : Dev nD) : W3 m c (Proc.devRef .tc main_arg12) = m ((c : Thread nD τ).loc main_arg12) :=
  W3_of_launch m c main_arg12 (by decide) (by decide) (by decide) (by decide)
theorem W3_main_arg13 (c : Dev nD) : W3 m c (Proc.devRef .tc main_arg13) = m ((c : Thread nD τ).loc main_arg13) :=
  W3_of_launch m c main_arg13 (by decide) (by decide) (by decide) (by decide)

end Cert.Kernel.Own

end
-- ==== Proof.KB.Kern2.lean ====
/-
  The body of the third region on arbitrary whole buffers: it loads the hidden row, one block of rows of the output
  matrix and the matching block of the bias, and stores into the output buffer the row of inner products plus the bias;
  the three input buffers are left as they were. Nothing is asked of what the buffers hold.
-/
import proofs.«168297_j82532091560494_1_alg».proof.Proof.Gen.Kernel.Launch
import proofs.«168297_j82532091560494_1_alg».proof.Proof.Gen.Kernel.Skeleton
import proofs.«168297_j82532091560494_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev r2_a : Rect S1x1024 := Rect.unit (s := S1x1024) ![0, 0] S1x1024.size inb_S1x1024_S1x1024_0_0
abbrev r2_b : Rect S2048x1024 := Rect.unit (s := S2048x1024) ![0, 0] S2048x1024.size inb_S2048x1024_S2048x1024_0_0
abbrev r2_c : Rect S1x2048 := Rect.unit (s := S1x2048) ![0, 0] S1x2048.size inb_S1x2048_S1x2048_0_0

/-- What the body leaves in the output buffer, from what the three input buffers hold: its one store. -/
def out2_3 (x0 : Vec F S1x1024 .f32) (x1 : Vec F S2048x1024 .f32) (x2 : Vec F S1x2048 .f32) : Vec F S1x2048 .f32 :=
  View.canon [⟨r2_c, k2_pay1 (View.ld x0 r2_a) (View.ld x1 r2_b) (View.ld x2 r2_c)⟩]

/-- The one stored rectangle is the whole buffer, so every index of the buffer lies in it. -/
private theorem cover2_3 (p0 : Vec F S1x2048 .f32) (y : S1x2048.Idx) :
    ∃ pc ∈ ([⟨r2_c, p0⟩] : List (View.Piece (Elt F) S1x2048 .f32)), y ∈ pc.1.set :=
  View.cover_of_tiled [⟨r2_c, p0⟩] S1x2048.size (by rfl) y

/-- The store covers the buffer and each load reads a whole buffer, so the output is the payload of the inputs. -/
theorem out2_3_eq (x0 : Vec F S1x1024 .f32) (x1 : Vec F S2048x1024 .f32) (x2 : Vec F S1x2048 .f32) :
    out2_3 x0 x1 x2 = k2_pay1 x0 x1 x2 := by
  have hz : (![0, 0] : Fin 2 → Nat) = fun _ => 0 := funext fun a => by fin_cases a <;> rfl
  unfold out2_3
  rw [View.canon_unit_zero hz]
  rw [View.ld_unit_zero (S := S1x1024) hz, View.ld_unit_zero (S := S2048x1024) hz, View.ld_unit_zero (S := S1x2048) hz]

set_option maxHeartbeats 1000000 in
/-- The body on whole buffers, the inputs at any contents `x0`, `x1`, `x2` and the output at anything: it ends with the
    inputs as they were and the output at `out2_3 x0 x1 x2`. -/
theorem sound_kernel2 (c : Dev nD) (E : Set ℕ) (i : grid2.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f1, %hf1, H1⟩, ⟨%f2, %hf2, H2⟩, ⟨%f3, %hf3, H3⟩, ⟨%d4, %f4, -, H4⟩, Hk⟩
  subst hf1
  subst hf2
  subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

end Cert.Kernel.Own

end
-- ==== Proof.KB.Body2.lean ====
/-
  The third region at the word level. Its last block of rows overhangs the output matrix, so the fetch leaves the
  buffer's tail at words nothing names, and the matrix product of the block is not a function of the rows inside the
  matrix alone: what the region writes into the logits array cannot be named before the run. Nothing that the frame
  claims reads it. So every window is forgotten: the body is handed each buffer at some contents and returns each at
  some contents, which is all the loop needs to run the region to its end with the input arrays untouched.
-/
import proofs.«168297_j82532091560494_1_alg».proof.Proof.Gen.Kernel.Launch
import proofs.«168297_j82532091560494_1_alg».proof.Proof.Gen.Kernel.Skeleton
import proofs.«168297_j82532091560494_1_alg».proof.Proof.Gen.Kernel.Points
import proofs.«168297_j82532091560494_1_alg».proof.Proof.KB.Kern2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The proof data of the third region with nothing named: the arrays as the region finds them; no window's staging
    contents stated; nothing owed, every share full. -/
def dat2u (c : Dev nD) : Dat τ (Elt F) Unit ℕ (UR sig nD τ) ℕ cfg2 c where
  A w := V c (Pipeline.arrRef spec2 w)
  after w t := Dat.unnamed w t
  Φ _ := Pipeline.ΦA spec2 c
  q _ := fullShare
  owed _ := 0

theorem A_eq2u (c : Dev nD) (w : Fin cfg2.W) : (dat2u V c).A w = V c (Pipeline.arrRef spec2 w) := by
  dsimp only [dat2u]

/-- Every window forgotten. -/
abbrev fgtAll : Fin cfg2.W → Bool := fun _ => true

/-- What the body is called with at point `t`: each of the four buffers at some contents, -/
def bodyPre2u (c : Dev nD) (t : Fin cfg2.N) : sProp 𝕄 :=
  iprop((dat2u V c).Φ t.castSucc ∗ (dat2u V c).owesAt () t.castSucc
    ∗ (∃ X, owns (c : Thread nD τ) (st2_0 t) fullShare X)
    ∗ (∃ X, owns (c : Thread nD τ) (st2_1 t) fullShare X)
    ∗ (∃ X, owns (c : Thread nD τ) (st2_2 t) fullShare X)
    ∗ (∃ X, owns (c : Thread nD τ) (st2_3 t) fullShare X))

/-- and what it returns: each at some contents. -/
def bodyPost2u (c : Dev nD) (t : Fin cfg2.N) : sProp 𝕄 :=
  iprop((dat2u V c).Φ t.succ ∗ (dat2u V c).owesAt () t.succ
    ∗ (∃ X, owns (c : Thread nD τ) (st2_0 t) fullShare X)
    ∗ (∃ X, owns (c : Thread nD τ) (st2_1 t) fullShare X)
    ∗ (∃ X, owns (c : Thread nD τ) (st2_2 t) fullShare X)
    ∗ (∃ X, owns (c : Thread nD τ) (st2_3 t) fullShare X))

/-- The body at the point: its triple holds at whatever the three input buffers hold, and returns them so and the
    output buffer at its function of them; the invariant and what the core owes pass through unread. -/
theorem sound_body2u (c : Dev nD) (t : Fin cfg2.N) :
    bodyPre2u V c t ⊢ wp frame (wpE (defs₀ (F := F)) Variants.none c none) Set.univ (bodyAt2 t) (fun _ => bodyPost2u V c t) := by
  unfold bodyPre2u bodyPost2u bodyAt2
  rw [show (dat2u V c).Φ t.succ = (dat2u V c).Φ t.castSucc from rfl,
    show (dat2u V c).owesAt () t.succ = (dat2u V c).owesAt () t.castSucc from rfl]
  iintro ⟨HΦ, Ho, ⟨%X0, H0⟩, ⟨%X1, H1⟩, ⟨%X2, H2⟩, ⟨%X3, H3⟩⟩
  iapply (sound_kernel2 c Set.univ (grid2.coords t) _ _ _ _ _ _ _ _ X0 X1 X2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-- At every point the body, handed its four buffers at any contents, returns them at some contents. -/
theorem body_obligation2u (c : Dev nD) :
    BodyObligationLoose (dat2u (F := F) V c) (defs₀ (F := F)) Variants.none () Set.univ fgtAll := fun t => by
  simp only [bigSep_W2]
  exact sound_body2u V c t

end Cert.Kernel.Own

end
-- ==== Proof.KB.HostX.lean ====
/-
  A stretch of host operations entered with one buffer at contents that are not known before the run. The stretch's
  rule holds at every valuation of the buffers; so from "the buffers at the valuation `W x`, for SOME `x`" the
  stretch runs to "the buffers at the operations' composed function of `W x`, for some `x`": the witness is opened
  before the rule is applied and closed again after it.
-/
import proofs.«168297_j82532091560494_1_alg».proof.Proof.Gen.Kernel.Launch
import proofs.«168297_j82532091560494_1_alg».proof.Proof.Gen.Kernel.Skeleton
import proofs.«168297_j82532091560494_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- The stretch `ops` as a segment from the buffers at `W x` for some `x` to the buffers at `after ops (W x)` for
    some `x`. -/
def hsegX {ι : Type} (ops : List (HloOp τ sig (Elt F))) (hsub : ops.Forall fun op => op.bufs ⊆ StableHlo.tcRefs τ sig)
    (hfresh : ops.Forall fun op => op.fresh = ∅) (W : ι → Dev nD → Valuation τ sig (Elt F)) :
    Pipeline.HostSeg (Name := ℕ) (U := UR sig nD τ) (pcfgs (F := F)) defs₀ 𝒱₀ L lv where
  prog := StableHlo.seq ops
  pre c := iprop(∃ x, StableHlo.held (c : Thread nD τ) (Pipeline.ucRefs τ sig) (W x c) ∗ R c)
  post c := iprop(∃ x, StableHlo.held (c : Thread nD τ) (Pipeline.ucRefs τ sig) (StableHlo.after ops (W x c)) ∗ R c)
  run c {β} k K := by
    have hseq := fun x => StableHlo.wp_seq (defs := Pipeline.defs (pcfgs (F := F)) defs₀) (Variants.lift 𝒱₀) none Set.univ c
      (Pipeline.ucRefs τ sig) k (K := K) ops
      (fun op h => Pipeline.sub_ucRefs op ((List.forall_iff_forall_mem.mp hsub) op h))
      (fun op h => (List.forall_iff_forall_mem.mp hfresh) op h) (W x c)
    iintro ⟨Hk, Hbd, ⟨%x, Hh, HR⟩, -⟩
    iapply (hseq x) $$ [Hbd Hh]
    · isplitl [Hbd] <;> iassumption
    iintro ⟨Hbd, Hh⟩
    iapply Hk
    isplitl [Hbd]; · iexact Hbd
    iexists x
    isplitl [Hh] <;> iassumption

end Cert.Kernel.Own

end
-- ==== Proof.KB.Regs.lean ====
/-
  The three regions of the word-level program as segments. The first two are entered and left with every buffer at
  contents named before the run, as for the idealized program. The third is entered so, and left with the logits array
  at SOME contents: its last block's fetch leaves words nothing names in the buffer and the matrix product carries them
  into every column of the block, so no function of the launch memory names what is written back. The input arrays of
  the third region are never written, so they leave it as they entered.
-/
import proofs.«168297_j82532091560494_1_alg».proof.Proof.Gen.Kernel.Launch
import proofs.«168297_j82532091560494_1_alg».proof.Proof.Gen.Kernel.Skeleton
import proofs.«168297_j82532091560494_1_alg».proof.Proof.Gen.Kernel.Points
import proofs.«168297_j82532091560494_1_alg».proof.Proof.KB.Vals01
import proofs.«168297_j82532091560494_1_alg».proof.Proof.KB.Body2
import proofs.«168297_j82532091560494_1_alg».proof.Proof.KB.HostX
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The buffers after the third region, should its output array hold `X`: every other buffer as the region found it. -/
abbrev W4x (X : (c : Dev nD) → Buf (Elt F) ((c : Thread nD τ).loc main_v15)) (c : Dev nD) : Valuation τ sig (Elt F) :=
  Function.update (W3 m c) (Proc.devRef .tc main_v15) (X c)

/-- Every pipeline's proof data in relational form: the first two regions' exact, the third's with every window
    forgotten. -/
def rdats : (p : Fin 3) → (c : Dev nD) → Pipeline.RDat τ (Elt F) Unit ℕ (UR sig nD τ) ℕ (Pipeline.pin (pcfgs (F := F)) adm p) c
  | ⟨0, _⟩ => fun c => (dat0 (V1 m) c).toR
  | ⟨1, _⟩ => fun c => (dat1 (V2 m) c).toR
  | ⟨2, _⟩ => fun c => (dat2u (V3 m) c).toRForget fgtAll

/-- The same data in exact form, the third region's with nothing named: what the exit of a region reads the shares
    and the arrays' contents off. -/
private def edats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2u (V3 m) c

/-- The buffers after the third region, read at one of its arrays: an input array holds what it held at entry, -/
private theorem W4x_in (X : (c : Dev nD) → Buf (Elt F) ((c : Thread nD τ).loc main_v15)) (c : Dev nD) (w : Fin cfg2.W) (hw : w ≠ 3) :
    W4x m X c (Proc.devRef .tc (Pipeline.arrRef spec2 w)) = V3 m c (Pipeline.arrRef spec2 w) :=
  Function.update_of_ne (fun e => hw (launch2.win.arr_inj
    (Proc.devRef_injective _ e : Pipeline.arrRef spec2 w = Pipeline.arrRef spec2 3))) (X c) (W3 m c)

/-- the output array the contents `X`, -/
private theorem W4x_out (X : (c : Dev nD) → Buf (Elt F) ((c : Thread nD τ).loc main_v15)) (c : Dev nD) :
    W4x m X c (Proc.devRef .tc (Pipeline.arrRef spec2 3)) = X c := by
  show Function.update (W3 m c) (Proc.devRef .tc main_v15) (X c) (Proc.devRef .tc main_v15) = X c
  rw [Function.update_self]

/-- and a buffer that is no array of the region what it held at entry. -/
private theorem W4x_rest (X : (c : Dev nD) → Buf (Elt F) ((c : Thread nD τ).loc main_v15)) (c : Dev nD) :
    ∀ b, b ∉ Finset.univ.image (Pipeline.arrRef spec2) → W4x m X c (Proc.devRef .tc b) = V3 m c b :=
  fun b hb => Function.update_of_ne (fun e => hb (Finset.mem_image.mpr
    ⟨3, Finset.mem_univ _, (Proc.devRef_injective _ e : b = Pipeline.arrRef spec2 3).symm⟩)) (X c) (W3 m c)

set_option backward.isDefEq.respectTransparency.types false in
/-- Region 0 over the thread state, in relational form. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    refine (sep_mono (Entails.of_eq ((edats m 0 c).toR_arraysAt_eq cfg0.N)) .rfl).trans ?_
    have hjoin := Pipeline.unscopedBufs_of_arrays (p := 0) (pcfgs (F := F)) adm (Ix := Unit) (Name := ℕ) (U := UR sig nD τ) (Lvl := ℕ)
      launch0.win launch0.arr_whole c (edats m) ((edats m 0 c).share_full fun _ => rfl)
      (V1 m c) (V2 m c) ((edats m 0 c).arrAt · cfg0.N) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

set_option backward.isDefEq.respectTransparency.types false in
/-- Region 1 over the thread state, in relational form. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    refine (sep_mono (Entails.of_eq ((edats m 1 c).toR_arraysAt_eq cfg1.N)) .rfl).trans ?_
    have hjoin := Pipeline.unscopedBufs_of_arrays (p := 1) (pcfgs (F := F)) adm (Ix := Unit) (Name := ℕ) (U := UR sig nD τ) (Lvl := ℕ)
      launch1.win launch1.arr_whole c (edats m) ((edats m 1 c).share_full fun _ => rfl)
      (V2 m c) (V3 m c) ((edats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

set_option maxHeartbeats 1000000 in
set_option backward.isDefEq.respectTransparency.types false in
/-- Region 2 over the thread state, in relational form. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2u (V3 m) c).toRForget
  hwaits := Pipeline.RDat.hwaits_of_owed_zero _ _ _ _ L lv 2 fun _ _ => rfl
  pre c := iprop(StableHlo.held (c : Thread nD τ) (Pipeline.ucRefs τ sig) (W3 m c) ∗ R c)
  post c := iprop(∃ X : (c : Dev nD) → Buf (Elt F) ((c : Thread nD τ).loc main_v15), StableHlo.held (c : Thread nD τ) (Pipeline.ucRefs τ sig) (W4x m X c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    classical
    refine (sep_mono (show (rdats m 2 c).arraysAt _ ⊢ _ from Entails.of_eq (bigSep_W2 _)) .rfl).trans ?_
    iintro ⟨⟨⟨%F0, %h0, H0⟩, ⟨%F1, %h1, H1⟩, ⟨%F2, %h2, H2⟩, ⟨%F3, %h3, H3⟩⟩, HO, HY, Hrest⟩
    have e0 : F0 = V3 m c (Pipeline.arrRef spec2 0) := Eq.mp (congrFun ((rdats m 2 c).ArrAt_in 0 rfl _) F0) h0
    have e1 : F1 = V3 m c (Pipeline.arrRef spec2 1) := Eq.mp (congrFun ((rdats m 2 c).ArrAt_in 1 rfl _) F1) h1
    have e2 : F2 = V3 m c (Pipeline.arrRef spec2 2) := Eq.mp (congrFun ((rdats m 2 c).ArrAt_in 2 rfl _) F2) h2
    let X : (c' : Dev nD) → Buf (Elt F) ((c' : Thread nD τ).loc main_v15) :=
      Function.update (fun c' => W3 m c' (Proc.devRef .tc main_v15)) c F3
    have hX : X c = F3 := Function.update_self _ _ _
    let Fam : (w : Fin cfg2.W) → Buf (Elt F) ((cfg2.win w).arr.view.loc (c : Thread nD τ)) := fun w => match w with
      | ⟨0, _⟩ => F0
      | ⟨1, _⟩ => F1
      | ⟨2, _⟩ => F2
      | ⟨3, _⟩ => F3
    have hF : ∀ w, Fam w = W4x m X c (Proc.devRef .tc (Pipeline.arrRef spec2 w)) := by
      intro w
      have hw : w = 0 ∨ w = 1 ∨ w = 2 ∨ w = 3 := by revert w; decide
      rcases hw with rfl | rfl | rfl | rfl
      · exact e0.trans (W4x_in m X c 0 (by decide)).symm
      · exact e1.trans (W4x_in m X c 1 (by decide)).symm
      · exact e2.trans (W4x_in m X c 2 (by decide)).symm
      · exact hX.symm.trans (W4x_out m X c).symm
    have hjoin := Pipeline.unscopedBufs_of_arrays (p := 2) (pcfgs (F := F)) adm (Ix := Unit) (Name := ℕ) (U := UR sig nD τ) (Lvl := ℕ)
      launch2.win launch2.arr_whole c (edats m) ((edats m 2 c).share_full fun _ => rfl)
      (V3 m c) (fun b => W4x m X c b) Fam hF (W4x_rest m X c)
    rw [Pipeline.unscopedBufs_held] at hjoin
    have harr : iprop(_ ∗ _ ∗ _ ∗ _) ⊢ ((edats m 2 c).arrays Fam : sProp 𝕄) := Entails.of_eq (bigSep_W2 _).symm
    imodintro
    iexists X
    isplitl [H0 H1 H2 H3 Hrest]
    · iapply hjoin
      isplitl [H0 H1 H2 H3]
      · iapply harr
        isplitl [H0]; · iexact H0
        isplitl [H1]; · iexact H1
        isplitl [H2]; · iexact H2
        iexact H3
      iexact Hrest
    isplitl [HY]; · iexact HY
    unfold Pipeline.RDat.owesAt Pipeline.owesWithin
    icases HO with ⟨%W, -, HO⟩; iexists W; iexact HO

end Cert.Kernel.Own

end
-- ==== Proof.KB.Run.lean ====
/-
  The frame of the word-level program: from any memory with every semaphore counter at zero, every weakly fair
  execution terminates without a fault and every argument's buffer ends holding what it held at launch. The program is
  the first stretch of host operations, the three regions, the log-softmax and the closing broadcast. After the third
  region the logits array holds contents no function of the launch memory names; the two closing stretches are total
  functions of whatever it holds and write no argument, so the frame does not need to know it.
-/
import proofs.«168297_j82532091560494_1_alg».proof.Proof.Gen.Kernel.Launch
import proofs.«168297_j82532091560494_1_alg».proof.Proof.Gen.Kernel.Skeleton
import proofs.«168297_j82532091560494_1_alg».proof.Proof.Gen.Kernel.Points
import proofs.«168297_j82532091560494_1_alg».proof.Proof.KB.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment from contents named before the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- After the log-softmax, and after the closing broadcast, should the logits array have held `X`. -/
abbrev W5x (X : (c : Dev nD) → Buf (Elt F) ((c : Thread nD τ).loc main_v15)) (c : Dev nD) : Valuation τ sig (Elt F) :=
  StableHlo.after hostOps3 (W4x m X c)
abbrev W6x (X : (c : Dev nD) → Buf (Elt F) ((c : Thread nD τ).loc main_v15)) (c : Dev nD) : Valuation τ sig (Elt F) :=
  StableHlo.after hostOps3_1 (W5x m X c)

/-- A buffer that neither closing stretch writes and that is not the logits array holds at the end what it held when
    the third region was entered, whatever the logits array held. -/
theorem W6x_of (X : (c : Dev nD) → Buf (Elt F) ((c : Thread nD τ).loc main_v15)) (c : Dev nD) (r : Ref sig .tc)
    (h3 : r ∉ hostOps3_W) (h31 : r ∉ hostOps3_1_W) (hne : r ≠ main_v15) :
    W6x m X c (Proc.devRef .tc r) = W3 m c (Proc.devRef .tc r) :=
  (StableHlo.after_of_writes_sub hostOps3_1 _ hostOps3_1_writes h31).trans <|
    (StableHlo.after_of_writes_sub hostOps3 _ hostOps3_writes h3).trans <|
      Function.update_of_ne (StableHlo.devRef_ne_of_ne hne) _ _

/-- The last thread state without the debt. -/
abbrev Tₙ (c : Dev nD) : sProp 𝕄 :=
  iprop(∃ X : (c : Dev nD) → Buf (Elt F) ((c : Thread nD τ).loc main_v15),
    StableHlo.held (c : Thread nD τ) (Pipeline.ucRefs τ sig) (W6x m X c) ∗ ∃ r, prngReg c r)

/-- The program's six items in order. -/
abbrev segs : List (Pipeline.RDat.Seg (pcfgs (F := F)) adm (rdats m) () defs₀ 𝒱₀ L lv) :=
  [ .host (hseg hostOps0 hostOps0_sub hostOps0_fresh (W0 m)),
    .region (reg0 m),
    .region (reg1 m),
    .region (reg2 m),
    .host (hsegX hostOps3 hostOps3_sub hostOps3_fresh (W4x m)),
    .host (hsegX hostOps3_1 hostOps3_1_sub hostOps3_1_fresh (W5x m)) ]

/-- The last link of the chain: for whatever the logits array held, the buffers at the end beside the register and the
    empty debt regroup as the last thread state beside the empty debt. -/
theorem last_link (c : Dev nD) :
    (iprop(∃ X : (c : Dev nD) → Buf (Elt F) ((c : Thread nD τ).loc main_v15),
        StableHlo.held (c : Thread nD τ) (Pipeline.ucRefs τ sig) (StableHlo.after hostOps3_1 (W5x m X c)) ∗ R c) : sProp 𝕄)
      ⊢ iprop(Tₙ m c ∗ ∃ W, owes (c : Thread nD τ) (0 : CellTallies nD τ sig Unit) W) := by
  iintro ⟨%X, Hh, Hp, Ho⟩
  isplitl [Hh Hp]
  · iexists X
    isplitl [Hh]; · iexact Hh
    iexact Hp
  iexact Ho

set_option backward.isDefEq.respectTransparency.types false in
/-- Every weakly fair execution terminates, nothing faulting, with every argument as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit_dev (pcfgs (F := F)) adm (rdats m) () cellOf_inj emb₁ defs₀ 𝒱₀ L lv m ρ main (fun _ => segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          StableHlo.seq hostOps3_1 ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ X : (c : Dev nD) → Buf (Elt F) ((c : Thread nD τ).loc main_v15),
      ∀ b ∈ Pipeline.ucRefs τ sig, s.mem (((c : Thread nD τ)).1, b) = W6x m X c b)
    (hfin := fun c s' => by
      iintro ⟨⟨%X, Hh, -⟩, HSI⟩
      unfold StableHlo.held
      ihave Hr := (pointsTo_read_all (Pipeline.ucRefs τ sig) (fun b => (((c : Thread nD τ)).1, b)) (W6x m X c) s') $$ [Hh HSI]
      · isplitl [Hh] <;> iassumption
      icases Hr with ⟨%h, HSI⟩
      imodintro
      isplitr
      · ipureintro; exact ⟨X, h⟩
      · iexact HSI)
    (hQ := fun s h c => by
      obtain ⟨X, hX⟩ := h c
      exact ⟨(hX (Proc.devRef .tc main_arg0) (mem_uc main_arg0 (by decide))).trans ((W6x_of m X c main_arg0 (by decide) (by decide) (by decide)).trans (W3_main_arg0 m c)),
        (hX (Proc.devRef .tc main_arg1) (mem_uc main_arg1 (by decide))).trans ((W6x_of m X c main_arg1 (by decide) (by decide) (by decide)).trans (W3_main_arg1 m c)),
        (hX (Proc.devRef .tc main_arg2) (mem_uc main_arg2 (by decide))).trans ((W6x_of m X c main_arg2 (by decide) (by decide) (by decide)).trans (W3_main_arg2 m c)),
        (hX (Proc.devRef .tc main_arg3) (mem_uc main_arg3 (by decide))).trans ((W6x_of m X c main_arg3 (by decide) (by decide) (by decide)).trans (W3_main_arg3 m c)),
        (hX (Proc.devRef .tc main_arg4) (mem_uc main_arg4 (by decide))).trans ((W6x_of m X c main_arg4 (by decide) (by decide) (by decide)).trans (W3_main_arg4 m c)),
        (hX (Proc.devRef .tc main_arg5) (mem_uc main_arg5 (by decide))).trans ((W6x_of m X c main_arg5 (by decide) (by decide) (by decide)).trans (W3_main_arg5 m c)),
        (hX (Proc.devRef .tc main_arg6) (mem_uc main_arg6 (by decide))).trans ((W6x_of m X c main_arg6 (by decide) (by decide) (by decide)).trans (W3_main_arg6 m c)),
        (hX (Proc.devRef .tc main_arg7) (mem_uc main_arg7 (by decide))).trans ((W6x_of m X c main_arg7 (by decide) (by decide) (by decide)).trans (W3_main_arg7 m c)),
        (hX (Proc.devRef .tc main_arg8) (mem_uc main_arg8 (by decide))).trans ((W6x_of m X c main_arg8 (by decide) (by decide) (by decide)).trans (W3_main_arg8 m c)),
        (hX (Proc.devRef .tc main_arg9) (mem_uc main_arg9 (by decide))).trans ((W6x_of m X c main_arg9 (by decide) (by decide) (by decide)).trans (W3_main_arg9 m c)),
        (hX (Proc.devRef .tc main_arg10) (mem_uc main_arg10 (by decide))).trans ((W6x_of m X c main_arg10 (by decide) (by decide) (by decide)).trans (W3_main_arg10 m c)),
        (hX (Proc.devRef .tc main_arg11) (mem_uc main_arg11 (by decide))).trans ((W6x_of m X c main_arg11 (by decide) (by decide) (by decide)).trans (W3_main_arg11 m c)),
        (hX (Proc.devRef .tc main_arg12) (mem_uc main_arg12 (by decide))).trans ((W6x_of m X c main_arg12 (by decide) (by decide) (by decide)).trans (W3_main_arg12 m c)),
        (hX (Proc.devRef .tc main_arg13) (mem_uc main_arg13 (by decide))).trans ((W6x_of m X c main_arg13 (by decide) (by decide) (by decide)).trans (W3_main_arg13 m c))⟩)

end Cert.Kernel.Own

end
-- ==== Proof.KI.Body0.lean ====
/-
  The first region: attention and combination, one grid point, every window a whole array. From the seven input
  arrays as the region finds them the body leaves, in the first output, the rectified combination of the embedded row
  and the attended encoder row, and in the second the attention weights; both are pure functions of the inputs, so the
  two output arrays after the region are those functions of the input arrays and the inputs are unchanged.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at the point whether or not it was fetched there: unfetched, the block
    index has not moved, and the body leaves every input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

abbrev r0_a : Rect S1x1024 := Rect.unit (s := S1x1024) ![0, 0] S1x1024.size inb_S1x1024_S1x1024_0_0
abbrev r0_b : Rect S1x512 := Rect.unit (s := S1x512) ![0, 0] S1x512.size inb_S1x512_S1x512_0_0
abbrev r0_c : Rect S512x1024 := Rect.unit (s := S512x1024) ![0, 0] S512x1024.size inb_S512x1024_S512x1024_0_0
abbrev r0_d : Rect S512x2048 := Rect.unit (s := S512x2048) ![0, 0] S512x2048.size inb_S512x2048_S512x2048_0_0
abbrev r0_e : Rect S1024x2048 := Rect.unit (s := S1024x2048) ![0, 0] S1024x2048.size inb_S1024x2048_S1024x2048_0_0

/-- The attention weights from the embedded row, the hidden row, the attention matrix and its bias. -/
def out0_8 (x0 x1 : Vec F S1x1024 .f32) (x3 : Vec F S512x2048 .f32) (x4 : Vec F S1x512 .f32) : Vec F S1x512 .f32 :=
  View.canon [⟨r0_b, k0_pay3 (View.ld x0 r0_a) (View.ld x1 r0_a) (View.ld x3 r0_d) (View.ld x4 r0_b)⟩]

/-- The rectified combination from all seven inputs. -/
def out0_7 (x0 x1 : Vec F S1x1024 .f32) (x2 : Vec F S512x1024 .f32) (x3 : Vec F S512x2048 .f32) (x4 : Vec F S1x512 .f32)
    (x5 : Vec F S1024x2048 .f32) (x6 : Vec F S1x1024 .f32) : Vec F S1x1024 .f32 :=
  View.canon [⟨r0_a, k0_pay1 (k0_pay4 (View.ld x0 r0_a) (View.ld x1 r0_a) (View.ld x3 r0_d) (View.ld x4 r0_b) (View.ld x2 r0_c) (View.ld x5 r0_e)) (View.ld x6 r0_a)⟩]

/-- Both offsets of a whole-buffer access are zero. -/
theorem hz0 : (![0, 0] : Fin 2 → Nat) = fun _ => 0 := funext fun a => by fin_cases a <;> rfl

/-- The one store into each output buffer is through the whole buffer, so it covers it. -/
theorem cover0_7 (p0 : Vec F S1x1024 .f32) (y : S1x1024.Idx) :
    ∃ pc ∈ ([⟨r0_a, p0⟩] : List (View.Piece (Elt F) S1x1024 .f32)), y ∈ pc.1.set :=
  ⟨_, List.mem_singleton_self _, View.mem_set_unit_zero hz0 inb_S1x1024_S1x1024_0_0 y⟩
theorem cover0_8 (p0 : Vec F S1x512 .f32) (y : S1x512.Idx) :
    ∃ pc ∈ ([⟨r0_b, p0⟩] : List (View.Piece (Elt F) S1x512 .f32)), y ∈ pc.1.set :=
  ⟨_, List.mem_singleton_self _, View.mem_set_unit_zero hz0 inb_S1x512_S1x512_0_0 y⟩

/-! ## The body's triple -/

set_option maxHeartbeats 1000000 in
/-- The body on whole buffers, the inputs' holding `x0 … x6` and the outputs' anything, ends with the inputs' as they
    were, the first output's at the rectified combination and the second's at the attention weights. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512 .f32) (harg9 : arg9.IsWhole)
    (x0 x1 : Vec F S1x1024 .f32) (x2 : Vec F S512x1024 .f32) (x3 : Vec F S512x2048 .f32) (x4 : Vec F S1x512 .f32) (x5 : Vec F S1024x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x3 x4)) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-! ## The pipeline's proof data -/

/-- After the body each input's buffer holds its block and each output's the body's function of the input blocks;
    nothing is owed, every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 3 t) (iblk0 V c 4 t) := by dsimp only [dat0]

/-- Each input's buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at the point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- At the one grid point the body, handed every input buffer at its block, returns them so and each output buffer at
    its function of the input blocks. -/
theorem body_obligation0 (c : Dev nD) : BodyObligation (dat0 (F := F) V c) (defs₀ (F := F)) Variants.none () Set.univ := fun t => by
  rw [bigSep_W0, bigSep_W0]
  exact sound_body0 V c t

/-! ## The arrays after the region -/

/-- Every index map is constantly zero and every block is its whole array, so each input block is the array itself. -/
theorem iblk0_0 (c : Dev nD) (t : Fin cfg0.N) : iblk0 V c 0 t = V c main_v6 := by
  have hz' : (fun a => win0_0.index t a * main_v6.ty.shape.size a) = fun _ => 0 := funext fun a => by fin_cases a <;> rfl
  exact Memref.read_access_unit_zero (Elt F) main_v6 hz' (fun a => by rw [congrFun hz' a]; simp) (V c main_v6)
theorem iblk0_1 (c : Dev nD) (t : Fin cfg0.N) : iblk0 V c 1 t = V c main_v7 := by
  have hz' : (fun a => win0_1.index t a * main_v7.ty.shape.size a) = fun _ => 0 := funext fun a => by fin_cases a <;> rfl
  exact Memref.read_access_unit_zero (Elt F) main_v7 hz' (fun a => by rw [congrFun hz' a]; simp) (V c main_v7)
theorem iblk0_2 (c : Dev nD) (t : Fin cfg0.N) : iblk0 V c 2 t = V c main_arg2 := by
  have hz' : (fun a => win0_2.index t a * main_arg2.ty.shape.size a) = fun _ => 0 := funext fun a => by fin_cases a <;> rfl
  exact Memref.read_access_unit_zero (Elt F) main_arg2 hz' (fun a => by rw [congrFun hz' a]; simp) (V c main_arg2)
theorem iblk0_3 (c : Dev nD) (t : Fin cfg0.N) : iblk0 V c 3 t = V c main_arg4 := by
  have hz' : (fun a => win0_3.index t a * main_arg4.ty.shape.size a) = fun _ => 0 := funext fun a => by fin_cases a <;> rfl
  exact Memref.read_access_unit_zero (Elt F) main_arg4 hz' (fun a => by rw [congrFun hz' a]; simp) (V c main_arg4)
theorem iblk0_4 (c : Dev nD) (t : Fin cfg0.N) : iblk0 V c 4 t = V c main_v8 := by
  have hz' : (fun a => win0_4.index t a * main_v8.ty.shape.size a) = fun _ => 0 := funext fun a => by fin_cases a <;> rfl
  exact Memref.read_access_unit_zero (Elt F) main_v8 hz' (fun a => by rw [congrFun hz' a]; simp) (V c main_v8)
theorem iblk0_5 (c : Dev nD) (t : Fin cfg0.N) : iblk0 V c 5 t = V c main_arg6 := by
  have hz' : (fun a => win0_5.index t a * main_arg6.ty.shape.size a) = fun _ => 0 := funext fun a => by fin_cases a <;> rfl
  exact Memref.read_access_unit_zero (Elt F) main_arg6 hz' (fun a => by rw [congrFun hz' a]; simp) (V c main_arg6)
theorem iblk0_6 (c : Dev nD) (t : Fin cfg0.N) : iblk0 V c 6 t = V c main_v9 := by
  have hz' : (fun a => win0_6.index t a * main_v9.ty.shape.size a) = fun _ => 0 := funext fun a => by fin_cases a <;> rfl
  exact Memref.read_access_unit_zero (Elt F) main_v9 hz' (fun a => by rw [congrFun hz' a]; simp) (V c main_v9)

/-- The block an output window writes back, read off a whole-array contents, is that contents. -/
theorem blk0_7 (t : Fin cfg0.N) (G : Vec F S1x1024 .f32) : ((cfg0.win 7).blk t).view.read (Elt F) G = G := by
  have hz' : (fun a => win0_7.index t a * main_v13_0.ty.shape.size a) = fun _ => 0 := funext fun a => by fin_cases a <;> rfl
  exact Memref.read_access_unit_zero (Elt F) main_v13_0 hz' (fun a => by rw [congrFun hz' a]; simp) G
theorem blk0_8 (t : Fin cfg0.N) (G : Vec F S1x512 .f32) : ((cfg0.win 8).blk t).view.read (Elt F) G = G := by
  have hz' : (fun a => win0_8.index t a * main_v13_1.ty.shape.size a) = fun _ => 0 := funext fun a => by fin_cases a <;> rfl
  exact Memref.read_access_unit_zero (Elt F) main_v13_1 hz' (fun a => by rw [congrFun hz' a]; simp) G

/-- The one point's block of each output window is the whole array. -/
theorem mem_blk0_7 (t : Fin cfg0.N) (i : S1x1024.Idx) : i ∈ ((cfg0.win 7).blk t).view.set := by
  have hz' : (fun a => win0_7.index t a * main_v13_0.ty.shape.size a) = fun _ => 0 := funext fun a => by fin_cases a <;> rfl
  show i ∈ ((View.whole main_v13_0).slice (win0_7.rect t)).set
  rw [View.set_slice_whole]
  exact View.mem_set_unit_zero hz' (fun a => by rw [congrFun hz' a]; simp) i
theorem mem_blk0_8 (t : Fin cfg0.N) (i : S1x512.Idx) : i ∈ ((cfg0.win 8).blk t).view.set := by
  have hz' : (fun a => win0_8.index t a * main_v13_1.ty.shape.size a) = fun _ => 0 := funext fun a => by fin_cases a <;> rfl
  show i ∈ ((View.whole main_v13_1).slice (win0_8.rect t)).set
  rw [View.set_slice_whole]
  exact View.mem_set_unit_zero hz' (fun a => by rw [congrFun hz' a]; simp) i

/-- An output window of this region is uncut: what is written back of a buffer's contents is the contents. -/
theorem cut0_7 (t : Fin cfg0.N) (G : Vec F S1x1024 .f32) : (cfg0.win 7).cut (grid0.coords t) G = G := rfl
theorem cut0_8 (t : Fin cfg0.N) (G : Vec F S1x512 .f32) : (cfg0.win 8).cut (grid0.coords t) G = G := rfl

/-- What the point writes back of the first output is the rectified combination of the input arrays. -/
theorem flushed0_7 (c : Dev nD) (t : Fin cfg0.N) :
    (dat0 V c).flushed 7 t = ((cfg0.win 7).blk t).view.read (Elt F)
      (k0_pay1 (k0_pay4 (V c main_v6) (V c main_v7) (V c main_arg4) (V c main_v8) (V c main_arg2) (V c main_arg6)) (V c main_v9)) := by
  rw [blk0_7]
  show (cfg0.win 7).cut (grid0.coords t) ((dat0 V c).after 7 t) = _
  rw [after0_7]
  unfold out0_7
  rw [View.canon_unit_zero hz0]
  simp only [View.ld_unit_zero (S := S1x1024) hz0, View.ld_unit_zero (S := S1x512) hz0, View.ld_unit_zero (S := S512x1024) hz0,
    View.ld_unit_zero (S := S512x2048) hz0, View.ld_unit_zero (S := S1024x2048) hz0]
  rw [iblk0_0, iblk0_1, iblk0_2, iblk0_3, iblk0_4, iblk0_5, iblk0_6]
  exact cut0_7 t _

/-- What the point writes back of the second output is the attention weights of the input arrays. -/
theorem flushed0_8 (c : Dev nD) (t : Fin cfg0.N) :
    (dat0 V c).flushed 8 t = ((cfg0.win 8).blk t).view.read (Elt F)
      (k0_pay3 (V c main_v6) (V c main_v7) (V c main_arg4) (V c main_v8)) := by
  rw [blk0_8]
  show (cfg0.win 8).cut (grid0.coords t) ((dat0 V c).after 8 t) = _
  rw [after0_8]
  unfold out0_8
  rw [View.canon_unit_zero hz0]
  simp only [View.ld_unit_zero (S := S1x1024) hz0, View.ld_unit_zero (S := S1x512) hz0, View.ld_unit_zero (S := S512x2048) hz0]
  rw [iblk0_0, iblk0_1, iblk0_3, iblk0_4]
  exact cut0_8 t _

/-- The first output array after the region: the rectified combination of the input arrays. -/
theorem arr0_x (c : Dev nD) :
    (dat0 V c).arrAt 7 cfg0.N
      = k0_pay1 (k0_pay4 (V c main_v6) (V c main_v7) (V c main_arg4) (V c main_v8) (V c main_arg2) (V c main_arg6)) (V c main_v9) :=
  (dat0 V c).arrAt_eq_of_cover 7 _ (fun t _ => flushed0_7 V c t) fun i => ⟨t0_0, flush0_7 t0_0, mem_blk0_7 t0_0 i⟩

/-- The second output array after the region: the attention weights of the input arrays. -/
theorem arr0_a (c : Dev nD) :
    (dat0 V c).arrAt 8 cfg0.N = k0_pay3 (V c main_v6) (V c main_v7) (V c main_arg4) (V c main_v8) :=
  (dat0 V c).arrAt_eq_of_cover 8 _ (fun t _ => flushed0_8 V c t) fun i => ⟨t0_0, flush0_8 t0_0, mem_blk0_8 t0_0 i⟩

end Cert.KernelIdeal.Own

end
-- ==== Proof.KI.Body1.lean ====
/-
  The second region: one step of the gated recurrent cell, one grid point, every window a whole array. From the six
  input arrays as the region finds them the body leaves the new hidden row in the output, a pure function of the
  inputs; the inputs are unchanged.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at the point, whether or not a transfer put it there: the window is whole
    and never idle, and the body leaves the block in place. One lemma per input window, for any proof data over the
    region's entry contents. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

abbrev r1_a : Rect S1x1024 := Rect.unit (s := S1x1024) ![0, 0] S1x1024.size inb_S1x1024_S1x1024_0_0
abbrev r1_b : Rect S3072x1024 := Rect.unit (s := S3072x1024) ![0, 0] S3072x1024.size inb_S3072x1024_S3072x1024_0_0
abbrev r1_c : Rect S1x3072 := Rect.unit (s := S1x3072) ![0, 0] S1x3072.size inb_S1x3072_S1x3072_0_0

/-- The new hidden row from the input row, the hidden row, the two gate matrices and their biases. -/
def out1_6 (x0 x1 : Vec F S1x1024 .f32) (x2 x3 : Vec F S3072x1024 .f32) (x4 x5 : Vec F S1x3072 .f32) : Vec F S1x1024 .f32 :=
  View.canon [⟨r1_a, k1_pay1 (View.ld x0 r1_a) (View.ld x1 r1_a) (View.ld x2 r1_b) (View.ld x3 r1_b) (View.ld x4 r1_c) (View.ld x5 r1_c)⟩]

/-! ## The body's stores cover the output -/

/-- The one store's rectangle is the whole row, so it covers it. -/
theorem cover1_6 (p0 : Vec F S1x1024 .f32) (y : S1x1024.Idx) :
    ∃ pc ∈ ([⟨r1_a, p0⟩] : List (View.Piece (Elt F) S1x1024 .f32)), y ∈ pc.1.set :=
  View.cover_of_tiled [⟨r1_a, p0⟩] S1x1024.size (by rfl) y

/-! ## The body's triple -/

set_option maxHeartbeats 1000000 in
/-- On any seven whole buffers, the six inputs at read contents `x0 … x5` and the output at anything, the body runs to
    the inputs as they were and the output at the new hidden row of the inputs. -/
theorem sound_kernel1 (c : Dev nD) (E : Set ℕ) (i : grid1.Coords) (arg1 : Memref sig .tc .vmem S1x1024 .f32) (harg1 : arg1.IsWhole) (arg2 : Memref sig .tc .vmem S1x1024 .f32) (harg2 : arg2.IsWhole) (arg3 : Memref sig .tc .vmem S3072x1024 .f32) (harg3 : arg3.IsWhole) (arg4 : Memref sig .tc .vmem S3072x1024 .f32) (harg4 : arg4.IsWhole) (arg5 : Memref sig .tc .vmem S1x3072 .f32) (harg5 : arg5.IsWhole) (arg6 : Memref sig .tc .vmem S1x3072 .f32) (harg6 : arg6.IsWhole) (arg7 : Memref sig .tc .vmem S1x1024 .f32) (harg7 : arg7.IsWhole)
    (x0 x1 : Vec F S1x1024 .f32) (x2 x3 : Vec F S3072x1024 .f32) (x4 x5 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- After the body each input's buffer holds its block and the output's the body's function of the input blocks;
    nothing is owed, every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

/-- Each input's buffer holds its block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at the point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- At the one grid point the body, handed every input buffer at its block, returns them so and the output buffer at
    its function of the input blocks. -/
theorem body_obligation1 (c : Dev nD) : BodyObligation (dat1 (F := F) V c) (defs₀ (F := F)) Variants.none () Set.univ := fun t => by
  rw [bigSep_W1, bigSep_W1]
  exact sound_body1 V c t

/-! ## The blocks are the arrays -/

theorem hz1 : (![0, 0] : Fin 2 → Nat) = fun _ => 0 := funext fun a => by fin_cases a <;> rfl

/-- Every index map of the region is constant zero and every block a whole array: an input window's block, read off
    its array, is the array. -/
theorem iblk1_0 (c : Dev nD) (t : Fin cfg1.N) : iblk1 V c 0 t = V c main_v13_0 := by
  have hz' : (fun a => win1_0.index t a * main_v13_0.ty.shape.size a) = fun _ => 0 := funext fun a => by fin_cases a <;> rfl
  exact Memref.read_access_unit_zero (Elt F) main_v13_0 hz' (fun a => by rw [congrFun hz' a]; simp) (V c main_v13_0)
theorem iblk1_1 (c : Dev nD) (t : Fin cfg1.N) : iblk1 V c 1 t = V c main_v7 := by
  have hz' : (fun a => win1_1.index t a * main_v7.ty.shape.size a) = fun _ => 0 := funext fun a => by fin_cases a <;> rfl
  exact Memref.read_access_unit_zero (Elt F) main_v7 hz' (fun a => by rw [congrFun hz' a]; simp) (V c main_v7)
theorem iblk1_2 (c : Dev nD) (t : Fin cfg1.N) : iblk1 V c 2 t = V c main_arg8 := by
  have hz' : (fun a => win1_2.index t a * main_arg8.ty.shape.size a) = fun _ => 0 := funext fun a => by fin_cases a <;> rfl
  exact Memref.read_access_unit_zero (Elt F) main_arg8 hz' (fun a => by rw [congrFun hz' a]; simp) (V c main_arg8)
theorem iblk1_3 (c : Dev nD) (t : Fin cfg1.N) : iblk1 V c 3 t = V c main_arg9 := by
  have hz' : (fun a => win1_3.index t a * main_arg9.ty.shape.size a) = fun _ => 0 := funext fun a => by fin_cases a <;> rfl
  exact Memref.read_access_unit_zero (Elt F) main_arg9 hz' (fun a => by rw [congrFun hz' a]; simp) (V c main_arg9)
theorem iblk1_4 (c : Dev nD) (t : Fin cfg1.N) : iblk1 V c 4 t = V c main_v10 := by
  have hz' : (fun a => win1_4.index t a * main_v10.ty.shape.size a) = fun _ => 0 := funext fun a => by fin_cases a <;> rfl
  exact Memref.read_access_unit_zero (Elt F) main_v10 hz' (fun a => by rw [congrFun hz' a]; simp) (V c main_v10)
theorem iblk1_5 (c : Dev nD) (t : Fin cfg1.N) : iblk1 V c 5 t = V c main_v11 := by
  have hz' : (fun a => win1_5.index t a * main_v11.ty.shape.size a) = fun _ => 0 := funext fun a => by fin_cases a <;> rfl
  exact Memref.read_access_unit_zero (Elt F) main_v11 hz' (fun a => by rw [congrFun hz' a]; simp) (V c main_v11)

/-- The one store through the whole row leaves its payload, and each load through a whole rectangle reads the buffer. -/
theorem out1_6_eq (x0 x1 : Vec F S1x1024 .f32) (x2 x3 : Vec F S3072x1024 .f32) (x4 x5 : Vec F S1x3072 .f32) :
    out1_6 x0 x1 x2 x3 x4 x5 = k1_pay1 x0 x1 x2 x3 x4 x5 := by
  unfold out1_6
  rw [View.canon_unit_zero hz1]
  simp only [View.ld_unit_zero (S := S1x1024) hz1, View.ld_unit_zero (S := S3072x1024) hz1, View.ld_unit_zero (S := S1x3072) hz1]

/-- What the point writes back is the whole-array block of the new hidden row of the input arrays. -/
theorem flushed1_6 (c : Dev nD) (t : Fin cfg1.N) :
    (dat1 V c).flushed 6 t = ((cfg1.win 6).blk t).view.read (Elt F)
      (k1_pay1 (V c main_v13_0) (V c main_v7) (V c main_arg8) (V c main_arg9) (V c main_v10) (V c main_v11)) := by
  show (cfg1.win 6).cut (grid1.coords t) ((dat1 V c).after 6 t) = _
  rw [after1_6, out1_6_eq, iblk1_0, iblk1_1, iblk1_2, iblk1_3, iblk1_4, iblk1_5]
  have hz' : (fun a => win1_6.index t a * main_v14.ty.shape.size a) = fun _ => 0 := funext fun a => by fin_cases a <;> rfl
  exact (Memref.read_access_unit_zero (Elt F) main_v14 hz' (fun a => by rw [congrFun hz' a]; simp) _).symm

/-! ## The array after the region -/

/-- The output array after the region: the new hidden row of the input arrays. -/
theorem arr1_h (c : Dev nD) :
    (dat1 V c).arrAt 6 cfg1.N
      = k1_pay1 (V c main_v13_0) (V c main_v7) (V c main_arg8) (V c main_arg9) (V c main_v10) (V c main_v11) :=
  (dat1 V c).arrAt_eq_of_cover 6 _ (fun t _ => flushed1_6 V c t) fun i =>
    ⟨t1_0, flush1_6 t1_0, by
      show i ∈ ((View.whole main_v14).slice (win1_6.rect t1_0)).set
      rw [View.set_slice_whole]
      have hz' : (fun a => win1_6.index t1_0 a * win1_6.size a) = fun _ => 0 := funext fun a => by fin_cases a <;> rfl
      exact View.mem_set_unit_zero hz' _ i⟩

end Cert.KernelIdeal.Own

end
-- ==== Proof.KI.Vals01.lean ====
/-
  What the TensorCore's buffers hold at the first boundaries between the items of the program: at launch; after the
  first stretch of host operations; after the first region and after the second, whose output arrays hold what the
  region's write-backs leave and whose every other buffer is untouched. Neither the host operations nor the two
  regions write an argument, so every argument's buffer still holds what it held at launch.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import proofs.«168297_j82532091560494_1_alg».proof.Proof.KI.Body0
import proofs.«168297_j82532091560494_1_alg».proof.Proof.KI.Body1
import proofs.«168297_j82532091560494_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- At launch. -/
abbrev W0 (c : Dev nD) : Valuation τ sig (Elt F) := fun b => m (c, b)
/-- After the first stretch of host operations: the first region's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first region: its arrays at what its write-backs leave, every other buffer as it was. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second region: the third region's entry. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b

/-! ## A region's arrays after it, and the buffers it leaves alone -/

/-- After the first region each of its arrays holds what its write-backs leave, -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- and a buffer that is none of its arrays what it held before. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same of the second region. -/
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- An input window's array is never written back to: after the region it holds what it held at entry. -/
theorem keep0_in (c : Dev nD) (w : Fin cfg0.W) (hw : (cfg0.win w).isOut = false) :
    V2 m c (Pipeline.arrRef spec0 w) = V1 m c (Pipeline.arrRef spec0 w) :=
  (W2_arr m c w).trans (((dat0 (V1 m) c).arrAt_in w hw _).trans (A_eq0 (V1 m) c w))
theorem keep1_in (c : Dev nD) (w : Fin cfg1.W) (hw : (cfg1.win w).isOut = false) :
    V3 m c (Pipeline.arrRef spec1 w) = V2 m c (Pipeline.arrRef spec1 w) :=
  (W3_arr m c w).trans (((dat1 (V2 m) c).arrAt_in w hw _).trans (A_eq1 (V2 m) c w))

/-- The first region's output windows stage the two result arrays and no other. -/
theorem out_arr0 : ∀ w : Fin cfg0.W, (cfg0.win w).isOut = false ∨ Pipeline.arrRef spec0 w = main_v13_0 ∨ Pipeline.arrRef spec0 w = main_v13_1 := by
  decide
/-- The second region's one output window stages the new hidden row's array. -/
theorem out_arr1 : ∀ w : Fin cfg1.W, (cfg1.win w).isOut = false ∨ Pipeline.arrRef spec1 w = main_v14 := by
  decide

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The first region changes only its two output arrays: any other buffer, an input array of it or a buffer it never
    stages, holds after it what it held before. -/
theorem keep0 (c : Dev nD) (b : Ref sig .tc) (h7 : b ≠ main_v13_0) (h8 : b ≠ main_v13_1) : V2 m c b = V1 m c b := by
  by_cases h : ∃ w, Pipeline.arrRef spec0 w = b
  · obtain ⟨w, rfl⟩ := h
    rcases out_arr0 w with hw | hw | hw
    · exact keep0_in m c w hw
    · exact absurd hw h7
    · exact absurd hw h8
  · exact W2_of_ne m c b fun w e => h ⟨w, e⟩
/-- The second region changes only its output array. -/
theorem keep1 (c : Dev nD) (b : Ref sig .tc) (h6 : b ≠ main_v14) : V3 m c b = V2 m c b := by
  by_cases h : ∃ w, Pipeline.arrRef spec1 w = b
  · obtain ⟨w, rfl⟩ := h
    rcases out_arr1 w with hw | hw
    · exact keep1_in m c w hw
    · exact absurd hw h6
  · exact W3_of_ne m c b fun w e => h ⟨w, e⟩

/-! ## Every argument is as launched when the third region is entered -/

/-- No host operation of the first stretch writes a buffer outside the stretch's own results. -/
theorem W1_of (c : Dev nD) (r : Ref sig .tc) (h : r ∉ hostOps0_W) : W1 m c (Proc.devRef .tc r) = m ((c : Thread nD τ).loc r) :=
  StableHlo.after_of_writes_sub hostOps0 _ hostOps0_writes h

/-- A buffer that no host operation of the first stretch writes and that is no output array of the first two regions
    holds, when the third region is entered, what it held at launch. -/
theorem W3_of_launch (c : Dev nD) (r : Ref sig .tc) (h : r ∉ hostOps0_W) (h7 : r ≠ main_v13_0) (h8 : r ≠ main_v13_1) (h6 : r ≠ main_v14) :
    W3 m c (Proc.devRef .tc r) = m ((c : Thread nD τ).loc r) :=
  (keep1 m c r h6).trans <| (keep0 m c r h7 h8).trans <| W1_of m c r h

theorem W3_main_arg0 (c : Dev nD) : W3 m c (Proc.devRef .tc main_arg0) = m ((c : Thread nD τ).loc main_arg0) :=
  W3_of_launch m c main_arg0 (by decide) (by decide) (by decide) (by decide)
theorem W3_main_arg1 (c : Dev nD) : W3 m c (Proc.devRef .tc main_arg1) = m ((c : Thread nD τ).loc main_arg1) :=
  W3_of_launch m c main_arg1 (by decide) (by decide) (by decide) (by decide)
theorem W3_main_arg2 (c : Dev nD) : W3 m c (Proc.devRef .tc main_arg2) = m ((c : Thread nD τ).loc main_arg2) :=
  W3_of_launch m c main_arg2 (by decide) (by decide) (by decide) (by decide)
theorem W3_main_arg3 (c : Dev nD) : W3 m c (Proc.devRef .tc main_arg3) = m ((c : Thread nD τ).loc main_arg3) :=
  W3_of_launch m c main_arg3 (by decide) (by decide) (by decide) (by decide)
theorem W3_main_arg4 (c : Dev nD) : W3 m c (Proc.devRef .tc main_arg4) = m ((c : Thread nD τ).loc main_arg4) :=
  W3_of_launch m c main_arg4 (by decide) (by decide) (by decide) (by decide)
theorem W3_main_arg5 (c : Dev nD) : W3 m c (Proc.devRef .tc main_arg5) = m ((c : Thread nD τ).loc main_arg5) :=
  W3_of_launch m c main_arg5 (by decide) (by decide) (by decide) (by decide)
theorem W3_main_arg6 (c : Dev nD) : W3 m c (Proc.devRef .tc main_arg6) = m ((c : Thread nD τ).loc main_arg6) :=
  W3_of_launch m c main_arg6 (by decide) (by decide) (by decide) (by decide)
theorem W3_main_arg7 (c : Dev nD) : W3 m c (Proc.devRef .tc main_arg7) = m ((c : Thread nD τ).loc main_arg7) :=
  W3_of_launch m c main_arg7 (by decide) (by decide) (by decide) (by decide)
theorem W3_main_arg8 (c : Dev nD) : W3 m c (Proc.devRef .tc main_arg8) = m ((c : Thread nD τ).loc main_arg8) :=
  W3_of_launch m c main_arg8 (by decide) (by decide) (by decide) (by decide)
theorem W3_main_arg9 (c : Dev nD) : W3 m c (Proc.devRef .tc main_arg9) = m ((c : Thread nD τ).loc main_arg9) :=
  W3_of_launch m c main_arg9 (by decide) (by decide) (by decide) (by decide)
theorem W3_main_arg10 (c : Dev nD) : W3 m c (Proc.devRef .tc main_arg10) = m ((c : Thread nD τ).loc main_arg10) :=
  W3_of_launch m c main_arg10 (by decide) (by decide) (by decide) (by decide)
theorem W3_main_arg11 (c : Dev nD) : W3 m c (Proc.devRef .tc main_arg11) = m ((c : Thread nD τ).loc main_arg11) :=
  W3_of_launch m c main_arg11 (by decide) (by decide) (by decide) (by decide)
theorem W3_main_arg12 (c : Dev nD) : W3 m c (Proc.devRef .tc main_arg12) = m ((c : Thread nD τ).loc main_arg12) :=
  W3_of_launch m c main_arg12 (by decide) (by decide) (by decide) (by decide)
theorem W3_main_arg13 (c : Dev nD) : W3 m c (Proc.devRef .tc main_arg13) = m ((c : Thread nD τ).loc main_arg13) :=
  W3_of_launch m c main_arg13 (by decide) (by decide) (by decide) (by decide)

end Cert.KernelIdeal.Own

end
-- ==== Proof.KI.Kern2.lean ====
/-
  The body of the third region on arbitrary whole buffers: it loads the hidden row, one block of rows of the output
  matrix and the matching block of the bias, and stores into the output buffer the row of inner products plus the bias;
  the three input buffers are left as they were. Nothing is asked of what the buffers hold.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev r2_a : Rect S1x1024 := Rect.unit (s := S1x1024) ![0, 0] S1x1024.size inb_S1x1024_S1x1024_0_0
abbrev r2_b : Rect S2048x1024 := Rect.unit (s := S2048x1024) ![0, 0] S2048x1024.size inb_S2048x1024_S2048x1024_0_0
abbrev r2_c : Rect S1x2048 := Rect.unit (s := S1x2048) ![0, 0] S1x2048.size inb_S1x2048_S1x2048_0_0

/-- What the body leaves in the output buffer, from what the three input buffers hold: its one store. -/
def out2_3 (x0 : Vec F S1x1024 .f32) (x1 : Vec F S2048x1024 .f32) (x2 : Vec F S1x2048 .f32) : Vec F S1x2048 .f32 :=
  View.canon [⟨r2_c, k2_pay1 (View.ld x0 r2_a) (View.ld x1 r2_b) (View.ld x2 r2_c)⟩]

/-- The one stored rectangle is the whole buffer, so every index of the buffer lies in it. -/
private theorem cover2_3 (p0 : Vec F S1x2048 .f32) (y : S1x2048.Idx) :
    ∃ pc ∈ ([⟨r2_c, p0⟩] : List (View.Piece (Elt F) S1x2048 .f32)), y ∈ pc.1.set :=
  View.cover_of_tiled [⟨r2_c, p0⟩] S1x2048.size (by rfl) y

/-- The store covers the buffer and each load reads a whole buffer, so the output is the payload of the inputs. -/
theorem out2_3_eq (x0 : Vec F S1x1024 .f32) (x1 : Vec F S2048x1024 .f32) (x2 : Vec F S1x2048 .f32) :
    out2_3 x0 x1 x2 = k2_pay1 x0 x1 x2 := by
  have hz : (![0, 0] : Fin 2 → Nat) = fun _ => 0 := funext fun a => by fin_cases a <;> rfl
  unfold out2_3
  rw [View.canon_unit_zero hz]
  rw [View.ld_unit_zero (S := S1x1024) hz, View.ld_unit_zero (S := S2048x1024) hz, View.ld_unit_zero (S := S1x2048) hz]

set_option maxHeartbeats 1000000 in
/-- The body on whole buffers, the inputs at any contents `x0`, `x1`, `x2` and the output at anything: it ends with the
    inputs as they were and the output at `out2_3 x0 x1 x2`. -/
theorem sound_kernel2 (c : Dev nD) (E : Set ℕ) (i : grid2.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f1, %hf1, H1⟩, ⟨%f2, %hf2, H2⟩, ⟨%f3, %hf3, H3⟩, ⟨%d4, %f4, -, H4⟩, Hk⟩
  subst hf1
  subst hf2
  subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

end Cert.KernelIdeal.Own

end
-- ==== Proof.KI.Body2.lean ====
/-
  The third region on the extended reals: the output projection over twenty-five blocks of 2048 rows of the output
  matrix, the last block holding only the 1105 rows that lie inside the matrix. A block's fetch lands those rows in the
  buffer and leaves the rest of the buffer at contents nothing names. Entry `j` of what the body stores is the inner
  product of the hidden row with row `j` of the block plus entry `j` of the bias block: it reads no other row, so on the
  columns that are written back the result does not depend on what the buffers hold past the matrix's end. The proof
  data name each buffer by its part inside the array, filled out with the zero word.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import proofs.«168297_j82532091560494_1_alg».proof.Proof.KI.Kern2
import Idealize.ShloMosaic.PureOps.Ideal
import Idealize.ShloMosaic.PureOps.Ideal.Laws
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the TensorCore's buffer contents when the region is entered
variable (V : (c : Dev nD) → (b : Ref sig .tc) → Buf (Elt Ideal) ((c : Thread nD τ).loc b))

/-! ## The windows' blocks -/

/-- Window `w`'s block at point `t`: the part of it inside the array, read off the array as the region finds it. -/
def iblk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- The block of the output matrix at point `t` as a full buffer: its rows inside the matrix, zero past its end. -/
def wblk (c : Dev nD) (t : Fin cfg2.N) : S2048x1024.Idx → Elt Ideal .f32 :=
  win2_1.fill (grid2.coords t) (fun _ => Scalar.ofBits (F := Ideal) .f32 0#32) (iblk2 V c 1 t)

/-- The block of the bias at point `t` as a full buffer: its entries inside the bias, zero past its end. -/
def bblk (c : Dev nD) (t : Fin cfg2.N) : S1x2048.Idx → Elt Ideal .f32 :=
  win2_2.fill (grid2.coords t) (fun _ => Scalar.ofBits (F := Ideal) .f32 0#32) (iblk2 V c 2 t)

/-! ## The pipeline's proof data -/

/-- After the body at point `t`: the hidden row's buffer holds the hidden row, the matrix's and the bias's their blocks
    filled out with zeros, the output's the body's function of those; nothing is owed, every share is full. -/
def dat2 (c : Dev nD) : Dat τ (Elt Ideal) Unit ℕ (UR sig nD τ) ℕ cfg2 c where
  A w := V c (Pipeline.arrRef spec2 w)
  after w t := match w with
    | ⟨0, _⟩ => iblk2 V c 0 t
    | ⟨1, _⟩ => wblk V c t
    | ⟨2, _⟩ => bblk V c t
    | ⟨3, _⟩ => k2_pay1 (F := Ideal) (iblk2 V c 0 t) (wblk V c t) (bblk V c t)
  Φ _ := Pipeline.ΦA spec2 c
  q _ := fullShare
  owed _ := 0

theorem A_eq2 (c : Dev nD) (w : Fin cfg2.W) : (dat2 V c).A w = V c (Pipeline.arrRef spec2 w) := by
  dsimp only [dat2]

/-! ## The body's function at an entry -/

/-- Entry `(0, j)` of what the body stores is the sum over `k` of the hidden row's entry `k` times the block's entry
    `(j, k)`, plus the bias block's entry `(0, j)`: the casts keep the shape, the narrowing is the identity on the
    extended reals, and the product accumulates into zero. -/
theorem k2_pay1_apply (h : Vec Ideal S1x1024 .f32) (W : Vec Ideal S2048x1024 .f32) (b : Vec Ideal S1x2048 .f32)
    (j : S1x2048.Idx) :
    k2_pay1 (F := Ideal) h W b j
      = (∑ k : dot_S1x1024_S2048x1024_S1x2048_1_1_0_0_n_n.contr.Idx,
          h (dot_S1x1024_S2048x1024_S1x2048_1_1_0_0_n_n.lhsIdx j k) * W (dot_S1x1024_S2048x1024_S1x2048_1_1_0_0_n_n.rhsIdx j k)) + b j := by
  unfold k2_pay1
  simp only [shapeCast_self]
  show FloatOps.addf (F := Ideal) (FloatOps.matmul (F := Ideal) dot_S1x1024_S2048x1024_S1x2048_1_1_0_0_n_n none (truncf .bf16 h bitsLt_bf16_f32) (truncf .bf16 W bitsLt_bf16_f32) (constant S1x2048 .f32 0x00000000#32) j) (b j) = _
  rw [Ideal.matmul_constant_zero_apply, Ideal.addf_def]
  rfl

/-- The block's index the product reads at output entry `(0, j)` lies in row `j` of the block. -/
theorem rhs2_row (j : S1x2048.Idx) (k : dot_S1x1024_S2048x1024_S1x2048_1_1_0_0_n_n.contr.Idx) :
    (dot_S1x1024_S2048x1024_S1x2048_1_1_0_0_n_n.rhsIdx j k 0).val = (j 1).val := by
  unfold DotDims.rhsIdx
  rw [dif_neg (show ¬(0 : Fin S2048x1024.rank) ∈ dot_S1x1024_S2048x1024_S1x2048_1_1_0_0_n_n.rhsBatch by decide), dif_pos (show (0 : Fin S2048x1024.rank) ∈ dot_S1x1024_S2048x1024_S1x2048_1_1_0_0_n_n.rhsNonContracting by decide)]
  rfl

/-- Entry `(0, j)` of what the body stores reads row `j` of the block of the matrix and entry `(0, j)` of the block of
    the bias, and nothing else of them. -/
private theorem k2_pay1_congr (h : Vec Ideal S1x1024 .f32) (W W' : Vec Ideal S2048x1024 .f32) (b b' : Vec Ideal S1x2048 .f32)
    (j : S1x2048.Idx) (hW : ∀ r : S2048x1024.Idx, (r 0).val = (j 1).val → W r = W' r) (hb : b j = b' j) :
    k2_pay1 (F := Ideal) h W b j = k2_pay1 (F := Ideal) h W' b' j := by
  rw [k2_pay1_apply, k2_pay1_apply, hb]
  refine congrArg (· + b' j) (Finset.sum_congr rfl fun k _ => ?_)
  rw [hW _ (rhs2_row j k)]

/-! ## What the body finds and leaves, window by window -/

private theorem after2_0 (c : Dev nD) (t : Fin cfg2.N) : (dat2 V c).after 0 t = iblk2 V c 0 t := by dsimp only [dat2]
private theorem after2_1 (c : Dev nD) (t : Fin cfg2.N) : (dat2 V c).after 1 t = wblk V c t := by dsimp only [dat2]
private theorem after2_2 (c : Dev nD) (t : Fin cfg2.N) : (dat2 V c).after 2 t = bblk V c t := by dsimp only [dat2]
private theorem after2_3 (c : Dev nD) (t : Fin cfg2.N) :
    (dat2 V c).after 3 t = k2_pay1 (F := Ideal) (iblk2 V c 0 t) (wblk V c t) (bblk V c t) := by dsimp only [dat2]

/-- The hidden row's buffer holds the hidden row at every point: it is fetched at the first, its block never moves, and
    the body leaves it in place. -/
private theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The matrix's buffer, just fetched: the block's rows inside the matrix, anything past them. -/
private theorem before2_1 (c : Dev nD) (t : Fin cfg2.N) (d) :
    (dat2 V c).before 1 t d = win2_1.fill (grid2.coords t) d (iblk2 V c 1 t) := by
  unfold Dat.before; rw [if_pos (fetch2_1 t)]; rfl

/-- The bias's buffer, just fetched: the block's entries inside the bias, anything past them. -/
private theorem before2_2 (c : Dev nD) (t : Fin cfg2.N) (d) :
    (dat2 V c).before 2 t d = win2_2.fill (grid2.coords t) d (iblk2 V c 2 t) := by
  unfold Dat.before; rw [if_pos (fetch2_2 t)]; rfl

/-! ## The three cut windows cut alike -/

/-- Two fillings of one part agree wherever the transfer moves. -/
private theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- On the columns the write-back moves, what the body stores does not depend on what the matrix's and the bias's
    buffers hold past the arrays' ends: column `j` reads row `j` of the one and entry `j` of the other, and the three
    blocks are cut at the same place. -/
private theorem cut_pay2 (i : grid2.Coords) (h : Vec Ideal S1x1024 .f32) (d1 d1' : S2048x1024.Idx → Elt Ideal .f32)
    (Wp : (win2_1.xblock i).Idx → Elt Ideal .f32) (d2 d2' : S1x2048.Idx → Elt Ideal .f32)
    (bp : (win2_2.xblock i).Idx → Elt Ideal .f32) :
    win2_3.cut i (k2_pay1 (F := Ideal) h (win2_1.fill i d1 Wp) (win2_2.fill i d2 bp))
      = win2_3.cut i (k2_pay1 (F := Ideal) h (win2_1.fill i d1' Wp) (win2_2.fill i d2' bp)) := by
  funext j
  have hj0 : (j 0).val < win2_3.xsize i 0 := (j 0).isLt
  have hj1 : (j 1).val < win2_3.xsize i 1 := (j 1).isLt
  have e31 : win2_3.xsize i 1 = win2_1.xsize i 0 := rfl
  have e11 : win2_1.xsize i 1 = 1024 := rfl
  have e20 : win2_2.xsize i 0 = win2_3.xsize i 0 := rfl
  have e21 : win2_2.xsize i 1 = win2_3.xsize i 1 := rfl
  refine k2_pay1_congr h _ _ _ _ (win2_3.xinj i j) (fun r hr => ?_) ?_
  · refine fill_eq_of_moved win2_1 i d1 d1' Wp r ((win2_1.moved_iff i r).mpr fun a => ?_)
    match a with
    | ⟨0, _⟩ =>
      show (r 0).val < win2_1.xsize i 0
      rw [hr, ← e31]; exact hj1
    | ⟨1, _⟩ =>
      show (r 1).val < win2_1.xsize i 1
      rw [e11]; exact (r 1).isLt
  · refine fill_eq_of_moved win2_2 i d2 d2' bp (win2_3.xinj i j) ((win2_2.moved_iff i _).mpr fun a => ?_)
    match a with
    | ⟨0, _⟩ =>
      show (j 0).val < win2_2.xsize i 0
      rw [e20]; exact hj0
    | ⟨1, _⟩ =>
      show (j 1).val < win2_2.xsize i 1
      rw [e21]; exact hj1

/-! ## The body obligation -/

/-- The body at any point: the hidden row's buffer holds the hidden row and the two fetched buffers their blocks filled
    out with whatever they held, so the body's triple applies; each buffer is handed back stated on the part its
    transfers move, where the fillers do not show. The invariant and what is owed pass through unread. -/
private theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := Ideal)) Variants.none c none) Set.univ (bodyAt2 (F := Ideal) t) (fun _ =>
          iprop((dat2 V c).Φ t.succ ∗ (dat2 V c).owesAt () t.succ
            ∗ owns (c : Thread nD τ) (st2_0 t) fullShare ((dat2 V c).after 0 t)
            ∗ (∃ d, owns (c : Thread nD τ) (st2_1 t) fullShare (win2_1.fill (grid2.coords t) d (win2_1.cut (grid2.coords t) ((dat2 V c).after 1 t))))
            ∗ (∃ d, owns (c : Thread nD τ) (st2_2 t) fullShare (win2_2.fill (grid2.coords t) d (win2_2.cut (grid2.coords t) ((dat2 V c).after 2 t))))
            ∗ (∃ d, owns (c : Thread nD τ) (st2_3 t) fullShare (win2_3.fill (grid2.coords t) d (win2_3.cut (grid2.coords t) ((dat2 V c).after 3 t)))))) := by
  unfold bodyAt2
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 (F := Ideal) c Set.univ _ _ _ _ _ _ _ _ _ (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show win2_1.cut (grid2.coords t) (wblk V c t) = iblk2 V c 1 t from win2_1.cut_fill _ _ _]
    iexact H1
  isplitl [H2]
  · iexists d2
    rw [show win2_2.cut (grid2.coords t) (bblk V c t) = iblk2 V c 2 t from win2_2.cut_fill _ _ _]
    iexact H2
  iexists (k2_pay1 (F := Ideal) (iblk2 V c 0 t) (win2_1.fill (grid2.coords t) d1 (iblk2 V c 1 t)) (win2_2.fill (grid2.coords t) d2 (iblk2 V c 2 t)))
  rw [show win2_3.cut (grid2.coords t) (k2_pay1 (F := Ideal) (iblk2 V c 0 t) (wblk V c t) (bblk V c t))
      = win2_3.cut (grid2.coords t) (k2_pay1 (F := Ideal) (iblk2 V c 0 t) (win2_1.fill (grid2.coords t) d1 (iblk2 V c 1 t)) (win2_2.fill (grid2.coords t) d2 (iblk2 V c 2 t)))
      from cut_pay2 (grid2.coords t) _ _ _ _ _ _ _, Window.fill_cut, ← out2_3_eq]
  iexact H3

/-- At every point the body, handed the hidden row and the two fetched blocks at whatever the buffers hold past the
    arrays' ends, leaves each buffer agreeing with the proof data on the part its transfers move. -/
theorem body_obligation2 (c : Dev nD) :
    BodyObligationLoose (dat2 V c) (defs₀ (F := Ideal)) Variants.none () Set.univ := fun t => by
  rw [bigSep_W2, bigSep_W2]
  exact sound_body2 V c t

end Cert.KernelIdeal.Own

end
-- ==== Proof.KI.Vals.lean ====
/-
  What the TensorCore's buffers hold at the last boundaries of the program on the extended reals: after the third
  region, whose output array holds what its write-backs leave; after the log-softmax; and after the closing broadcast.
  None of the three writes an argument, so every argument's buffer at the end holds what it held at launch.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import proofs.«168297_j82532091560494_1_alg».proof.Proof.KI.Vals01
import proofs.«168297_j82532091560494_1_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- After the third region: its arrays at what its write-backs leave, every other buffer as it was. -/
def W4 (c : Dev nD) : Valuation τ sig (Elt Ideal) :=
  Pipeline.withArrays spec2 c (W3 m c) fun w => (dat2 (V3 m) c).arrAt w cfg2.N
abbrev V4 : (c : Dev nD) → (b : Ref sig .tc) → Buf (Elt Ideal) ((c : Thread nD τ).loc b) := fun c b => W4 m c b
/-- After the log-softmax. -/
abbrev W5 (c : Dev nD) : Valuation τ sig (Elt Ideal) := StableHlo.after hostOps3 (W4 m c)
/-- After the closing broadcast: the end. -/
abbrev W6 (c : Dev nD) : Valuation τ sig (Elt Ideal) := StableHlo.after hostOps3_1 (W5 m c)

/-- After the third region each of its arrays holds what its write-backs leave, -/
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
/-- and a buffer that is none of its arrays what it held before. -/
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

/-- An input window's array is never written back to: after the region it holds what it held at entry. -/
theorem keep2_in (c : Dev nD) (w : Fin cfg2.W) (hw : (cfg2.win w).isOut = false) :
    V4 m c (Pipeline.arrRef spec2 w) = V3 m c (Pipeline.arrRef spec2 w) :=
  (W4_arr m c w).trans (((dat2 (V3 m) c).arrAt_in w hw _).trans (A_eq2 (V3 m) c w))

/-- The third region's one output window stages the projection's array. -/
theorem out_arr2 : ∀ w : Fin cfg2.W, (cfg2.win w).isOut = false ∨ Pipeline.arrRef spec2 w = main_v15 := by
  decide

theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)
/-- The third region changes only its output array. -/
theorem keep2 (c : Dev nD) (b : Ref sig .tc) (h3 : b ≠ main_v15) : V4 m c b = V3 m c b := by
  by_cases h : ∃ w, Pipeline.arrRef spec2 w = b
  · obtain ⟨w, rfl⟩ := h
    rcases out_arr2 w with hw | hw
    · exact keep2_in m c w hw
    · exact absurd hw h3
  · exact W4_of_ne m c b fun w e => h ⟨w, e⟩

/-! ## Every argument ends as launched -/

/-- A buffer that neither the log-softmax nor the closing broadcast writes and that is not the third region's output
    array holds at the end what it held when the third region was entered. -/
theorem W6_of_W3 (c : Dev nD) (r : Ref sig .tc) (h31 : r ∉ hostOps3_1_W) (h3 : r ∉ hostOps3_W) (h15 : r ≠ main_v15) :
    W6 m c (Proc.devRef .tc r) = W3 m c (Proc.devRef .tc r) :=
  (StableHlo.after_of_writes_sub hostOps3_1 _ hostOps3_1_writes h31).trans <|
    (StableHlo.after_of_writes_sub hostOps3 _ hostOps3_writes h3).trans <| keep2 m c r h15

theorem W6_main_arg0 (c : Dev nD) : W6 m c (Proc.devRef .tc main_arg0) = m ((c : Thread nD τ).loc main_arg0) :=
  (W6_of_W3 m c main_arg0 (by decide) (by decide) (by decide)).trans (W3_main_arg0 m c)
theorem W6_main_arg1 (c : Dev nD) : W6 m c (Proc.devRef .tc main_arg1) = m ((c : Thread nD τ).loc main_arg1) :=
  (W6_of_W3 m c main_arg1 (by decide) (by decide) (by decide)).trans (W3_main_arg1 m c)
theorem W6_main_arg2 (c : Dev nD) : W6 m c (Proc.devRef .tc main_arg2) = m ((c : Thread nD τ).loc main_arg2) :=
  (W6_of_W3 m c main_arg2 (by decide) (by decide) (by decide)).trans (W3_main_arg2 m c)
theorem W6_main_arg3 (c : Dev nD) : W6 m c (Proc.devRef .tc main_arg3) = m ((c : Thread nD τ).loc main_arg3) :=
  (W6_of_W3 m c main_arg3 (by decide) (by decide) (by decide)).trans (W3_main_arg3 m c)
theorem W6_main_arg4 (c : Dev nD) : W6 m c (Proc.devRef .tc main_arg4) = m ((c : Thread nD τ).loc main_arg4) :=
  (W6_of_W3 m c main_arg4 (by decide) (by decide) (by decide)).trans (W3_main_arg4 m c)
theorem W6_main_arg5 (c : Dev nD) : W6 m c (Proc.devRef .tc main_arg5) = m ((c : Thread nD τ).loc main_arg5) :=
  (W6_of_W3 m c main_arg5 (by decide) (by decide) (by decide)).trans (W3_main_arg5 m c)
theorem W6_main_arg6 (c : Dev nD) : W6 m c (Proc.devRef .tc main_arg6) = m ((c : Thread nD τ).loc main_arg6) :=
  (W6_of_W3 m c main_arg6 (by decide) (by decide) (by decide)).trans (W3_main_arg6 m c)
theorem W6_main_arg7 (c : Dev nD) : W6 m c (Proc.devRef .tc main_arg7) = m ((c : Thread nD τ).loc main_arg7) :=
  (W6_of_W3 m c main_arg7 (by decide) (by decide) (by decide)).trans (W3_main_arg7 m c)
theorem W6_main_arg8 (c : Dev nD) : W6 m c (Proc.devRef .tc main_arg8) = m ((c : Thread nD τ).loc main_arg8) :=
  (W6_of_W3 m c main_arg8 (by decide) (by decide) (by decide)).trans (W3_main_arg8 m c)
theorem W6_main_arg9 (c : Dev nD) : W6 m c (Proc.devRef .tc main_arg9) = m ((c : Thread nD τ).loc main_arg9) :=
  (W6_of_W3 m c main_arg9 (by decide) (by decide) (by decide)).trans (W3_main_arg9 m c)
theorem W6_main_arg10 (c : Dev nD) : W6 m c (Proc.devRef .tc main_arg10) = m ((c : Thread nD τ).loc main_arg10) :=
  (W6_of_W3 m c main_arg10 (by decide) (by decide) (by decide)).trans (W3_main_arg10 m c)
theorem W6_main_arg11 (c : Dev nD) : W6 m c (Proc.devRef .tc main_arg11) = m ((c : Thread nD τ).loc main_arg11) :=
  (W6_of_W3 m c main_arg11 (by decide) (by decide) (by decide)).trans (W3_main_arg11 m c)
theorem W6_main_arg12 (c : Dev nD) : W6 m c (Proc.devRef .tc main_arg12) = m ((c : Thread nD τ).loc main_arg12) :=
  (W6_of_W3 m c main_arg12 (by decide) (by decide) (by decide)).trans (W3_main_arg12 m c)
theorem W6_main_arg13 (c : Dev nD) : W6 m c (Proc.devRef .tc main_arg13) = m ((c : Thread nD τ).loc main_arg13) :=
  (W6_of_W3 m c main_arg13 (by decide) (by decide) (by decide)).trans (W3_main_arg13 m c)

end Cert.KernelIdeal.Own

end
-- ==== Proof.KI.Regs.lean ====
/-
  The three regions as segments of the program. Each is entered with every buffer that outlives a region at the
  contents the boundary before it names and left with them at the contents the boundary after it names: the region's
  arrays are split out of those buffers at entry and put back, at what the write-backs leave, at exit.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import proofs.«168297_j82532091560494_1_alg».proof.Proof.KI.Vals
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- Every pipeline's proof data, each at its region's entry contents. -/
def pdats : (p : Fin 3) → (c : Dev nD) → Dat τ (Elt Ideal) Unit ℕ (UR sig nD τ) ℕ (Pipeline.pin (pcfgs (F := Ideal)) adm p) c
  | ⟨0, _⟩ => fun c => dat0 (V1 m) c
  | ⟨1, _⟩ => fun c => dat1 (V2 m) c
  | ⟨2, _⟩ => fun c => dat2 (V3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at the contents before it, left with them at
    the contents after it; the generator register goes into the region's invariant and comes back; nothing is owed; the
    kernel has no semaphore of its own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it; the generator register goes into the region's invariant and comes back; nothing is owed; the
    kernel has no semaphore of its own. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it; the generator register goes into the region's invariant and comes back; nothing is owed; the
    kernel has no semaphore of its own. -/
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V3 m) c
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Own

end
-- ==== Proof.KI.Run.lean ====
/-
  The run of the idealized kernel program on the extended reals: from any memory with every semaphore counter at
  zero, every weakly fair execution of the program terminates without a fault, and at the end every buffer that
  outlives a region holds what the last boundary names — the three results among them, and every argument what it held
  at launch. The program is the first stretch of host operations, the three regions in order, the log-softmax, and the
  closing broadcast; each host stretch carries the buffers from one boundary's contents to the next by its operations'
  composed function, each region by its write-backs.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import proofs.«168297_j82532091560494_1_alg».proof.Proof.KI.Regs
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A stretch of host operations as a segment, from the contents `W`; the generator register and the empty debt ride
    along. Its exit is the buffers at the operations' composed function of `W`. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore buffer that outlives a region is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every such buffer at the last boundary's contents, the generator register
    at some state. -/
abbrev Tₙ (c : Dev nD) : sProp 𝕄 := iprop(StableHlo.held (c : Thread nD τ) (Pipeline.ucRefs τ sig) (W6 m c) ∗ ∃ r, prngReg c r)

/-- The program's six items in order. -/
abbrev segs : List (Pipeline.Seg (pcfgs (F := Ideal)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)),
    .host (hseg hostOps3_1 hostOps3_1_sub hostOps3_1_fresh (W5 m)) ]

/-- The last link of the chain: the buffers at the end beside the register and the empty debt regroup as the last thread
    state beside the empty debt. -/
theorem last_link (c : Dev nD) :
    (iprop(StableHlo.held (c : Thread nD τ) (Pipeline.ucRefs τ sig) (W6 m c) ∗ R c) : sProp 𝕄)
      ⊢ iprop(Tₙ m c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- Every weakly fair execution terminates, nothing faulting, with every buffer that outlives a region at `W6`. -/
theorem run_main : θ_run defs (onTc (τ := τ) (main (F := Ideal))) ⟨m, fun _ => 0, ρ⟩ (fun r => ∀ c : Dev nD,
      ∀ b ∈ Pipeline.ucRefs τ sig, r.2.mem (((c : Thread nD τ)).1, b) = W6 m c b) :=
  Pipeline.θ_run_regions_kit_dev (pcfgs (F := Ideal)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          StableHlo.seq hostOps3_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Own

end
-- ==== Proof.Spec.lean ====
/-
  The output projection as one function of its three operands, on the extended reals: entry `(0, j)` of the logits is
  the inner product of the hidden row with row `j` of the weight matrix, plus entry `j` of the bias.
-/
import Idealize.ShloMosaic.PureOps.Ideal
import Idealize.ShloMosaic.Lib.ValueIdx

noncomputable section

open Idealize.ShloMosaic Idealize.ShloMosaic.TcCoe Idealize.SL.Sem

namespace Cert.Spec

open ValueIdx

abbrev S1x1024 : Shape := ⟨2, ![1, 1024]⟩
abbrev S50257x1024 : Shape := ⟨2, ![50257, 1024]⟩
abbrev S1x50257 : Shape := ⟨2, ![1, 50257]⟩

/-- `logitsOf h W b (0, j) = (∑ k, h (0, k) · W (j, k)) + b (0, j)`. -/
def logitsOf (h : FVec Ideal S1x1024 .f32) (W : FVec Ideal S50257x1024 .f32) (b : FVec Ideal S1x50257 .f32) :
    FVec Ideal S1x50257 .f32 :=
  fun i => (∑ k : Fin 1024, h (ix2 (0 : Fin 1) k) * W (ix2 (i 1 : Fin 50257) k)) + b i

end Cert.Spec

end
-- ==== Proof.KI.Val2.lean ====
/-
  The logits array after the third region. Point `t` writes back columns `2048 t` to `2048 t + 2047` of the row, cut
  at column 50256; the twenty-five points cover the row, each column once, and column `j` of block `j / 2048` is the
  inner product of the hidden row with row `j` of the output matrix plus entry `j` of the bias.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import proofs.«168297_j82532091560494_1_alg».proof.Proof.KI.Body2
import proofs.«168297_j82532091560494_1_alg».proof.Proof.Spec
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the TensorCore's buffer contents when the region is entered
variable (V : (c : Dev nD) → (b : Ref sig .tc) → Buf (Elt Ideal) ((c : Thread nD τ).loc b))

/-! ## The body's payload, entry by entry -/

open ValueIdx in
/-- The left operand of the product is read at row 0 -/
theorem v2_lhs0 (y : S1x2048.Idx) (q : dot_S1x1024_S2048x1024_S1x2048_1_1_0_0_n_n.contr.Idx) :
    (dot_S1x1024_S2048x1024_S1x2048_1_1_0_0_n_n.lhsIdx y q 0).val = (y 0).val := by
  unfold DotDims.lhsIdx
  rw [dif_neg (show ¬(0 : Fin S1x1024.rank) ∈ dot_S1x1024_S2048x1024_S1x2048_1_1_0_0_n_n.lhsBatch by decide), dif_pos (show (0 : Fin S1x1024.rank) ∈ dot_S1x1024_S2048x1024_S1x2048_1_1_0_0_n_n.lhsNonContracting by decide)]
  rfl
/-- and at the contraction position's column; -/
theorem v2_lhs1 (y : S1x2048.Idx) (q : dot_S1x1024_S2048x1024_S1x2048_1_1_0_0_n_n.contr.Idx) :
    (dot_S1x1024_S2048x1024_S1x2048_1_1_0_0_n_n.lhsIdx y q 1).val = (q ⟨0, by decide⟩).val :=
  dot_S1x1024_S2048x1024_S1x2048_1_1_0_0_n_n.lhsIdx_val_of_single rfl y q
/-- the right operand at the row that is the output's column -/
theorem v2_rhs0 (y : S1x2048.Idx) (q : dot_S1x1024_S2048x1024_S1x2048_1_1_0_0_n_n.contr.Idx) :
    (dot_S1x1024_S2048x1024_S1x2048_1_1_0_0_n_n.rhsIdx y q 0).val = (y 1).val := by
  unfold DotDims.rhsIdx
  rw [dif_neg (show ¬(0 : Fin S2048x1024.rank) ∈ dot_S1x1024_S2048x1024_S1x2048_1_1_0_0_n_n.rhsBatch by decide), dif_pos (show (0 : Fin S2048x1024.rank) ∈ dot_S1x1024_S2048x1024_S1x2048_1_1_0_0_n_n.rhsNonContracting by decide)]
  rfl
/-- and at the contraction position's column. -/
theorem v2_rhs1 (y : S1x2048.Idx) (q : dot_S1x1024_S2048x1024_S1x2048_1_1_0_0_n_n.contr.Idx) :
    (dot_S1x1024_S2048x1024_S1x2048_1_1_0_0_n_n.rhsIdx y q 1).val = (q ⟨0, by decide⟩).val :=
  dot_S1x1024_S2048x1024_S1x2048_1_1_0_0_n_n.rhsIdx_val_of_single rfl y q

open ValueIdx in
/-- Entry `(0, j)` of what the body stores: the inner product of the hidden row with row `j` of the matrix block, plus
    entry `j` of the bias block. It reads no other row of the block. -/
theorem v2_pay_apply (x0 : Vec Ideal S1x1024 .f32) (x1 : Vec Ideal S2048x1024 .f32) (x2 : Vec Ideal S1x2048 .f32) (y : S1x2048.Idx) :
    k2_pay1 (F := Ideal) x0 x1 x2 y = (∑ k : Fin 1024, x0 (ix2 (0 : Fin 1) k) * x1 (ix2 (y 1 : Fin 2048) k)) + x2 y := by
  unfold k2_pay1
  simp only [shapeCast_self, matmul]
  rw [addf_apply, Ideal.matmul_constant_zero_apply, ← Equiv.sum_comp (contrEquiv1 dot_S1x1024_S2048x1024_S1x2048_1_1_0_0_n_n 1024 rfl rfl).symm]
  congr 1
  refine Finset.sum_congr rfl fun k _ => ?_
  have hk := contrEquiv1_symm_val dot_S1x1024_S2048x1024_S1x2048_1_1_0_0_n_n 1024 rfl rfl k
  have el : dot_S1x1024_S2048x1024_S1x2048_1_1_0_0_n_n.lhsIdx y ((contrEquiv1 dot_S1x1024_S2048x1024_S1x2048_1_1_0_0_n_n 1024 rfl rfl).symm k) = ix2 (0 : Fin 1) k := funext fun a => Fin.ext (by
    match a with
    | ⟨0, _⟩ => exact (v2_lhs0 _ _).trans (by have h1 : (y 0).val < 1 := (y 0).isLt; show (y 0).val = 0; omega)
    | ⟨1, _⟩ => exact (v2_lhs1 _ _).trans hk)
  have er : dot_S1x1024_S2048x1024_S1x2048_1_1_0_0_n_n.rhsIdx y ((contrEquiv1 dot_S1x1024_S2048x1024_S1x2048_1_1_0_0_n_n 1024 rfl rfl).symm k) = ix2 (y 1 : Fin 2048) k := funext fun a => Fin.ext (by
    match a with
    | ⟨0, _⟩ => exact v2_rhs0 _ _
    | ⟨1, _⟩ => exact (v2_rhs1 _ _).trans hk)
  rw [el, er]
  rfl

/-! ## The index maps and the cuts, over the grid -/

/-- The hidden row's window stays at block (0, 0); the matrix's is at block-row `t`; the bias's and the output's at
    block-column `t`; the matrix's block is cut to the rows inside the matrix and the bias's and the output's to the
    columns inside the row. -/
theorem v2_idx_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_1.xsize (grid2.coords t) (0 : Fin 2) = min 2048 (50257 - 2048 * t.val) ∧ win2_1.xsize (grid2.coords t) (1 : Fin 2) = 1024
    ∧ win2_2.xsize (grid2.coords t) (0 : Fin 2) = 1 ∧ win2_2.xsize (grid2.coords t) (1 : Fin 2) = min 2048 (50257 - 2048 * t.val)
    ∧ win2_3.xsize (grid2.coords t) (0 : Fin 2) = 1 ∧ win2_3.xsize (grid2.coords t) (1 : Fin 2) = min 2048 (50257 - 2048 * t.val) :=
  (by decide +kernel : ∀ t : Fin grid2.N, _)

/-! ## Blocks read off their arrays, and buffers filled out from them -/

/-- A filled buffer at an index inside the part that is moved is the part there. -/
theorem v2_fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

/-- The hidden row's block is the whole hidden row. -/
theorem v2_blk0 (t : Fin cfg2.N) (X : Vec Ideal S1x1024 .f32) : ((cfg2.win 0).blk t).view.read (Elt Ideal) X = X := by
  have hz' : (fun a => win2_0.index t a * main_v14.ty.shape.size a) = fun _ => 0 := funext fun a => by fin_cases a <;> rfl
  exact Memref.read_access_unit_zero (Elt Ideal) main_v14 hz' (fun a => by rw [congrFun hz' a]; simp) X

/-- Row `r` of the matrix's block at point `t` is row `2048 t + r` of the matrix. -/
theorem v2_blk1_apply (t : Fin cfg2.N) (X : Vec Ideal S50257x1024 .f32) (j : (win2_1.xblock (grid2.coords t)).Idx) (i : S50257x1024.Idx)
    (h0 : (i 0).val = 2048 * t.val + (j 0).val) (h1 : (i 1).val = (j 1).val) :
    ((cfg2.win 1).blk t).view.read (Elt Ideal) X j = X i := by
  obtain ⟨-, -, e0, e1, -⟩ := v2_idx_facts t
  rw [View.read_apply]
  show X _ = X i
  congr 1
  funext a; apply Fin.ext
  match a with
  | ⟨0, _⟩ => show win2_1.index t (0 : Fin 2) * 2048 + 1 * (j 0).val = (i 0).val; rw [e0, h0]; omega
  | ⟨1, _⟩ => show win2_1.index t (1 : Fin 2) * 1024 + 1 * (j 1).val = (i 1).val; rw [e1, h1]; omega

/-- Entry `r` of the bias's block at point `t` is entry `2048 t + r` of the bias. -/
theorem v2_blk2_apply (t : Fin cfg2.N) (X : Vec Ideal S1x50257 .f32) (j : (win2_2.xblock (grid2.coords t)).Idx) (i : S1x50257.Idx)
    (h0 : (i 0).val = (j 0).val) (h1 : (i 1).val = 2048 * t.val + (j 1).val) :
    ((cfg2.win 2).blk t).view.read (Elt Ideal) X j = X i := by
  obtain ⟨-, -, -, -, e0, e1, -⟩ := v2_idx_facts t
  rw [View.read_apply]
  show X _ = X i
  congr 1
  funext a; apply Fin.ext
  match a with
  | ⟨0, _⟩ => show win2_2.index t (0 : Fin 2) * 1 + 1 * (j 0).val = (i 0).val; rw [e0, h0]; omega
  | ⟨1, _⟩ => show win2_2.index t (1 : Fin 2) * 2048 + 1 * (j 1).val = (i 1).val; rw [e1, h1]; omega

/-- Column `r` of the output's block at point `t` is column `2048 t + r` of the output row. -/
theorem v2_blk3_apply (t : Fin cfg2.N) (X : Vec Ideal S1x50257 .f32) (j : (win2_3.xblock (grid2.coords t)).Idx) (i : S1x50257.Idx)
    (h0 : (i 0).val = (j 0).val) (h1 : (i 1).val = 2048 * t.val + (j 1).val) :
    ((cfg2.win 3).blk t).view.read (Elt Ideal) X j = X i := by
  obtain ⟨-, -, -, -, -, -, e0, e1, -⟩ := v2_idx_facts t
  rw [View.read_apply]
  show X _ = X i
  congr 1
  funext a; apply Fin.ext
  match a with
  | ⟨0, _⟩ => show win2_3.index t (0 : Fin 2) * 1 + 1 * (j 0).val = (i 0).val; rw [e0, h0]; omega
  | ⟨1, _⟩ => show win2_3.index t (1 : Fin 2) * 2048 + 1 * (j 1).val = (i 1).val; rw [e1, h1]; omega

/-- The matrix's buffer filled out from its block, at a row that lies inside the matrix, holds that row of the matrix. -/
theorem v2_fill1_apply (t : Fin cfg2.N) (d : S2048x1024.Idx → Elt Ideal .f32) (X : Vec Ideal S50257x1024 .f32) (y : S2048x1024.Idx)
    (i : S50257x1024.Idx) (hin : 2048 * t.val + (y 0).val < 50257)
    (h0 : (i 0).val = 2048 * t.val + (y 0).val) (h1 : (i 1).val = (y 1).val) :
    win2_1.fill (grid2.coords t) d (((cfg2.win 1).blk t).view.read (Elt Ideal) X) y = X i := by
  obtain ⟨-, -, -, -, -, -, -, -, s0, s1, -⟩ := v2_idx_facts t
  have hy0 : (y 0).val < 2048 := (y 0).isLt
  have hy1 : (y 1).val < 1024 := (y 1).isLt
  refine (v2_fill_apply_of_lt win2_1 (grid2.coords t) d _ y (fun a => by
    match a with
    | ⟨0, _⟩ => show (y 0).val < win2_1.xsize (grid2.coords t) (0 : Fin 2); rw [s0]; omega
    | ⟨1, _⟩ => show (y 1).val < win2_1.xsize (grid2.coords t) (1 : Fin 2); rw [s1]; omega)).trans ?_
  exact v2_blk1_apply t X _ i h0 h1

/-- The bias's buffer filled out from its block, at an entry that lies inside the bias, holds that entry of the bias. -/
theorem v2_fill2_apply (t : Fin cfg2.N) (d : S1x2048.Idx → Elt Ideal .f32) (X : Vec Ideal S1x50257 .f32) (y : S1x2048.Idx)
    (i : S1x50257.Idx) (hin : 2048 * t.val + (y 1).val < 50257)
    (h0 : (i 0).val = (y 0).val) (h1 : (i 1).val = 2048 * t.val + (y 1).val) :
    win2_2.fill (grid2.coords t) d (((cfg2.win 2).blk t).view.read (Elt Ideal) X) y = X i := by
  obtain ⟨-, -, -, -, -, -, -, -, -, -, s0, s1, -⟩ := v2_idx_facts t
  have hy0 : (y 0).val < 1 := (y 0).isLt
  have hy1 : (y 1).val < 2048 := (y 1).isLt
  refine (v2_fill_apply_of_lt win2_2 (grid2.coords t) d _ y (fun a => by
    match a with
    | ⟨0, _⟩ => show (y 0).val < win2_2.xsize (grid2.coords t) (0 : Fin 2); rw [s0]; omega
    | ⟨1, _⟩ => show (y 1).val < win2_2.xsize (grid2.coords t) (1 : Fin 2); rw [s1]; omega)).trans ?_
  exact v2_blk2_apply t X _ i h0 h1

/-! ## What a point writes back, and the cover -/

open ValueIdx in
/-- Column `r` of what point `t` writes back is entry `2048 t + r` of the output projection: the row of the matrix block
    the payload reads there lies inside the matrix, and so does the bias entry. -/
theorem v2_point_eq (t : Fin cfg2.N) (h : Vec Ideal S1x1024 .f32) (W : Vec Ideal S50257x1024 .f32) (b : Vec Ideal S1x50257 .f32)
    (d1 : S2048x1024.Idx → Elt Ideal .f32) (d2 : S1x2048.Idx → Elt Ideal .f32) (j : (win2_3.xblock (grid2.coords t)).Idx) :
    win2_3.cut (grid2.coords t) (k2_pay1 (F := Ideal) h (win2_1.fill (grid2.coords t) d1 (((cfg2.win 1).blk t).view.read (Elt Ideal) W))
        (win2_2.fill (grid2.coords t) d2 (((cfg2.win 2).blk t).view.read (Elt Ideal) b))) j
      = ((cfg2.win 3).blk t).view.read (Elt Ideal) (Cert.Spec.logitsOf h W b) j := by
  obtain ⟨-, -, -, -, -, -, -, -, -, -, -, -, s0, s1⟩ := v2_idx_facts t
  have hj0 : (j 0).val < win2_3.xsize (grid2.coords t) (0 : Fin 2) := (j 0).isLt
  have hj1 : (j 1).val < win2_3.xsize (grid2.coords t) (1 : Fin 2) := (j 1).isLt
  rw [s0] at hj0; rw [s1] at hj1
  obtain ⟨i, hi0, hi1⟩ : ∃ i : S1x50257.Idx, (i 0).val = (j 0).val ∧ (i 1).val = 2048 * t.val + (j 1).val :=
    ⟨ix2 (⟨0, by decide⟩ : Fin 1) (⟨2048 * t.val + (j 1).val, by omega⟩ : Fin 50257), by show 0 = (j 0).val; omega, rfl⟩
  refine Eq.trans ?_ (v2_blk3_apply t (Cert.Spec.logitsOf h W b) j i hi0 hi1).symm
  refine (v2_pay_apply h _ _ (win2_3.xinj (grid2.coords t) j)).trans ?_
  unfold Cert.Spec.logitsOf
  congr 1
  · refine Finset.sum_congr rfl fun k _ => ?_
    congr 1
    exact v2_fill1_apply t d1 W _ (ix2 (i 1 : Fin 50257) k) (by show 2048 * t.val + (j 1).val < 50257; omega)
      (by show (i 1).val = 2048 * t.val + (j 1).val; exact hi1) rfl
  · exact v2_fill2_apply t d2 b _ i (by show 2048 * t.val + (j 1).val < 50257; omega) hi0 hi1

/-- Column `j` of the output row lies in the block of point `j / 2048`. -/
theorem v2_cover (i : S1x50257.Idx) : ∃ t : Fin cfg2.N, (cfg2.win 3).flush t = true ∧ i ∈ ((cfg2.win 3).blk t).view.set := by
  have hi0 : (i 0).val < 1 := (i 0).isLt
  have hi1 : (i 1).val < 50257 := (i 1).isLt
  have hN : cfg2.N = 25 := N_2
  obtain ⟨t, ht⟩ : ∃ t : Fin cfg2.N, t.val = (i 1).val / 2048 := ⟨⟨(i 1).val / 2048, by rw [hN]; omega⟩, rfl⟩
  refine ⟨t, flush2_3 t, ?_⟩
  obtain ⟨-, -, -, -, -, -, e0, e1, -, -, -, -, s0, s1⟩ := v2_idx_facts t
  show i ∈ ((View.whole main_v15).slice (win2_3.rect t)).set
  rw [View.set_slice_whole, Rect.mem_set_unit]
  intro a
  match a with
  | ⟨0, _⟩ =>
    show win2_3.index t (0 : Fin 2) * 1 ≤ (i 0).val ∧ (i 0).val < win2_3.index t (0 : Fin 2) * 1 + win2_3.xsize (grid2.coords t) (0 : Fin 2)
    rw [e0, s0]; omega
  | ⟨1, _⟩ =>
    show win2_3.index t (1 : Fin 2) * 2048 ≤ (i 1).val ∧ (i 1).val < win2_3.index t (1 : Fin 2) * 2048 + win2_3.xsize (grid2.coords t) (1 : Fin 2)
    rw [e1, s1]; omega

/-! ## The array after the region -/

theorem v2_after3 (c : Dev nD) (t : Fin cfg2.N) :
    (dat2 V c).after 3 t = k2_pay1 (F := Ideal) (iblk2 V c 0 t) (wblk V c t) (bblk V c t) := by dsimp only [dat2]

/-- What point `t` writes back is its block of the output projection of the arrays as the region finds them. -/
theorem v2_flushed3 (c : Dev nD) (t : Fin cfg2.N) :
    (dat2 V c).flushed 3 t
      = ((cfg2.win 3).blk t).view.read (Elt Ideal) (Cert.Spec.logitsOf (V c main_v14) (V c main_arg12) (V c main_v12)) := by
  show (cfg2.win 3).cut (grid2.coords t) ((dat2 V c).after 3 t) = _
  rw [v2_after3]
  unfold wblk bblk iblk2
  rw [v2_blk0]
  funext j
  exact v2_point_eq t (V c main_v14) (V c main_arg12) (V c main_v12) _ _ j

/-- The output array after the region is the output projection of the hidden row, the output matrix and the bias row
    as the region finds them. -/
theorem arr2 (c : Dev nD) :
    (dat2 V c).arrAt 3 cfg2.N = Cert.Spec.logitsOf (V c main_v14) (V c main_arg12) (V c main_v12) :=
  (dat2 V c).arrAt_eq_of_cover 3 _ (fun t _ => v2_flushed3 V c t) v2_cover

end Cert.KernelIdeal.Own

end
-- ==== Proof.Stage0a.lean ====
/-
  The attention weights. The kernel forms the logits as two inner products, of the embedded row with the left half of
  each row of the attention matrix and of the hidden row with its right half, adds the bias and takes the softmax of the
  row; the reference joins the two rows into one of twice the length and takes one inner product with the whole row of
  the matrix. A sum over the joined index is the sum over its first half plus the sum over its second half, which on the
  extended reals needs only that addition is commutative and associative; the softmax after it is the same chain of
  operations on both sides.
-/
import proofs.«168297_j82532091560494_1_alg».proof.Proof.RefRead
import proofs.«168297_j82532091560494_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.Bridge

open Cert.ReferenceIdeal Cert.ReferenceIdeal.Read Cert.KernelIdeal.Gen

namespace AttnW

open Idealize.ShloMosaic.ValueIdx
open scoped BigOperators

/-! ## The kernel's inner products and logits -/

/-- The left operand's index of the kernel's product keeps the result's row on axis 0 … -/
theorem klhs_0 (i : Cert.KernelIdeal.S1x512.Idx) (q : Cert.KernelIdeal.dot_S1x1024_S512x1024_S1x512_1_1_0_0_n_n.contr.Idx) :
    (Cert.KernelIdeal.dot_S1x1024_S512x1024_S1x512_1_1_0_0_n_n.lhsIdx i q 0).val = (i 0).val := by
  unfold DotDims.lhsIdx
  rw [dif_neg (show ¬(0 : Fin Cert.KernelIdeal.S1x1024.rank) ∈ Cert.KernelIdeal.dot_S1x1024_S512x1024_S1x512_1_1_0_0_n_n.lhsBatch by decide), dif_pos (show (0 : Fin Cert.KernelIdeal.S1x1024.rank) ∈ Cert.KernelIdeal.dot_S1x1024_S512x1024_S1x512_1_1_0_0_n_n.lhsNonContracting by decide)]
  rfl
/-- … and takes the contraction position on axis 1. -/
theorem klhs_1 (i : Cert.KernelIdeal.S1x512.Idx) (q : Cert.KernelIdeal.dot_S1x1024_S512x1024_S1x512_1_1_0_0_n_n.contr.Idx) :
    (Cert.KernelIdeal.dot_S1x1024_S512x1024_S1x512_1_1_0_0_n_n.lhsIdx i q 1).val = (q ⟨0, by decide⟩).val :=
  Cert.KernelIdeal.dot_S1x1024_S512x1024_S1x512_1_1_0_0_n_n.lhsIdx_val_of_single rfl i q
/-- The right operand's index takes the result's column on axis 0 … -/
theorem krhs_0 (i : Cert.KernelIdeal.S1x512.Idx) (q : Cert.KernelIdeal.dot_S1x1024_S512x1024_S1x512_1_1_0_0_n_n.contr.Idx) :
    (Cert.KernelIdeal.dot_S1x1024_S512x1024_S1x512_1_1_0_0_n_n.rhsIdx i q 0).val = (i 1).val := by
  unfold DotDims.rhsIdx
  rw [dif_neg (show ¬(0 : Fin Cert.KernelIdeal.S512x1024.rank) ∈ Cert.KernelIdeal.dot_S1x1024_S512x1024_S1x512_1_1_0_0_n_n.rhsBatch by decide), dif_pos (show (0 : Fin Cert.KernelIdeal.S512x1024.rank) ∈ Cert.KernelIdeal.dot_S1x1024_S512x1024_S1x512_1_1_0_0_n_n.rhsNonContracting by decide)]
  rfl
/-- … and the contraction position on axis 1: both operands are contracted along their second axis. -/
theorem krhs_1 (i : Cert.KernelIdeal.S1x512.Idx) (q : Cert.KernelIdeal.dot_S1x1024_S512x1024_S1x512_1_1_0_0_n_n.contr.Idx) :
    (Cert.KernelIdeal.dot_S1x1024_S512x1024_S1x512_1_1_0_0_n_n.rhsIdx i q 1).val = (q ⟨0, by decide⟩).val :=
  Cert.KernelIdeal.dot_S1x1024_S512x1024_S1x512_1_1_0_0_n_n.rhsIdx_val_of_single rfl i q

/-- The kernel's block product into a zero accumulator, at row `p` and column `q`: the inner product of row `p` of the
    left operand with row `q` of the right one. -/
theorem kmatmul_apply (A : FVec Ideal Cert.KernelIdeal.S1x1024 .bf16) (B : FVec Ideal Cert.KernelIdeal.S512x1024 .bf16) (p : Fin 1) (q : Fin 512) :
    matmul (F := Ideal) Cert.KernelIdeal.dot_S1x1024_S512x1024_S1x512_1_1_0_0_n_n none A B (constant (F := Ideal) Cert.KernelIdeal.S1x512 .f32 0x00000000#32) (ix2 p q)
      = ∑ k : Fin 1024, A (ix2 p k) * B (ix2 q k) := by
  simp only [matmul]
  rw [Ideal.matmul_constant_zero_apply, ← Equiv.sum_comp (ValueIdx.contrEquiv1 Cert.KernelIdeal.dot_S1x1024_S512x1024_S1x512_1_1_0_0_n_n 1024 rfl rfl).symm]
  refine Finset.sum_congr rfl fun k _ => ?_
  have hk := ValueIdx.contrEquiv1_symm_val Cert.KernelIdeal.dot_S1x1024_S512x1024_S1x512_1_1_0_0_n_n 1024 rfl rfl k
  have el : Cert.KernelIdeal.dot_S1x1024_S512x1024_S1x512_1_1_0_0_n_n.lhsIdx (ix2 p q) ((ValueIdx.contrEquiv1 Cert.KernelIdeal.dot_S1x1024_S512x1024_S1x512_1_1_0_0_n_n 1024 rfl rfl).symm k) = ix2 p k := funext fun a => Fin.ext (by
    match a with
    | ⟨0, _⟩ => exact klhs_0 _ _
    | ⟨1, _⟩ => exact (klhs_1 _ _).trans hk)
  have er : Cert.KernelIdeal.dot_S1x1024_S512x1024_S1x512_1_1_0_0_n_n.rhsIdx (ix2 p q) ((ValueIdx.contrEquiv1 Cert.KernelIdeal.dot_S1x1024_S512x1024_S1x512_1_1_0_0_n_n 1024 rfl rfl).symm k) = ix2 q k := funext fun a => Fin.ext (by
    match a with
    | ⟨0, _⟩ => exact krhs_0 _ _
    | ⟨1, _⟩ => exact (krhs_1 _ _).trans hk)
  rw [el, er]

/-- The kernel's logits. -/
def kLogits (v0 v2 : Vec Ideal Cert.KernelIdeal.S1x1024 .f32) (v6 : Vec Ideal Cert.KernelIdeal.S512x2048 .f32) (v13 : Vec Ideal Cert.KernelIdeal.S1x512 .f32) : FVec Ideal Cert.KernelIdeal.S1x512 .f32 :=
  addf (addf
    (matmul Cert.KernelIdeal.dot_S1x1024_S512x1024_S1x512_1_1_0_0_n_n none (k0_pay2 v0)
      (extractStridedSlice Cert.KernelIdeal.S512x1024 ![0, 0] (truncf .bf16 v6 bitsLt_bf16_f32) slices_S512x2048_o0_0_S512x1024)
      (constant Cert.KernelIdeal.S1x512 .f32 0x00000000#32))
    (matmul Cert.KernelIdeal.dot_S1x1024_S512x1024_S1x512_1_1_0_0_n_n none
      (truncf .bf16 (shapeCast Cert.KernelIdeal.S1x1024 v2 shapeCasts_S1x1024_S1x1024) bitsLt_bf16_f32)
      (extractStridedSlice Cert.KernelIdeal.S512x1024 ![0, 1024] (truncf .bf16 v6 bitsLt_bf16_f32) slices_S512x2048_o0_1024_S512x1024)
      (constant Cert.KernelIdeal.S1x512 .f32 0x00000000#32)))
    (shapeCast Cert.KernelIdeal.S1x512 v13 shapeCasts_S1x512_S1x512)

/-! ## The softmax of a row, the kernel's way and the reference's way -/

/-- The kernel's row maximum (never below minus infinity). -/
def kMax (L : FVec Ideal Cert.KernelIdeal.S1x512 .f32) : FVec Ideal Cert.KernelIdeal.S1 .f32 :=
  maximumf (broadcast Cert.KernelIdeal.S1 (Scalar.ofBits .f32 0xFF800000#32))
    (multiReduction .maximumf [1] Cert.KernelIdeal.S1 L 0xFF800000#32 reduces_S1x512_S1 (.inl rfl) rfl)
/-- The kernel's way of laying one number along the row. -/
def kCol (v : FVec Ideal Cert.KernelIdeal.S1 .f32) : FVec Ideal Cert.KernelIdeal.S1x512 .f32 :=
  broadcastTo Cert.KernelIdeal.S1x512 (shapeCast Cert.KernelIdeal.S1x1 v shapeCasts_S1_S1x1) broadcasts_S1x1_S1x512
/-- The kernel's row sum. -/
def kSum (E : FVec Ideal Cert.KernelIdeal.S1x512 .f32) : FVec Ideal Cert.KernelIdeal.S1 .f32 :=
  multiReduction .add [1] Cert.KernelIdeal.S1 E 0x00000000#32 reduces_S1x512_S1 (.inl rfl) rfl
/-- The kernel's exponentials of the shifted row. -/
def kExp (L : FVec Ideal Cert.KernelIdeal.S1x512 .f32) : FVec Ideal Cert.KernelIdeal.S1x512 .f32 :=
  exp (subf L (kCol (kMax L)))
/-- The kernel's softmax of a row of logits. -/
def kSoftmax (L : FVec Ideal Cert.KernelIdeal.S1x512 .f32) : FVec Ideal Cert.KernelIdeal.S1x512 .f32 :=
  divf (kExp L) (kCol (kSum (kExp L)))

/-- The reference's row maximum. -/
def rMax (L : FVec Ideal S1x512 .f32) : FVec Ideal S1 .f32 :=
  maximumf (broadcastInDim S1 ![] Cert.ReferenceIdeal.Gen.bcast_S_S1 (constant (F := Ideal) S_ .f32 0xFF800000#32))
    (Host.reduce FloatOps.maximumf L (constant (F := Ideal) S_ .f32 0xFF800000#32) Cert.ReferenceIdeal.Gen.reducesTo_S1x512_S1_d1 Cert.ReferenceIdeal.Gen.h_S_)
/-- The reference's way of laying one number along the row. -/
def rCol (v : FVec Ideal S1 .f32) : FVec Ideal S1x512 .f32 :=
  broadcastInDim S1x512 ![0, 1] Cert.ReferenceIdeal.Gen.bcast_S1x1_S1x512_0_1 (broadcastInDim S1x1 ![0] Cert.ReferenceIdeal.Gen.bcast_S1_S1x1_0 v)
/-- The reference's row sum. -/
def rSum (E : FVec Ideal S1x512 .f32) : FVec Ideal S1 .f32 :=
  Host.reduceAdd E (constant (F := Ideal) S_ .f32 0x00000000#32) Cert.ReferenceIdeal.Gen.reducesTo_S1x512_S1_d1 Cert.ReferenceIdeal.Gen.h_S_
/-- The reference's exponentials of the shifted row. -/
def rExp (L : FVec Ideal S1x512 .f32) : FVec Ideal S1x512 .f32 :=
  Host.exp (subf L (rCol (rMax L)))
/-- The reference's softmax of a row of logits. -/
def rSoftmax (L : FVec Ideal S1x512 .f32) : FVec Ideal S1x512 .f32 :=
  Host.divf (rExp L) (rCol (rSum (rExp L)))

/-- Both maxima fold the maximum over the same set of indices from the same value. -/
theorem kMax_eq (L : FVec Ideal S1x512 .f32) : kMax L = rMax L := by
  unfold kMax rMax
  refine congrArg₂ maximumf ?_ ?_
  · funext j
    exact (broadcastInDim_apply _ Cert.ReferenceIdeal.Gen.bcast_S_S1 (constant (F := Ideal) S_ .f32 0xFF800000#32) j (fun a => a.elim0) (fun a => a.elim0)).symm
  · funext j
    refine (multiReduction_maximumf_eq_fold L _ reduces_S1x512_S1 _ _ j).trans ?_
    refine Eq.trans ?_ (Host.reduce_eq_fold FloatOps.maximumf L _ Cert.ReferenceIdeal.Gen.reducesTo_S1x512_S1_d1 Cert.ReferenceIdeal.Gen.h_S_ j).symm
    rfl

/-- One number laid along the row, either way, is that number at every column. -/
theorem kCol_eq (v : FVec Ideal S1 .f32) : kCol v = rCol v := by
  funext i
  obtain ⟨p, q, rfl⟩ : ∃ (p : Fin 1) (q : Fin 512), i = ix2 p q := ⟨i 0, i 1, eq_ix2 i⟩
  have e1 : kCol v (ix2 p q) = v (ix1 (0 : Fin 1)) := by
    unfold kCol
    refine (broadcastTo_apply _ broadcasts_S1x1_S1x512 (ix2 p q) (ix2 (0 : Fin 1) (0 : Fin 1)) (fun a => ?_)).trans ?_
    · match a with
      | ⟨0, _⟩ => show 0 = if (1 : Nat) = 1 then 0 else p.val; rw [if_pos rfl]
      | ⟨1, _⟩ => show 0 = if (1 : Nat) = 1 then 0 else q.val; rw [if_pos rfl]
    · exact shapeCast_a_1a_apply v shapeCasts_S1_S1x1 0 0
  have e2 : rCol v (ix2 p q) = v (ix1 (0 : Fin 1)) := by
    unfold rCol
    refine (broadcastInDim_apply _ Cert.ReferenceIdeal.Gen.bcast_S1x1_S1x512_0_1 _ (ix2 p q) (ix2 (0 : Fin 1) (0 : Fin 1)) (fun a => ?_)).trans ?_
    · match a with
      | ⟨0, _⟩ => show 0 = if (1 : Nat) = 1 then 0 else p.val; rw [if_pos rfl]
      | ⟨1, _⟩ => show 0 = if (1 : Nat) = 1 then 0 else q.val; rw [if_pos rfl]
    · refine broadcastInDim_apply _ Cert.ReferenceIdeal.Gen.bcast_S1_S1x1_0 v (ix2 (0 : Fin 1) (0 : Fin 1)) (ix1 (0 : Fin 1)) (fun a => ?_)
      match a with
      | ⟨0, _⟩ => show 0 = if (1 : Nat) = 1 then 0 else 0; rw [if_pos rfl]
  exact e1.trans e2.symm

/-- Both sums are the sum over the row, the reference's from a zero initial value. -/
theorem kSum_eq (E : FVec Ideal S1x512 .f32) : kSum E = rSum E := by
  funext j
  unfold kSum rSum
  refine (Ideal.multiReduction_add_single E _ reduces_S1x512_S1 _ _ j).trans (Eq.symm ?_)
  show Ideal.hostReduceAdd _ _ _ j = _
  rw [Ideal.hostReduceAdd_single Cert.ReferenceIdeal.Gen.reducesTo_S1x512_S1_d1 reduces_S1x512_S1]
  show Ideal.ofBits .f32 0x00000000#32 + _ = _
  rw [Ideal.ofBits_zero_f32, zero_add]

/-- The exponentials of the row shifted by its maximum agree. -/
theorem kExp_eq (L : FVec Ideal S1x512 .f32) : kExp L = rExp L := by
  unfold kExp rExp
  rw [kMax_eq, kCol_eq]
  rfl

/-- The two softmaxes are one function. -/
theorem kSoftmax_eq (L : FVec Ideal S1x512 .f32) : kSoftmax L = rSoftmax L := by
  unfold kSoftmax rSoftmax
  rw [kExp_eq, kSum_eq, kCol_eq]
  rfl

/-- The kernel's attention weights are its softmax of its logits. -/
theorem k0_pay3_eq (v0 v2 : Vec Ideal Cert.KernelIdeal.S1x1024 .f32) (v6 : Vec Ideal Cert.KernelIdeal.S512x2048 .f32) (v13 : Vec Ideal Cert.KernelIdeal.S1x512 .f32) :
    k0_pay3 (F := Ideal) v0 v2 v6 v13 = kSoftmax (kLogits v0 v2 v6 v13) := rfl

/-- The kernel's logits at row `p`, column `q`. -/
theorem kLogits_apply (v0 v2 : Vec Ideal Cert.KernelIdeal.S1x1024 .f32) (v6 : Vec Ideal Cert.KernelIdeal.S512x2048 .f32) (v13 : Vec Ideal Cert.KernelIdeal.S1x512 .f32) (p : Fin 1) (q : Fin 512) :
    kLogits v0 v2 v6 v13 (ix2 p q)
      = (∑ k : Fin 1024, v0 (ix2 p k) * v6 (ix2 q ⟨k.val, by omega⟩)) + (∑ k : Fin 1024, v2 (ix2 p k) * v6 (ix2 q ⟨1024 + k.val, by omega⟩)) + v13 (ix2 p q) := by
  unfold kLogits
  rw [addf_apply, addf_apply, kmatmul_apply, kmatmul_apply, shapeCast_self v13]
  refine congrArg₂ (· + ·) (congrArg₂ (· + ·) (Finset.sum_congr rfl fun k _ => ?_) (Finset.sum_congr rfl fun k _ => ?_)) rfl
  · refine congrArg₂ (· * ·) ?_ ?_
    · unfold k0_pay2
      rw [truncf_apply, shapeCast_self]
    · refine (slice2_axis1_apply 0 _ slices_S512x2048_o0_0_S512x1024 q k ⟨k.val, by omega⟩ (by simp)).trans ?_
      rfl
  · refine congrArg₂ (· * ·) ?_ ?_
    · rw [truncf_apply, shapeCast_self v2]
    · refine (slice2_axis1_apply 1024 _ slices_S512x2048_o0_1024_S512x1024 q k ⟨1024 + k.val, by omega⟩ rfl).trans ?_
      rfl

/-! ## The reference's logits -/

/-- A sum over the joined index is the sum over its first half plus the sum over its second half. -/
theorem sum_halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

/-- The joined row at a column of its first half is the embedded row there. -/
theorem v8_left (x0 : (⟨S1, .i32⟩ : BufTy).Contents (Elt Ideal)) (x1 : (⟨S1x1x1024, .f32⟩ : BufTy).Contents (Elt Ideal)) (x3 : (⟨S50257x1024, .f32⟩ : BufTy).Contents (Elt Ideal))
    (p : Fin 1) (k : Fin 1024) (k' : Fin 2048) (hk : k'.val = k.val) :
    val_main_v8 x0 x1 x3 (ix2 p k') = val_main_v6 x0 x3 (ix2 p k) := by
  unfold val_main_v8
  exact concatenate_pair_apply_left 1 _ _ Cert.ReferenceIdeal.Gen.concatenates_S1x1024_S1x1024_S1x2048_d1 (ix2 p k') rfl (ix2 p k) (fun b => by
    match b with
    | ⟨0, _⟩ => rfl
    | ⟨1, _⟩ => exact hk.symm)

/-- The joined row at a column of its second half is the hidden row, 1024 columns back. -/
theorem v8_right (x0 : (⟨S1, .i32⟩ : BufTy).Contents (Elt Ideal)) (x1 : (⟨S1x1x1024, .f32⟩ : BufTy).Contents (Elt Ideal)) (x3 : (⟨S50257x1024, .f32⟩ : BufTy).Contents (Elt Ideal))
    (p : Fin 1) (k : Fin 1024) (k' : Fin 2048) (hk : k'.val = 1024 + k.val) :
    val_main_v8 x0 x1 x3 (ix2 p k') = val_main_v7 x1 (ix2 p k) := by
  unfold val_main_v8
  exact concatenate_pair_apply_right 1 _ _ Cert.ReferenceIdeal.Gen.concatenates_S1x1024_S1x1024_S1x2048_d1 (ix2 p k') rfl rfl (ix2 p k) (fun b hb => by
    match b with
    | ⟨0, _⟩ => rfl
    | ⟨1, _⟩ => exact absurd (Fin.ext rfl) hb) (by show k.val + 1024 = k'.val; omega)

/-- The reference's logits at row `p`, column `q`: the inner product of the joined row with row `q` of the attention
    matrix, plus the bias at `q`. -/
theorem rLogits_apply (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal))
    (p : Fin 1) (q : Fin 512) :
    val_main_v12 x0 x1 x3 x4 x5 (ix2 p q)
      = (∑ k : Fin 2048, val_main_v8 x0 x1 x3 (ix2 p k) * x4 (ix2 q k)) + x5 (ix1 q) := by
  rw [val_main_v12_apply, val_main_v10_apply, val_main_v11_apply, Ideal.addf_def]
  refine congrArg₂ (· + ·) (Finset.sum_congr rfl fun k _ => ?_) ?_
  · rw [val_main_v9_apply]
    refine congrArg₂ (· * ·) (congrArg (val_main_v8 x0 x1 x3) ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x5 (funext fun a => Fin.ext (by match a with | ⟨0, _⟩ => rfl))

/-- The kernel's logits are the reference's. -/
theorem logits_eq (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) :
    kLogits (val_main_v6 x0 x3) (val_main_v7 x1) x4 (shapeCast Cert.KernelIdeal.S1x512 x5 Cert.KernelIdeal.Gen.shapeCasts_S512_S1x512)
      = val_main_v12 x0 x1 x3 x4 x5 := by
  funext i
  obtain ⟨p, q, rfl⟩ : ∃ (p : Fin 1) (q : Fin 512), i = ix2 p q := ⟨i 0, i 1, eq_ix2 i⟩
  rw [kLogits_apply, rLogits_apply, sum_halves]
  refine congrArg₂ (· + ·) (congrArg₂ (· + ·) (Finset.sum_congr rfl fun k _ => ?_) (Finset.sum_congr rfl fun k _ => ?_)) ?_
  · exact congrArg₂ (· * ·) (v8_left x0 x1 x3 p k ⟨k.val, by omega⟩ rfl).symm rfl
  · exact congrArg₂ (· * ·) (v8_right x0 x1 x3 p k ⟨1024 + k.val, by omega⟩ rfl).symm rfl
  · exact shapeCast_a_1a_apply x5 _ p q

/-- The reference's attention weights are its softmax of its logits. -/
theorem val_main_v23_eq (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) :
    val_main_v23 x0 x1 x3 x4 x5 = rSoftmax (val_main_v12 x0 x1 x3 x4 x5) := rfl

end AttnW

/-- The kernel's attention weights are the reference's. -/
theorem attn_weights_eq (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) :
    k0_pay3 (F := Ideal) (val_main_v6 x0 x3) (val_main_v7 x1) x4 (shapeCast Cert.KernelIdeal.S1x512 x5 Cert.KernelIdeal.Gen.shapeCasts_S512_S1x512)
      = val_main_v23 x0 x1 x3 x4 x5 := by
  rw [AttnW.k0_pay3_eq, AttnW.logits_eq, AttnW.kSoftmax_eq, AttnW.val_main_v23_eq]

end Cert.Bridge

end
-- ==== Proof.Stage0b.lean ====
/-
  The combined input of the recurrent cell. The kernel adds the inner product of the embedded row with the left half of
  each row of the combining matrix to that of the attended row with its right half, adds the bias and takes the maximum
  with zero; the reference joins the embedded and attended rows and takes one inner product. As for the attention logits,
  the sum over the joined index splits into the two halves. The attended row is on both sides the attention weights
  times the encoder outputs, and the weights agree by `attn_weights_eq`.
-/
import proofs.«168297_j82532091560494_1_alg».proof.Proof.RefRead
import proofs.«168297_j82532091560494_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import proofs.«168297_j82532091560494_1_alg».proof.Proof.Stage0a

noncomputable section

open Idealize.ShloMosaic Idealize.ShloMosaic.TcCoe Idealize.SL.Sem

namespace Cert.Bridge

open Cert.ReferenceIdeal Cert.ReferenceIdeal.Read Cert.KernelIdeal.Gen Idealize.ShloMosaic.ValueIdx

/-! ## The kernel's two contraction records, axis by axis -/

private theorem lhs_kC_0 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.lhsIdx i q 0).val = (i 0).val := by
  unfold DotDims.lhsIdx
  rw [dif_neg (show ¬(0 : Fin Cert.KernelIdeal.S1x1024.rank) ∈ Cert.KernelIdeal.dot_S1x1024_S1024x1024_S1x1024_1_1_0_0_n_n.lhsBatch by decide), dif_pos (show (0 : Fin Cert.KernelIdeal.S1x1024.rank) ∈ Cert.KernelIdeal.dot_S1x1024_S1024x1024_S1x1024_1_1_0_0_n_n.lhsNonContracting by decide)]
  rfl
private theorem lhs_kC_1 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.lhsIdx i q 1).val = (q ⟨0, by decide⟩).val :=
  Cert.KernelIdeal.dot_S1x1024_S1024x1024_S1x1024_1_1_0_0_n_n.lhsIdx_val_of_single rfl i q
private theorem rhs_kC_0 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.rhsIdx i q 0).val = (i 1).val := by
  unfold DotDims.rhsIdx
  rw [dif_neg (show ¬(0 : Fin Cert.KernelIdeal.S1024x1024.rank) ∈ Cert.KernelIdeal.dot_S1x1024_S1024x1024_S1x1024_1_1_0_0_n_n.rhsBatch by decide), dif_pos (show (0 : Fin Cert.KernelIdeal.S1024x1024.rank) ∈ Cert.KernelIdeal.dot_S1x1024_S1024x1024_S1x1024_1_1_0_0_n_n.rhsNonContracting by decide)]
  rfl
private theorem rhs_kC_1 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.rhsIdx i q 1).val = (q ⟨0, by decide⟩).val :=
  Cert.KernelIdeal.dot_S1x1024_S1024x1024_S1x1024_1_1_0_0_n_n.rhsIdx_val_of_single rfl i q

private theorem lhs_kA_0 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.lhsIdx i q 0).val = (i 0).val := by
  unfold DotDims.lhsIdx
  rw [dif_neg (show ¬(0 : Fin Cert.KernelIdeal.S1x512.rank) ∈ Cert.KernelIdeal.dot_S1x512_S512x1024_S1x1024_1_0_0_1_n_n.lhsBatch by decide), dif_pos (show (0 : Fin Cert.KernelIdeal.S1x512.rank) ∈ Cert.KernelIdeal.dot_S1x512_S512x1024_S1x1024_1_0_0_1_n_n.lhsNonContracting by decide)]
  rfl
private theorem lhs_kA_1 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.lhsIdx i q 1).val = (q ⟨0, by decide⟩).val :=
  Cert.KernelIdeal.dot_S1x512_S512x1024_S1x1024_1_0_0_1_n_n.lhsIdx_val_of_single rfl i q
private theorem rhs_kA_0 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.rhsIdx i q 0).val = (q ⟨0, by decide⟩).val :=
  Cert.KernelIdeal.dot_S1x512_S512x1024_S1x1024_1_0_0_1_n_n.rhsIdx_val_of_single rfl i q
private theorem rhs_kA_1 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.rhsIdx i q 1).val = (i 1).val := by
  unfold DotDims.rhsIdx
  rw [dif_neg (show ¬(1 : Fin Cert.KernelIdeal.S512x1024.rank) ∈ Cert.KernelIdeal.dot_S1x512_S512x1024_S1x1024_1_0_0_1_n_n.rhsBatch by decide), dif_pos (show (1 : Fin Cert.KernelIdeal.S512x1024.rank) ∈ Cert.KernelIdeal.dot_S1x512_S512x1024_S1x1024_1_0_0_1_n_n.rhsNonContracting by decide)]
  rfl

/-- A product contracting the second axis of both operands into a zero accumulator, read at `(p, q)`: the sum over
    `k` of the left operand at `(p, k)` times the right at `(q, k)`. -/
private theorem kdotC_apply (l : FVec Ideal Cert.KernelIdeal.S1x1024 .bf16) (r : FVec Ideal Cert.KernelIdeal.S1024x1024 .bf16)
    (p : Fin 1) (q : Fin 1024) :
    matmul Cert.KernelIdeal.dot_S1x1024_S1024x1024_S1x1024_1_1_0_0_n_n none l r (constant (F := Ideal) Cert.KernelIdeal.S1x1024 .f32 0x00000000#32) (ix2 p q)
      = ∑ k : Fin 1024, l (ix2 p k) * r (ix2 q k) := by
  simp only [matmul]
  rw [Ideal.matmul_constant_zero_apply, ← Equiv.sum_comp (ValueIdx.contrEquiv1 Cert.KernelIdeal.dot_S1x1024_S1024x1024_S1x1024_1_1_0_0_n_n 1024 rfl rfl).symm]
  refine Finset.sum_congr rfl fun k _ => ?_
  have hk := ValueIdx.contrEquiv1_symm_val Cert.KernelIdeal.dot_S1x1024_S1024x1024_S1x1024_1_1_0_0_n_n 1024 rfl rfl k
  have el : Cert.KernelIdeal.dot_S1x1024_S1024x1024_S1x1024_1_1_0_0_n_n.lhsIdx (ix2 p q) ((ValueIdx.contrEquiv1 Cert.KernelIdeal.dot_S1x1024_S1024x1024_S1x1024_1_1_0_0_n_n 1024 rfl rfl).symm k) = ix2 p k := funext fun a => Fin.ext (by
    match a with
    | ⟨0, _⟩ => exact lhs_kC_0 _ _
    | ⟨1, _⟩ => exact (lhs_kC_1 _ _).trans hk)
  have er : Cert.KernelIdeal.dot_S1x1024_S1024x1024_S1x1024_1_1_0_0_n_n.rhsIdx (ix2 p q) ((ValueIdx.contrEquiv1 Cert.KernelIdeal.dot_S1x1024_S1024x1024_S1x1024_1_1_0_0_n_n 1024 rfl rfl).symm k) = ix2 q k := funext fun a => Fin.ext (by
    match a with
    | ⟨0, _⟩ => exact rhs_kC_0 _ _
    | ⟨1, _⟩ => exact (rhs_kC_1 _ _).trans hk)
  rw [el, er]

/-- A plain row-by-matrix product into a zero accumulator, read at `(p, q)`: the sum over `k` of the row at `(p, k)`
    times the matrix at `(k, q)`. -/
private theorem kdotA_apply (l : FVec Ideal Cert.KernelIdeal.S1x512 .bf16) (r : FVec Ideal Cert.KernelIdeal.S512x1024 .bf16)
    (p : Fin 1) (q : Fin 1024) :
    matmul Cert.KernelIdeal.dot_S1x512_S512x1024_S1x1024_1_0_0_1_n_n none l r (constant (F := Ideal) Cert.KernelIdeal.S1x1024 .f32 0x00000000#32) (ix2 p q)
      = ∑ k : Fin 512, l (ix2 p k) * r (ix2 k q) := by
  simp only [matmul]
  rw [Ideal.matmul_constant_zero_apply, ← Equiv.sum_comp (ValueIdx.contrEquiv1 Cert.KernelIdeal.dot_S1x512_S512x1024_S1x1024_1_0_0_1_n_n 512 rfl rfl).symm]
  refine Finset.sum_congr rfl fun k _ => ?_
  have hk := ValueIdx.contrEquiv1_symm_val Cert.KernelIdeal.dot_S1x512_S512x1024_S1x1024_1_0_0_1_n_n 512 rfl rfl k
  have el : Cert.KernelIdeal.dot_S1x512_S512x1024_S1x1024_1_0_0_1_n_n.lhsIdx (ix2 p q) ((ValueIdx.contrEquiv1 Cert.KernelIdeal.dot_S1x512_S512x1024_S1x1024_1_0_0_1_n_n 512 rfl rfl).symm k) = ix2 p k := funext fun a => Fin.ext (by
    match a with
    | ⟨0, _⟩ => exact lhs_kA_0 _ _
    | ⟨1, _⟩ => exact (lhs_kA_1 _ _).trans hk)
  have er : Cert.KernelIdeal.dot_S1x512_S512x1024_S1x1024_1_0_0_1_n_n.rhsIdx (ix2 p q) ((ValueIdx.contrEquiv1 Cert.KernelIdeal.dot_S1x512_S512x1024_S1x1024_1_0_0_1_n_n 512 rfl rfl).symm k) = ix2 k q := funext fun a => Fin.ext (by
    match a with
    | ⟨0, _⟩ => exact (rhs_kA_0 _ _).trans hk
    | ⟨1, _⟩ => exact rhs_kA_1 _ _)
  rw [el, er]

/-! ## The two halves of a joined index -/

/-- A sum over 2048 places is the sum over the first 1024 plus the sum over the last 1024. -/
private theorem sum_split_2048 (f : Fin 2048 → EReal) :
    ∑ k : Fin 2048, f k = ∑ k : Fin 1024, f ⟨k.val, by omega⟩ + ∑ k : Fin 1024, f ⟨1024 + k.val, by omega⟩ :=
  Fin.sum_univ_add (a := 1024) (b := 1024) (f : Fin (1024 + 1024) → EReal)

/-! A row of 2048 entries joined from two rows of 1024, read in either half. -/

/-- In its first half the joined row is the first piece. -/
private theorem cat_left {α : Type} (a b : (⟨2, ![1, 1024]⟩ : Shape).Idx → α)
    (h : Shape.Concatenates [(⟨2, ![1, 1024]⟩ : Shape), ⟨2, ![1, 1024]⟩] ⟨2, ![1, 2048]⟩ 1) (p : Fin 1) (k : Fin 1024) :
    concatenate ⟨2, ![1, 2048]⟩ 1 [⟨⟨2, ![1, 1024]⟩, a⟩, ⟨⟨2, ![1, 1024]⟩, b⟩] h (ix2 p (⟨k.val, by omega⟩ : Fin 2048)) = a (ix2 p k) :=
  concatenate_pair_apply_left (t := ⟨2, ![1, 2048]⟩) 1 a b h _ rfl (ix2 p k) (fun c => by
    match c with
    | ⟨0, _⟩ => rfl
    | ⟨1, _⟩ => rfl)

/-- In its second half the joined row is the second piece, 1024 places back. -/
private theorem cat_right {α : Type} (a b : (⟨2, ![1, 1024]⟩ : Shape).Idx → α)
    (h : Shape.Concatenates [(⟨2, ![1, 1024]⟩ : Shape), ⟨2, ![1, 1024]⟩] ⟨2, ![1, 2048]⟩ 1) (p : Fin 1) (k : Fin 1024) :
    concatenate ⟨2, ![1, 2048]⟩ 1 [⟨⟨2, ![1, 1024]⟩, a⟩, ⟨⟨2, ![1, 1024]⟩, b⟩] h (ix2 p (⟨1024 + k.val, by omega⟩ : Fin 2048)) = b (ix2 p k) :=
  concatenate_pair_apply_right (t := ⟨2, ![1, 2048]⟩) 1 a b h _ rfl rfl (ix2 p k) (fun c hc => by
    match c, hc with
    | ⟨0, _⟩, _ => rfl
    | ⟨1, _⟩, hc => exact absurd rfl hc) (Nat.add_comm _ _)

/-! The kernel's payloads read at an index. -/

/-- A `[n]` array cast to a row `[1, n]` reads, at `(p, q)`, the operand at `q`: the same row-major position. -/
private theorem shapeCast_n_1n_apply {α : Type} {n : ℕ} (x : (⟨1, ![n]⟩ : Shape).Idx → α) (h : (⟨1, ![n]⟩ : Shape).ShapeCasts ⟨2, ![1, n]⟩)
    (p : Fin 1) (q : Fin n) : shapeCast ⟨2, ![1, n]⟩ x h (ix2 p q) = x (ix1 q) :=
  shapeCast_apply x h _ _ (by
    have hp : p.val = 0 := by omega
    rw [Shape.rowMajor_val_two, Shape.rowMajor_val_one]
    show q.val = p.val * n + q.val
    rw [hp, Nat.zero_mul, Nat.zero_add])

/-- The embedded row after its trivial cast and change of format is the embedded row. -/
private theorem pay2_apply (e : Vec Ideal Cert.KernelIdeal.S1x1024 .f32) (j : Cert.KernelIdeal.S1x1024.Idx) :
    k0_pay2 (F := Ideal) e j = e j := by
  unfold k0_pay2
  rw [truncf_apply, shapeCast_self]

/-- The left half of a row of the combining matrix. -/
private theorem sliceL_apply (cW : Vec Ideal Cert.KernelIdeal.S1024x2048 .f32) (q k : Fin 1024) :
    extractStridedSlice Cert.KernelIdeal.S1024x1024 ![0, 0] (truncf (F := Ideal) .bf16 cW bitsLt_bf16_f32) slices_S1024x2048_o0_0_S1024x1024 (ix2 q k)
      = cW (ix2 q (⟨k.val, by omega⟩ : Fin 2048)) := by
  have hs := extractStridedSlice_apply ![0, 0] (truncf (F := Ideal) .bf16 cW bitsLt_bf16_f32) slices_S1024x2048_o0_0_S1024x1024
    (ix2 q k) (ix2 q (⟨k.val, by omega⟩ : Fin 2048)) (fun a => by
      match a with
      | ⟨0, _⟩ => exact (Nat.zero_add _).symm
      | ⟨1, _⟩ => exact (Nat.zero_add _).symm)
  exact hs

/-- The right half of a row of the combining matrix. -/
private theorem sliceR_apply (cW : Vec Ideal Cert.KernelIdeal.S1024x2048 .f32) (q k : Fin 1024) :
    extractStridedSlice Cert.KernelIdeal.S1024x1024 ![0, 1024] (truncf (F := Ideal) .bf16 cW bitsLt_bf16_f32) slices_S1024x2048_o0_1024_S1024x1024 (ix2 q k)
      = cW (ix2 q (⟨1024 + k.val, by omega⟩ : Fin 2048)) := by
  have hs := extractStridedSlice_apply ![0, 1024] (truncf (F := Ideal) .bf16 cW bitsLt_bf16_f32) slices_S1024x2048_o0_1024_S1024x1024
    (ix2 q k) (ix2 q (⟨1024 + k.val, by omega⟩ : Fin 2048)) (fun a => by
      match a with
      | ⟨0, _⟩ => exact (Nat.zero_add _).symm
      | ⟨1, _⟩ => rfl)
  exact hs

/-- The kernel's combination before the bias, at `(p, q)`, once its attention weights are known to be `W`: the inner
    product of the embedded row with the left half of row `q` of the combining matrix, plus that of the attended row
    (the weights times the encoder outputs) with the right half. -/
private theorem ker_apply (e h : Vec Ideal Cert.KernelIdeal.S1x1024 .f32) (aW : Vec Ideal Cert.KernelIdeal.S512x2048 .f32)
    (ab : Vec Ideal Cert.KernelIdeal.S1x512 .f32) (enc : Vec Ideal Cert.KernelIdeal.S512x1024 .f32) (cW : Vec Ideal Cert.KernelIdeal.S1024x2048 .f32)
    (W : FVec Ideal Cert.KernelIdeal.S1x512 .f32) (hW : k0_pay3 (F := Ideal) e h aW ab = W) (p : Fin 1) (q : Fin 1024) :
    k0_pay4 (F := Ideal) e h aW ab enc cW (ix2 p q)
      = ∑ k : Fin 1024, e (ix2 p k) * cW (ix2 q (⟨k.val, by omega⟩ : Fin 2048))
        + ∑ k : Fin 1024, (∑ m : Fin 512, W (ix2 p m) * enc (ix2 m k)) * cW (ix2 q (⟨1024 + k.val, by omega⟩ : Fin 2048)) := by
  unfold k0_pay4
  rw [hW, addf_apply, kdotC_apply, kdotC_apply]
  refine congrArg₂ (· + ·) (Finset.sum_congr rfl fun k _ => ?_) (Finset.sum_congr rfl fun k _ => ?_)
  · rw [pay2_apply, sliceL_apply]
  · rw [truncf_apply, kdotA_apply, sliceR_apply]
    refine congrArg (· * _) (Finset.sum_congr rfl fun m _ => ?_)
    rw [truncf_apply, truncf_apply]

/-- The bias row added and the maximum with zero taken, at `(p, q)`. -/
private theorem pay1_apply (v : FVec Ideal Cert.KernelIdeal.S1x1024 .f32) (b : Vec Ideal Cert.KernelIdeal.S1024 .f32) (p : Fin 1) (q : Fin 1024) :
    k0_pay1 (F := Ideal) v (shapeCast Cert.KernelIdeal.S1x1024 b Cert.KernelIdeal.Gen.shapeCasts_S1024_S1x1024) (ix2 p q)
      = max (v (ix2 p q) + b (ix1 q)) (Ideal.ofBits .f32 0x00000000#32) := by
  unfold k0_pay1
  rw [maximumf_apply, addf_apply, broadcast_apply, shapeCast_self, shapeCast_n_1n_apply]
  rfl

/-! ## The reference's stages read at an index -/

/-- The reference's joined row in its first half: the embedded row. -/
private theorem v25_left (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (p : Fin 1) (k : Fin 1024) :
    val_main_v25 (F := Ideal) x0 x1 x2 x3 x4 x5 (ix2 p (⟨k.val, by omega⟩ : Fin 2048)) = val_main_v6 (F := Ideal) x0 x3 (ix2 p k) := by
  unfold val_main_v25
  exact cat_left _ _ _ p k

/-- The reference's joined row in its second half: the attended row. -/
private theorem v25_right (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (p : Fin 1) (k : Fin 1024) :
    val_main_v25 (F := Ideal) x0 x1 x2 x3 x4 x5 (ix2 p (⟨1024 + k.val, by omega⟩ : Fin 2048)) = val_main_v24 (F := Ideal) x0 x1 x2 x3 x4 x5 (ix2 p k) := by
  unfold val_main_v25
  exact cat_right _ _ _ p k

/-- The reference's attended row at `(p, k)`: the attention weights times column `k` of the encoder outputs. -/
private theorem v24_apply (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (p : Fin 1) (k : Fin 1024) :
    val_main_v24 (F := Ideal) x0 x1 x2 x3 x4 x5 (ix2 p k) = ∑ m : Fin 512, val_main_v23 (F := Ideal) x0 x1 x3 x4 x5 (ix2 p m) * x2 (ix2 m k) := by
  rw [val_main_v24_apply]
  refine Finset.sum_congr rfl fun m _ => ?_
  have el : lidx_main_v24 (ix2 p k) m = ix2 p m := funext fun a => Fin.ext (by
    match a with
    | ⟨0, _⟩ => rfl
    | ⟨1, _⟩ => rfl)
  have er : ridx_main_v24 (ix2 p k) m = ix2 m k := funext fun a => Fin.ext (by
    match a with
    | ⟨0, _⟩ => rfl
    | ⟨1, _⟩ => rfl)
  rw [el, er]

/-- The reference's combined, rectified row at `(p, q)`: the sum over the 2048 joined columns split into its halves, the
    first over the embedded row, the second over the attended row; the bias added; the maximum with zero taken. -/
private theorem ref_apply (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (p : Fin 1) (q : Fin 1024) :
    val_main_v30 (F := Ideal) x0 x1 x2 x3 x4 x5 x6 x7 (ix2 p q)
      = max ((∑ k : Fin 1024, val_main_v6 (F := Ideal) x0 x3 (ix2 p k) * x6 (ix2 q (⟨k.val, by omega⟩ : Fin 2048))
            + ∑ k : Fin 1024, (∑ m : Fin 512, val_main_v23 (F := Ideal) x0 x1 x3 x4 x5 (ix2 p m) * x2 (ix2 m k)) * x6 (ix2 q (⟨1024 + k.val, by omega⟩ : Fin 2048)))
          + x7 (ix1 q)) (Ideal.ofBits .f32 0x00000000#32) := by
  rw [val_main_v30_apply, val_main_v29_apply, val_main_v27_apply, val_main_v28_apply, val_main_call0_v0_apply, val_main_call0_cst_apply,
    Ideal.maximumf_def, Ideal.addf_def, Ideal.ofBits_def]
  have e28 : idx_main_v28 (ix2 p q) = ix1 q := funext fun a => Fin.ext (by
    match a with
    | ⟨0, _⟩ => rfl)
  have el : ∀ k : Fin 2048, lidx_main_v27 (ix2 p q) k = ix2 p k := fun k => funext fun a => Fin.ext (by
    match a with
    | ⟨0, _⟩ => rfl
    | ⟨1, _⟩ => rfl)
  have er : ∀ k : Fin 2048, idx_main_v26 (ridx_main_v27 (ix2 p q) k) = ix2 q k := fun k => funext fun a => Fin.ext (by
    match a with
    | ⟨0, _⟩ => rfl
    | ⟨1, _⟩ => rfl)
  refine congrArg₂ max (congrArg₂ (· + ·) ?_ (congrArg x7 e28)) rfl
  refine (sum_split_2048 _).trans (congrArg₂ (· + ·) (Finset.sum_congr rfl fun k _ => ?_) (Finset.sum_congr rfl fun k _ => ?_))
  · show val_main_v25 (F := Ideal) x0 x1 x2 x3 x4 x5 (lidx_main_v27 (ix2 p q) ⟨k.val, _⟩) * val_main_v26 (F := Ideal) x6 (ridx_main_v27 (ix2 p q) ⟨k.val, _⟩) = _
    rw [val_main_v26_apply, el, er, v25_left]
  · show val_main_v25 (F := Ideal) x0 x1 x2 x3 x4 x5 (lidx_main_v27 (ix2 p q) ⟨1024 + k.val, _⟩) * val_main_v26 (F := Ideal) x6 (ridx_main_v27 (ix2 p q) ⟨1024 + k.val, _⟩) = _
    rw [val_main_v26_apply, el, er, v25_right, v24_apply]

/-! ## The two sides meet -/

/-- The kernel's combined, rectified row is the reference's. -/
theorem combined_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) :
    k0_pay1 (F := Ideal)
        (k0_pay4 (F := Ideal) (val_main_v6 x0 x3) (val_main_v7 x1) x4 (shapeCast Cert.KernelIdeal.S1x512 x5 Cert.KernelIdeal.Gen.shapeCasts_S512_S1x512) x2 x6)
        (shapeCast Cert.KernelIdeal.S1x1024 x7 Cert.KernelIdeal.Gen.shapeCasts_S1024_S1x1024)
      = val_main_v30 x0 x1 x2 x3 x4 x5 x6 x7 := by
  funext i
  obtain ⟨p, q, rfl⟩ : ∃ (p : Fin 1) (q : Fin 1024), i = ValueIdx.ix2 p q := ⟨i 0, i 1, ValueIdx.eq_ix2 i⟩
  rw [ref_apply, pay1_apply, ker_apply _ _ _ _ _ _ _ (attn_weights_eq x0 x1 x3 x4 x5)]

end Cert.Bridge

end
-- ==== Proof.Stage1.lean ====
/-
  One step of the gated recurrent cell. Both sides form the input gates as the row times the transposed input matrix plus
  its bias and the hidden gates as the hidden row times the transposed hidden matrix plus its bias, cut each into reset,
  update and candidate thirds, and combine them as `(1 - z) · n + z · h` with `r = σ(i_r + h_r)`, `z = σ(i_z + h_z)`,
  `n = tanh(i_n + r · h_n)`. The kernel's logistic function is by definition `1 / (1 + exp (-x))` on the extended reals,
  which is what the reference spells out; the kernel contracts each matrix along its second axis where the reference
  contracts the transposed matrix along its first, the same sum.
-/
import proofs.«168297_j82532091560494_1_alg».proof.Proof.RefRead
import proofs.«168297_j82532091560494_1_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open Idealize.ShloMosaic Idealize.ShloMosaic.TcCoe Idealize.SL.Sem

namespace Cert.Bridge

open Cert.ReferenceIdeal Cert.ReferenceIdeal.Read Cert.KernelIdeal.Gen

open Idealize.ShloMosaic.ValueIdx

open scoped BigOperators

/-! ## The kernel's product, read at an index

The kernel contracts the second axis of the row against the second axis of the matrix: the operand indices at output
(p, q) and contraction position k are (p, k) and (q, k). One lemma per operand axis. -/

private theorem klhs_0 (i : Cert.KernelIdeal.S1x3072.Idx) (q : Cert.KernelIdeal.dot_S1x1024_S3072x1024_S1x3072_1_1_0_0_n_n.contr.Idx) :
    (Cert.KernelIdeal.dot_S1x1024_S3072x1024_S1x3072_1_1_0_0_n_n.lhsIdx i q 0).val = (i 0).val := by
  unfold DotDims.lhsIdx
  rw [dif_neg (show ¬(0 : Fin Cert.KernelIdeal.S1x1024.rank) ∈ Cert.KernelIdeal.dot_S1x1024_S3072x1024_S1x3072_1_1_0_0_n_n.lhsBatch by decide), dif_pos (show (0 : Fin Cert.KernelIdeal.S1x1024.rank) ∈ Cert.KernelIdeal.dot_S1x1024_S3072x1024_S1x3072_1_1_0_0_n_n.lhsNonContracting by decide)]
  rfl
private theorem klhs_1 (i : Cert.KernelIdeal.S1x3072.Idx) (q : Cert.KernelIdeal.dot_S1x1024_S3072x1024_S1x3072_1_1_0_0_n_n.contr.Idx) :
    (Cert.KernelIdeal.dot_S1x1024_S3072x1024_S1x3072_1_1_0_0_n_n.lhsIdx i q 1).val = (q ⟨0, by decide⟩).val :=
  Cert.KernelIdeal.dot_S1x1024_S3072x1024_S1x3072_1_1_0_0_n_n.lhsIdx_val_of_single rfl i q
private theorem krhs_0 (i : Cert.KernelIdeal.S1x3072.Idx) (q : Cert.KernelIdeal.dot_S1x1024_S3072x1024_S1x3072_1_1_0_0_n_n.contr.Idx) :
    (Cert.KernelIdeal.dot_S1x1024_S3072x1024_S1x3072_1_1_0_0_n_n.rhsIdx i q 0).val = (i 1).val := by
  unfold DotDims.rhsIdx
  rw [dif_neg (show ¬(0 : Fin Cert.KernelIdeal.S3072x1024.rank) ∈ Cert.KernelIdeal.dot_S1x1024_S3072x1024_S1x3072_1_1_0_0_n_n.rhsBatch by decide), dif_pos (show (0 : Fin Cert.KernelIdeal.S3072x1024.rank) ∈ Cert.KernelIdeal.dot_S1x1024_S3072x1024_S1x3072_1_1_0_0_n_n.rhsNonContracting by decide)]
  rfl
private theorem krhs_1 (i : Cert.KernelIdeal.S1x3072.Idx) (q : Cert.KernelIdeal.dot_S1x1024_S3072x1024_S1x3072_1_1_0_0_n_n.contr.Idx) :
    (Cert.KernelIdeal.dot_S1x1024_S3072x1024_S1x3072_1_1_0_0_n_n.rhsIdx i q 1).val = (q ⟨0, by decide⟩).val :=
  Cert.KernelIdeal.dot_S1x1024_S3072x1024_S1x3072_1_1_0_0_n_n.rhsIdx_val_of_single rfl i q

/-- The kernel's product into a zero accumulator, read at row p and column q: the row of the left operand against
    row q of the right operand. -/
private theorem kmatmul_apply (y : FVec Ideal Cert.KernelIdeal.S1x1024 .bf16) (W : FVec Ideal Cert.KernelIdeal.S3072x1024 .bf16)
    (p : Fin 1) (q : Fin 3072) :
    matmul Cert.KernelIdeal.dot_S1x1024_S3072x1024_S1x3072_1_1_0_0_n_n none y W (constant Cert.KernelIdeal.S1x3072 .f32 0x00000000#32) (ix2 p q)
      = ∑ k : Fin 1024, y (ix2 p k) * W (ix2 q k) := by
  simp only [matmul]
  rw [Ideal.matmul_constant_zero_apply, ← Equiv.sum_comp (ValueIdx.contrEquiv1 Cert.KernelIdeal.dot_S1x1024_S3072x1024_S1x3072_1_1_0_0_n_n 1024 rfl rfl).symm]
  refine Finset.sum_congr rfl fun k _ => ?_
  have hk := ValueIdx.contrEquiv1_symm_val Cert.KernelIdeal.dot_S1x1024_S3072x1024_S1x3072_1_1_0_0_n_n 1024 rfl rfl k
  have el : Cert.KernelIdeal.dot_S1x1024_S3072x1024_S1x3072_1_1_0_0_n_n.lhsIdx (ix2 p q) ((ValueIdx.contrEquiv1 Cert.KernelIdeal.dot_S1x1024_S3072x1024_S1x3072_1_1_0_0_n_n 1024 rfl rfl).symm k) = ix2 p k := funext fun a => Fin.ext (by
    match a with
    | ⟨0, _⟩ => exact klhs_0 _ _
    | ⟨1, _⟩ => exact (klhs_1 _ _).trans hk)
  have er : Cert.KernelIdeal.dot_S1x1024_S3072x1024_S1x3072_1_1_0_0_n_n.rhsIdx (ix2 p q) ((ValueIdx.contrEquiv1 Cert.KernelIdeal.dot_S1x1024_S3072x1024_S1x3072_1_1_0_0_n_n 1024 rfl rfl).symm k) = ix2 q k := funext fun a => Fin.ext (by
    match a with
    | ⟨0, _⟩ => exact krhs_0 _ _
    | ⟨1, _⟩ => exact (krhs_1 _ _).trans hk)
  rw [el, er]

/-! ## One gate row

The row y against the rows of W, plus the bias: at column q the sum over k of y k · W q k, plus b q, on both sides. -/

/-- One gate row of the kernel, the bias already laid out as one row. -/
private def kGate (y : FVec Ideal Cert.KernelIdeal.S1x1024 .f32) (W : FVec Ideal Cert.KernelIdeal.S3072x1024 .f32)
    (b : FVec Ideal Cert.KernelIdeal.S1x3072 .f32) : FVec Ideal Cert.KernelIdeal.S1x3072 .f32 :=
  addf (matmul Cert.KernelIdeal.dot_S1x1024_S3072x1024_S1x3072_1_1_0_0_n_n none
      (truncf .bf16 (shapeCast Cert.KernelIdeal.S1x1024 y Cert.KernelIdeal.Gen.shapeCasts_S1x1024_S1x1024) Cert.KernelIdeal.Gen.bitsLt_bf16_f32)
      (truncf .bf16 W Cert.KernelIdeal.Gen.bitsLt_bf16_f32) (constant Cert.KernelIdeal.S1x3072 .f32 0x00000000#32))
    (shapeCast Cert.KernelIdeal.S1x3072 b Cert.KernelIdeal.Gen.shapeCasts_S1x3072_S1x3072)

/-- The kernel's gate row at column q; a change of float format is the identity on the extended reals. -/
private theorem kGate_apply (y : FVec Ideal Cert.KernelIdeal.S1x1024 .f32) (W : FVec Ideal Cert.KernelIdeal.S3072x1024 .f32)
    (b : FVec Ideal Cert.KernelIdeal.S3072 .f32) (p : Fin 1) (q : Fin 3072) :
    kGate y W (shapeCast Cert.KernelIdeal.S1x3072 b Cert.KernelIdeal.Gen.shapeCasts_S3072_S1x3072) (ix2 p q)
      = (∑ k : Fin 1024, y (ix2 p k) * W (ix2 q k)) + b (ix1 q) := by
  unfold kGate
  rw [shapeCast_self, shapeCast_self, addf_apply, kmatmul_apply, shapeCast_a_1a_apply]
  rfl

/-- The reference's input gate row at column q: contracting the transposed matrix along its first axis reads row q
    of the matrix itself. -/
private theorem v34_at (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 : (⟨S3072x1024, .f32⟩ : BufTy).Contents (Elt Ideal)) (x10 : (⟨S3072, .f32⟩ : BufTy).Contents (Elt Ideal)) (p : Fin 1) (q : Fin 3072) :
    val_main_v34 (F := Ideal) x0 x1 x2 x3 x4 x5 x6 x7 x8 x10 (ix2 p q)
      = (∑ k : Fin 1024, val_main_v30 (F := Ideal) x0 x1 x2 x3 x4 x5 x6 x7 (ix2 p k) * x8 (ix2 q k)) + x10 (ix1 q) := by
  have e3 : idx_main_v33 (ix2 p q) = ix1 q := funext fun a => Fin.ext (by match a with | ⟨0, _⟩ => rfl)
  rw [val_main_v34_apply, val_main_v32_apply, val_main_v33_apply, e3, Ideal.addf_def]
  refine congrArg (· + x10 (ix1 q)) (Finset.sum_congr rfl fun k _ => ?_)
  have e1 : lidx_main_v32 (ix2 p q) k = ix2 p k := funext fun a => Fin.ext (by match a with | ⟨0, _⟩ => rfl | ⟨1, _⟩ => rfl)
  have e2 : idx_main_v31 (ridx_main_v32 (ix2 p q) k) = ix2 q k := funext fun a => Fin.ext (by match a with | ⟨0, _⟩ => rfl | ⟨1, _⟩ => rfl)
  rw [val_main_v31_apply, e1, e2]

/-- The reference's hidden gate row at column q. -/
private theorem v38_at (x1 : (⟨S1x1x1024, .f32⟩ : BufTy).Contents (Elt Ideal)) (x9 : (⟨S3072x1024, .f32⟩ : BufTy).Contents (Elt Ideal)) (x11 : (⟨S3072, .f32⟩ : BufTy).Contents (Elt Ideal)) (p : Fin 1) (q : Fin 3072) :
    val_main_v38 (F := Ideal) x1 x9 x11 (ix2 p q)
      = (∑ k : Fin 1024, val_main_v7 (F := Ideal) x1 (ix2 p k) * x9 (ix2 q k)) + x11 (ix1 q) := by
  have e3 : idx_main_v37 (ix2 p q) = ix1 q := funext fun a => Fin.ext (by match a with | ⟨0, _⟩ => rfl)
  rw [val_main_v38_apply, val_main_v36_apply, val_main_v37_apply, e3, Ideal.addf_def]
  refine congrArg (· + x11 (ix1 q)) (Finset.sum_congr rfl fun k _ => ?_)
  have e1 : lidx_main_v36 (ix2 p q) k = ix2 p k := funext fun a => Fin.ext (by match a with | ⟨0, _⟩ => rfl | ⟨1, _⟩ => rfl)
  have e2 : idx_main_v35 (ridx_main_v36 (ix2 p q) k) = ix2 q k := funext fun a => Fin.ext (by match a with | ⟨0, _⟩ => rfl | ⟨1, _⟩ => rfl)
  rw [val_main_v35_apply, e1, e2]

/-! ## The elementwise part -/

/-- The elementwise part of the cell on the kernel's side, from the two gate rows G (input) and H (hidden) and the old
    hidden row h: r = σ(G₀ + H₀), z = σ(G₁ + H₁), n = tanh(G₂ + r · H₂), result (1 - z) · n + z · h, the thirds being the
    column ranges from 0, 1024 and 2048. -/
private def kTail (G H : FVec Ideal Cert.KernelIdeal.S1x3072 .f32) (h : FVec Ideal Cert.KernelIdeal.S1x1024 .f32) :
    FVec Ideal Cert.KernelIdeal.S1x1024 .f32 :=
  addf
    (mulf
      (subf (broadcast Cert.KernelIdeal.S1x1024 (Scalar.ofBits .f32 0x3F800000#32))
        (logistic (addf (extractStridedSlice Cert.KernelIdeal.S1x1024 ![0, 1024] G Cert.KernelIdeal.Gen.slices_S1x3072_o0_1024_S1x1024) (extractStridedSlice Cert.KernelIdeal.S1x1024 ![0, 1024] H Cert.KernelIdeal.Gen.slices_S1x3072_o0_1024_S1x1024))))
      (tanh (addf (extractStridedSlice Cert.KernelIdeal.S1x1024 ![0, 2048] G Cert.KernelIdeal.Gen.slices_S1x3072_o0_2048_S1x1024)
        (mulf (logistic (addf (extractStridedSlice Cert.KernelIdeal.S1x1024 ![0, 0] G Cert.KernelIdeal.Gen.slices_S1x3072_o0_0_S1x1024) (extractStridedSlice Cert.KernelIdeal.S1x1024 ![0, 0] H Cert.KernelIdeal.Gen.slices_S1x3072_o0_0_S1x1024))) (extractStridedSlice Cert.KernelIdeal.S1x1024 ![0, 2048] H Cert.KernelIdeal.Gen.slices_S1x3072_o0_2048_S1x1024)))))
    (mulf (logistic (addf (extractStridedSlice Cert.KernelIdeal.S1x1024 ![0, 1024] G Cert.KernelIdeal.Gen.slices_S1x3072_o0_1024_S1x1024) (extractStridedSlice Cert.KernelIdeal.S1x1024 ![0, 1024] H Cert.KernelIdeal.Gen.slices_S1x3072_o0_1024_S1x1024))) h)

/-- The payload is the elementwise part applied to its two gate rows and the old hidden row. -/
private theorem k1_pay1_eq (v0 v2 : FVec Ideal Cert.KernelIdeal.S1x1024 .f32) (v6 v8 : FVec Ideal Cert.KernelIdeal.S3072x1024 .f32)
    (v11 v15 : FVec Ideal Cert.KernelIdeal.S1x3072 .f32) :
    k1_pay1 (F := Ideal) v0 v2 v6 v8 v11 v15
      = kTail (kGate v0 v6 v11) (kGate v2 v8 v15) (shapeCast Cert.KernelIdeal.S1x1024 v2 Cert.KernelIdeal.Gen.shapeCasts_S1x1024_S1x1024) := rfl

private theorem kTail_congr {G G' H H' : FVec Ideal Cert.KernelIdeal.S1x3072 .f32} {h h' : FVec Ideal Cert.KernelIdeal.S1x1024 .f32}
    (eG : G = G') (eH : H = H') (eh : h = h') : kTail G H h = kTail G' H' h' := by
  subst eG eH eh; rfl

/-- The elementwise part read at a column, the kernel's logistic function written as the quotient it is. -/
private theorem kTail_apply (G H : FVec Ideal Cert.KernelIdeal.S1x3072 .f32) (h : FVec Ideal Cert.KernelIdeal.S1x1024 .f32)
    (i : Cert.KernelIdeal.S1x1024.Idx) :
    kTail G H h i
      = (Ideal.ofBits .f32 0x3F800000#32 - Ideal.div 1 (1 + Ideal.exp (-(extractStridedSlice Cert.KernelIdeal.S1x1024 ![0, 1024] G Cert.KernelIdeal.Gen.slices_S1x3072_o0_1024_S1x1024 i + extractStridedSlice Cert.KernelIdeal.S1x1024 ![0, 1024] H Cert.KernelIdeal.Gen.slices_S1x3072_o0_1024_S1x1024 i))))
          * Ideal.tanh (extractStridedSlice Cert.KernelIdeal.S1x1024 ![0, 2048] G Cert.KernelIdeal.Gen.slices_S1x3072_o0_2048_S1x1024 i + Ideal.div 1 (1 + Ideal.exp (-(extractStridedSlice Cert.KernelIdeal.S1x1024 ![0, 0] G Cert.KernelIdeal.Gen.slices_S1x3072_o0_0_S1x1024 i + extractStridedSlice Cert.KernelIdeal.S1x1024 ![0, 0] H Cert.KernelIdeal.Gen.slices_S1x3072_o0_0_S1x1024 i))) * extractStridedSlice Cert.KernelIdeal.S1x1024 ![0, 2048] H Cert.KernelIdeal.Gen.slices_S1x3072_o0_2048_S1x1024 i)
        + Ideal.div 1 (1 + Ideal.exp (-(extractStridedSlice Cert.KernelIdeal.S1x1024 ![0, 1024] G Cert.KernelIdeal.Gen.slices_S1x3072_o0_1024_S1x1024 i + extractStridedSlice Cert.KernelIdeal.S1x1024 ![0, 1024] H Cert.KernelIdeal.Gen.slices_S1x3072_o0_1024_S1x1024 i))) * h i := rfl

/-- The elementwise part of the kernel on the reference's gate rows is the reference's new hidden row: the reference
    spells the logistic function out as negate, exponential, one plus, one over. -/
private theorem tail_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) :
    kTail (val_main_v34 (F := Ideal) x0 x1 x2 x3 x4 x5 x6 x7 x8 x10) (val_main_v38 (F := Ideal) x1 x9 x11) (val_main_v7 (F := Ideal) x1)
      = val_main_v66 (F := Ideal) x0 x1 x2 x3 x4 x5 x6 x7 x8 x9 x10 x11 := by
  funext i
  rw [kTail_apply]
  simp only [val_main_v66_apply, val_main_v65_apply, val_main_v64_apply, val_main_v63_apply, val_main_v62_apply,
    val_main_cst_7_apply, val_main_v61_apply, val_main_v60_apply, val_main_v59_apply, val_main_v58_apply,
    val_main_v57_apply, val_main_cst_6_apply, val_main_v56_apply, val_main_v55_apply, val_main_cst_5_apply,
    val_main_v54_apply, val_main_v53_apply, val_main_v52_apply, val_main_v51_apply, val_main_v50_apply,
    val_main_cst_4_apply, val_main_v49_apply, val_main_v48_apply, val_main_cst_3_apply, val_main_v47_apply,
    val_main_v46_apply, val_main_v45_apply,
    val_main_v39, val_main_v40, val_main_v41, val_main_v42, val_main_v43, val_main_v44]
  generalize val_main_v34 (F := Ideal) x0 x1 x2 x3 x4 x5 x6 x7 x8 x10 = G
  generalize val_main_v38 (F := Ideal) x1 x9 x11 = H
  generalize val_main_v7 (F := Ideal) x1 = h
  simp only [Ideal.ofBits_def, Ideal.ofBits_one_f32]
  rfl

/-- The kernel's new hidden row, from the reference's rectified row, is the reference's new hidden row. -/
theorem hidden_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) :
    k1_pay1 (F := Ideal) (val_main_v30 x0 x1 x2 x3 x4 x5 x6 x7) (val_main_v7 x1) x8 x9
        (shapeCast Cert.KernelIdeal.S1x3072 x10 Cert.KernelIdeal.Gen.shapeCasts_S3072_S1x3072)
        (shapeCast Cert.KernelIdeal.S1x3072 x11 Cert.KernelIdeal.Gen.shapeCasts_S3072_S1x3072)
      = val_main_v66 x0 x1 x2 x3 x4 x5 x6 x7 x8 x9 x10 x11 := by
  have eG : kGate (val_main_v30 (F := Ideal) x0 x1 x2 x3 x4 x5 x6 x7) x8
      (shapeCast Cert.KernelIdeal.S1x3072 x10 Cert.KernelIdeal.Gen.shapeCasts_S3072_S1x3072)
      = val_main_v34 (F := Ideal) x0 x1 x2 x3 x4 x5 x6 x7 x8 x10 := by
    funext i
    obtain ⟨p, q, rfl⟩ : ∃ (p : Fin 1) (q : Fin 3072), i = ix2 p q := ⟨i 0, i 1, eq_ix2 i⟩
    exact (kGate_apply _ _ _ p q).trans (v34_at x0 x1 x2 x3 x4 x5 x6 x7 x8 x10 p q).symm
  have eH : kGate (val_main_v7 (F := Ideal) x1) x9
      (shapeCast Cert.KernelIdeal.S1x3072 x11 Cert.KernelIdeal.Gen.shapeCasts_S3072_S1x3072)
      = val_main_v38 (F := Ideal) x1 x9 x11 := by
    funext i
    obtain ⟨p, q, rfl⟩ : ∃ (p : Fin 1) (q : Fin 3072), i = ix2 p q := ⟨i 0, i 1, eq_ix2 i⟩
    exact (kGate_apply _ _ _ p q).trans (v38_at x1 x9 x11 p q).symm
  refine (k1_pay1_eq _ _ _ _ _ _).trans ?_
  refine (kTail_congr eG eH (shapeCast_self _ _)).trans ?_
  exact tail_eq x0 x1 x2 x3 x4 x5 x6 x7 x8 x9 x10 x11

end Cert.Bridge

end
-- ==== Proof.Stage2.lean ====
/-
  The output projection on the reference's side: the new hidden row times the transposed output matrix, plus the bias
  broadcast along the row, is entry by entry the inner product with a row of the matrix plus that row's bias.
-/
import proofs.«168297_j82532091560494_1_alg».proof.Proof.RefRead
import proofs.«168297_j82532091560494_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«168297_j82532091560494_1_alg».proof.Proof.Spec

noncomputable section

open Idealize.ShloMosaic Idealize.ShloMosaic.TcCoe Idealize.SL.Sem

namespace Cert.Bridge

open Cert.ReferenceIdeal Cert.ReferenceIdeal.Read

/-- The reference's logits are `logitsOf` of its new hidden row, the output matrix and the bias laid out as a row. -/
theorem ref_logits_eq (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S50257x1024, .f32⟩ : BufTy).Contents (Elt Ideal)) (x13 : (⟨S50257, .f32⟩ : BufTy).Contents (Elt Ideal)) :
    Cert.Spec.logitsOf (val_main_v66 x0 x1 x2 x3 x4 x5 x6 x7 x8 x9 x10 x11) x12
        (shapeCast Cert.ReferenceIdeal.S1x50257 x13 Cert.KernelIdeal.Gen.shapeCasts_S50257_S1x50257)
      = val_main_v70 x0 x1 x2 x3 x4 x5 x6 x7 x8 x9 x10 x11 x12 x13 := by
  funext i
  obtain ⟨p, q, rfl⟩ : ∃ (p : Fin 1) (q : Fin 50257), i = ValueIdx.ix2 p q := ⟨i 0, i 1, ValueIdx.eq_ix2 i⟩
  -- the row coordinate of a one-row array is zero
  have hp : p = 0 := Fin.ext (by have := p.isLt; omega)
  subst hp
  rw [val_main_v70_apply, val_main_v68_apply, val_main_v69_apply, Ideal.addf_def]
  -- from here on the hidden row is an arbitrary row
  generalize val_main_v66 x0 x1 x2 x3 x4 x5 x6 x7 x8 x9 x10 x11 = h
  unfold Cert.Spec.logitsOf
  -- the bias laid out as a row, read at column q, is the bias at q
  have hb : shapeCast Cert.ReferenceIdeal.S1x50257 x13 Cert.KernelIdeal.Gen.shapeCasts_S50257_S1x50257 (ValueIdx.ix2 0 q)
      = x13 (idx_main_v69 (ValueIdx.ix2 0 q)) :=
    (ValueIdx.shapeCast_a_1a_apply x13 _ 0 q).trans
      (congrArg x13 (funext fun a => Fin.ext (by match a with | ⟨0, _⟩ => rfl)))
  -- summand by summand: the transposed matrix at (k, q) is the matrix at (q, k)
  refine congrArg₂ (· + ·) (Finset.sum_congr rfl fun k _ => ?_) hb
  have el : lidx_main_v68 (ValueIdx.ix2 (0 : Fin 1) q) k = ValueIdx.ix2 (0 : Fin 1) k :=
    funext fun a => Fin.ext (by match a with | ⟨0, _⟩ => rfl | ⟨1, _⟩ => rfl)
  have er : idx_main_v67 (ridx_main_v68 (ValueIdx.ix2 (0 : Fin 1) q) k) = ValueIdx.ix2 q k :=
    funext fun a => Fin.ext (by match a with | ⟨0, _⟩ => rfl | ⟨1, _⟩ => rfl)
  rw [val_main_v67_apply, el, er]

end Cert.Bridge

end
-- ==== Proof.KI.Results.lean ====
/-
  The three results of the idealized kernel program as functions of the launch arguments, and that they are the
  reference's. Walking back from the end: the log-probabilities are the log-softmax of the logits array, which the
  third region leaves at the output projection of the new hidden row; the new hidden row is what the second region
  leaves, the recurrent cell's step from the rectified combination the first region leaves; the attention weights are
  the first region's second output. Each kernel stage equals the reference's stage of the same arguments; the embedded
  row, the hidden row and the biases laid out as rows come from the same host operations on both sides, and the
  log-softmax and the closing broadcast are the same functions applied to equal arrays.
-/
import proofs.«168297_j82532091560494_1_alg».proof.Proof.Gen.KernelIdeal.Launch
import proofs.«168297_j82532091560494_1_alg».proof.Proof.Gen.KernelIdeal.Skeleton
import proofs.«168297_j82532091560494_1_alg».proof.Proof.Gen.KernelIdeal.Points
import proofs.«168297_j82532091560494_1_alg».proof.Proof.KI.Vals
import proofs.«168297_j82532091560494_1_alg».proof.Proof.KI.Val2
import proofs.«168297_j82532091560494_1_alg».proof.Proof.Stage0a
import proofs.«168297_j82532091560494_1_alg».proof.Proof.Stage0b
import proofs.«168297_j82532091560494_1_alg».proof.Proof.Stage1
import proofs.«168297_j82532091560494_1_alg».proof.Proof.Stage2
import Idealize.ShloMosaic.PureOps.Ideal
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.ReferenceIdeal.Read

variable (m : (ℓ : Loc nD τ sig) → Buf (Elt Ideal) ℓ)

/-! ## The first region's entry: what the first stretch of host operations leaves -/

theorem V1_v6 (c : Dev nD) : V1 m c main_v6 = val_main_v6 (m ((c : Thread nD τ).loc main_arg0)) (m ((c : Thread nD τ).loc main_arg3)) := by
  show StableHlo.after hostOps0 (W0 m c) (Proc.devRef .tc main_v6) = _
  after_results
  rfl
theorem V1_v7 (c : Dev nD) : V1 m c main_v7 = val_main_v7 (m ((c : Thread nD τ).loc main_arg1)) := by
  show StableHlo.after hostOps0 (W0 m c) (Proc.devRef .tc main_v7) = _
  after_results
  rfl
theorem V1_v8 (c : Dev nD) : V1 m c main_v8 = shapeCast S1x512 (m ((c : Thread nD τ).loc main_arg5)) Gen.shapeCasts_S512_S1x512 := by
  show StableHlo.after hostOps0 (W0 m c) (Proc.devRef .tc main_v8) = _
  after_results
  rfl
theorem V1_v9 (c : Dev nD) : V1 m c main_v9 = shapeCast S1x1024 (m ((c : Thread nD τ).loc main_arg7)) Gen.shapeCasts_S1024_S1x1024 := by
  show StableHlo.after hostOps0 (W0 m c) (Proc.devRef .tc main_v9) = _
  after_results
  rfl
theorem V1_v10 (c : Dev nD) : V1 m c main_v10 = shapeCast S1x3072 (m ((c : Thread nD τ).loc main_arg10)) Gen.shapeCasts_S3072_S1x3072 := by
  show StableHlo.after hostOps0 (W0 m c) (Proc.devRef .tc main_v10) = _
  after_results
  rfl
theorem V1_v11 (c : Dev nD) : V1 m c main_v11 = shapeCast S1x3072 (m ((c : Thread nD τ).loc main_arg11)) Gen.shapeCasts_S3072_S1x3072 := by
  show StableHlo.after hostOps0 (W0 m c) (Proc.devRef .tc main_v11) = _
  after_results
  rfl
theorem V1_v12 (c : Dev nD) : V1 m c main_v12 = shapeCast S1x50257 (m ((c : Thread nD τ).loc main_arg13)) Gen.shapeCasts_S50257_S1x50257 := by
  show StableHlo.after hostOps0 (W0 m c) (Proc.devRef .tc main_v12) = _
  after_results
  rfl

/-! ## The regions' outputs as the reference's stages -/

/-- The attention weights the first region leaves are the reference's. -/
theorem attn_after (c : Dev nD) : V2 m c main_v13_1 = val_main_v23 (m ((c : Thread nD τ).loc main_arg0)) (m ((c : Thread nD τ).loc main_arg1)) (m ((c : Thread nD τ).loc main_arg3)) (m ((c : Thread nD τ).loc main_arg4)) (m ((c : Thread nD τ).loc main_arg5)) := by
  refine (hF0 m c 8).symm.trans ((arr0_a (V1 m) c).trans ?_)
  have ha4 : V1 m c main_arg4 = m ((c : Thread nD τ).loc main_arg4) := W1_of m c main_arg4 (by decide)
  rw [V1_v6 m c, V1_v7 m c, V1_v8 m c, ha4]
  exact Cert.Bridge.attn_weights_eq _ _ _ _ _
/-- The rectified combination the first region leaves is the reference's. -/
theorem comb_after (c : Dev nD) : V2 m c main_v13_0 = val_main_v30 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (hF0 m c 7).symm.trans ((arr0_x (V1 m) c).trans ?_)
  have ha4 : V1 m c main_arg4 = m ((c : Thread nD τ).loc main_arg4) := W1_of m c main_arg4 (by decide)
  have ha2 : V1 m c main_arg2 = m ((c : Thread nD τ).loc main_arg2) := W1_of m c main_arg2 (by decide)
  have ha6 : V1 m c main_arg6 = m ((c : Thread nD τ).loc main_arg6) := W1_of m c main_arg6 (by decide)
  rw [V1_v6 m c, V1_v7 m c, V1_v8 m c, V1_v9 m c, ha4, ha2, ha6]
  exact Cert.Bridge.combined_eq _ _ _ _ _ _ _ _
/-- The new hidden row the second region leaves is the reference's. -/
theorem hidden_after (c : Dev nD) : V3 m c main_v14 = val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (hF1 m c 6).symm.trans ((arr1_h (V2 m) c).trans ?_)
  have h7 := (keep0 m c main_v7 (by decide) (by decide)).trans (V1_v7 m c)
  have h10 := (keep0 m c main_v10 (by decide) (by decide)).trans (V1_v10 m c)
  have h11 := (keep0 m c main_v11 (by decide) (by decide)).trans (V1_v11 m c)
  have ha8 : V2 m c main_arg8 = m ((c : Thread nD τ).loc main_arg8) := (keep0 m c main_arg8 (by decide) (by decide)).trans (W1_of m c main_arg8 (by decide))
  have ha9 : V2 m c main_arg9 = m ((c : Thread nD τ).loc main_arg9) := (keep0 m c main_arg9 (by decide) (by decide)).trans (W1_of m c main_arg9 (by decide))
  rw [comb_after m c, h7, h10, h11, ha8, ha9]
  exact Cert.Bridge.hidden_eq _ _ _ _ _ _ _ _ _ _ _ _
/-- The logits the third region leaves are the reference's. -/
theorem logits_after (c : Dev nD) : V4 m c main_v15 = val_main_v70 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (hF2 m c 3).symm.trans ((arr2 (V3 m) c).trans ?_)
  have h12 := (keep1 m c main_v12 (by decide)).trans ((keep0 m c main_v12 (by decide) (by decide)).trans (V1_v12 m c))
  have ha12 : V3 m c main_arg12 = m ((c : Thread nD τ).loc main_arg12) := (keep1 m c main_arg12 (by decide)).trans ((keep0 m c main_arg12 (by decide) (by decide)).trans (W1_of m c main_arg12 (by decide)))
  rw [hidden_after m c, h12, ha12]
  exact Cert.Bridge.ref_logits_eq _ _ _ _ _ _ _ _ _ _ _ _ _ _

/-! ## The three results at the end -/

theorem res_attn (c : Dev nD) :
    W6 m c (Proc.devRef .tc main_v13_1) = val_main_v23 (m ((c : Thread nD τ).loc main_arg0)) (m ((c : Thread nD τ).loc main_arg1)) (m ((c : Thread nD τ).loc main_arg3)) (m ((c : Thread nD τ).loc main_arg4)) (m ((c : Thread nD τ).loc main_arg5)) :=
  (W6_of_W3 m c main_v13_1 (by decide) (by decide) (by decide)).trans
    ((keep1 m c main_v13_1 (by decide)).trans (attn_after m c))
theorem res_hidden (c : Dev nD) :
    W6 m c (Proc.devRef .tc main_v17) = val_main_v72 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  -- the third region does not write the hidden row's array, and no later operation does before the broadcast reads it
  have h14 : W4 m c (Proc.devRef .tc main_v14) = val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
    (keep2 m c main_v14 (by decide)).trans (hidden_after m c)
  show StableHlo.after hostOps3_1 (W5 m c) (Proc.devRef .tc main_v17) = _
  after_results
  rw [h14]
  rfl
/-! ### The log-softmax as one function of the logits -/

/-- The log-softmax of a row as one function of the row: subtract the row's maximum, then subtract the logarithm of
    the sum of the exponentials of the differences. -/
private def lsm (L : FVec Ideal S1x50257 .f32) : FVec Ideal S1x50257 .f32 :=
  let d : FVec Ideal S1x50257 .f32 :=
    subf L
      (broadcastInDim S1x50257 ![0, 1] bcast_S1x1_S1x50257_0_1
        (broadcastInDim S1x1 ![0] bcast_S1_S1x1_0
          (maximumf
            (broadcastInDim S1 ![] bcast_S_S1 (constant (F := Ideal) S_ .f32 0xFF800000#32))
            (Host.reduce FloatOps.maximumf L (constant (F := Ideal) S_ .f32 0xFF800000#32) reducesTo_S1x50257_S1_d1 h_S_))))
  subf d
    (broadcastInDim S1x50257 ![0, 1] bcast_S1x1_S1x50257_0_1
      (Host.log (F := Ideal)
        (broadcastInDim S1x1 ![0] bcast_S1_S1x1_0
          (Host.reduceAdd (F := Ideal) (Host.exp (F := Ideal) d) (constant (F := Ideal) S_ .f32 0x00000000#32) reducesTo_S1x50257_S1_d1 h_S_))))

/-- Contents moved to a typed reference's buffer type and back are unchanged. -/
private theorem ofBuf_toBuf {T : BufTy} (x : StableHlo.TRef sig T) (v : T.Contents (Elt Ideal)) :
    x.ofBuf (x.toBuf v) = v := by
  obtain ⟨r, h, _, _⟩ := x
  subst h
  rfl

/-- The kernel program's log-softmax operations leave, in the result's array, that function of the logits array,
    whatever the buffers held before them. -/
private theorem after_lsm (V : Valuation τ sig (Elt Ideal)) :
    StableHlo.after hostOps3 V (Proc.devRef .tc main_v16) = lsm (V (Proc.devRef .tc main_v15)) := by
  after_results
  simp only [ofBuf_toBuf]
  rfl

/-- The reference's log-probabilities are the same function of its logits. -/
private theorem ref_lsm (x0 : (⟨S1, .i32⟩ : BufTy).Contents (Elt Ideal)) (x1 : (⟨S1x1x1024, .f32⟩ : BufTy).Contents (Elt Ideal)) (x2 : (⟨S512x1024, .f32⟩ : BufTy).Contents (Elt Ideal)) (x3 : (⟨S50257x1024, .f32⟩ : BufTy).Contents (Elt Ideal)) (x4 : (⟨S512x2048, .f32⟩ : BufTy).Contents (Elt Ideal)) (x5 : (⟨S512, .f32⟩ : BufTy).Contents (Elt Ideal)) (x6 : (⟨S1024x2048, .f32⟩ : BufTy).Contents (Elt Ideal)) (x7 : (⟨S1024, .f32⟩ : BufTy).Contents (Elt Ideal)) (x8 : (⟨S3072x1024, .f32⟩ : BufTy).Contents (Elt Ideal)) (x9 : (⟨S3072x1024, .f32⟩ : BufTy).Contents (Elt Ideal)) (x10 : (⟨S3072, .f32⟩ : BufTy).Contents (Elt Ideal)) (x11 : (⟨S3072, .f32⟩ : BufTy).Contents (Elt Ideal)) (x12 : (⟨S50257x1024, .f32⟩ : BufTy).Contents (Elt Ideal)) (x13 : (⟨S50257, .f32⟩ : BufTy).Contents (Elt Ideal)) :
    val_main_v71 x0 x1 x2 x3 x4 x5 x6 x7 x8 x9 x10 x11 x12 x13 = lsm (val_main_v70 x0 x1 x2 x3 x4 x5 x6 x7 x8 x9 x10 x11 x12 x13) := by
  unfold val_main_v71 val_main_call1_v10 val_main_call1_v9 val_main_call1_v8 val_main_call1_v7 val_main_call1_v6
    val_main_call1_v5 val_main_call1_v4 val_main_call1_v3 val_main_call1_v2 val_main_call1_v1 val_main_call1_v0
    val_main_call1_cst val_main_call1_cst_0 val_main_call1_cst_1
  generalize val_main_v70 x0 x1 x2 x3 x4 x5 x6 x7 x8 x9 x10 x11 x12 x13 = L
  rfl

theorem res_logp (c : Dev nD) :
    W6 m c (Proc.devRef .tc main_v16) = val_main_v71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  -- the closing broadcast does not write the log-probabilities' array; before it, both programs apply the same
  -- function to equal logits
  (StableHlo.after_of_writes_sub hostOps3_1 _ hostOps3_1_writes (by decide)).trans
    ((after_lsm (W4 m c)).trans ((congrArg lsm (logits_after m c)).trans (ref_lsm _ _ _ _ _ _ _ _ _ _ _ _ _ _).symm))

end Cert.KernelIdeal.Own

end
-- ==== Proof.lean ====
/-
  The five claims of the certificate.

  The kernel program is three pipelined regions among host operations: the attention weights and the rectified
  combination of the embedded token with the attended encoder outputs; one step of a gated recurrent cell; the output
  projection over twenty-five blocks of rows of the output matrix; then a log-softmax on the host. The reference computes
  the same quantities with whole-array host operations. On the extended reals the two agree entry by entry: a change of
  float format is the identity; an inner product over the join of two rows is the sum of the inner products over each
  (addition of extended reals is commutative and associative, which is all this uses); contracting a matrix along its
  second axis is contracting its transpose along its first; the logistic function is by definition 1 / (1 + exp (-x));
  and entry j of a block of the output projection reads row j of the block only, so the rows a cut fetch leaves unnamed
  past the matrix's end reach no column that is written back.

  The frames: each program terminates without a fault and leaves its arguments as they were. For the word-level kernel
  program the last block's unnamed rows do reach every column of its block (the matrix product is opaque in its whole
  operand there), so the logits array holds contents no function of the launch memory names; only host operations run
  after it, they are total functions of whatever it holds, and none writes an argument.
-/
import proofs.«168297_j82532091560494_1_alg».proof.Defs
import proofs.«168297_j82532091560494_1_alg».proof.Proof.Gen.Kernel
import proofs.«168297_j82532091560494_1_alg».proof.Proof.Gen.KernelIdeal
import proofs.«168297_j82532091560494_1_alg».proof.Proof.Gen.ReferenceIdeal
import proofs.«168297_j82532091560494_1_alg».proof.Proof.Gen.Pre_finite_inputs
import proofs.«168297_j82532091560494_1_alg».proof.Proof.RefRead
import proofs.«168297_j82532091560494_1_alg».proof.Proof.RefRunHand
import proofs.«168297_j82532091560494_1_alg».proof.Proof.KB.Run
import proofs.«168297_j82532091560494_1_alg».proof.Proof.KI.Run
import proofs.«168297_j82532091560494_1_alg».proof.Proof.KI.Results
import Idealize.ShloMosaic.Adequacy
import Idealize.ShloMosaic.Init

noncomputable section

namespace Cert.Proof

open Idealize.ShloMosaic Idealize.ShloMosaic.TcCoe Idealize.SL.Sem

/-- The word-level kernel program runs to its end, faults nowhere and leaves every argument as launched. -/
theorem frame_k : Cert.frame_Kernel (hKernel := Cert.Kernel.Gen.facts) (hPre_finite_inputs := Cert.Pre_finite_inputs.Gen.facts) :=
  fun m ρ _ => Cert.Kernel.Own.frame_run (F := Bits) m ρ

/-- So does the idealized kernel program: its run names every buffer at the end, the arguments among them. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun r h c =>
    ⟨(h c _ (Cert.KernelIdeal.Own.mem_uc Cert.KernelIdeal.main_arg0 (by decide))).trans (Cert.KernelIdeal.Own.W6_main_arg0 m c),
     (h c _ (Cert.KernelIdeal.Own.mem_uc Cert.KernelIdeal.main_arg1 (by decide))).trans (Cert.KernelIdeal.Own.W6_main_arg1 m c),
     (h c _ (Cert.KernelIdeal.Own.mem_uc Cert.KernelIdeal.main_arg2 (by decide))).trans (Cert.KernelIdeal.Own.W6_main_arg2 m c),
     (h c _ (Cert.KernelIdeal.Own.mem_uc Cert.KernelIdeal.main_arg3 (by decide))).trans (Cert.KernelIdeal.Own.W6_main_arg3 m c),
     (h c _ (Cert.KernelIdeal.Own.mem_uc Cert.KernelIdeal.main_arg4 (by decide))).trans (Cert.KernelIdeal.Own.W6_main_arg4 m c),
     (h c _ (Cert.KernelIdeal.Own.mem_uc Cert.KernelIdeal.main_arg5 (by decide))).trans (Cert.KernelIdeal.Own.W6_main_arg5 m c),
     (h c _ (Cert.KernelIdeal.Own.mem_uc Cert.KernelIdeal.main_arg6 (by decide))).trans (Cert.KernelIdeal.Own.W6_main_arg6 m c),
     (h c _ (Cert.KernelIdeal.Own.mem_uc Cert.KernelIdeal.main_arg7 (by decide))).trans (Cert.KernelIdeal.Own.W6_main_arg7 m c),
     (h c _ (Cert.KernelIdeal.Own.mem_uc Cert.KernelIdeal.main_arg8 (by decide))).trans (Cert.KernelIdeal.Own.W6_main_arg8 m c),
     (h c _ (Cert.KernelIdeal.Own.mem_uc Cert.KernelIdeal.main_arg9 (by decide))).trans (Cert.KernelIdeal.Own.W6_main_arg9 m c),
     (h c _ (Cert.KernelIdeal.Own.mem_uc Cert.KernelIdeal.main_arg10 (by decide))).trans (Cert.KernelIdeal.Own.W6_main_arg10 m c),
     (h c _ (Cert.KernelIdeal.Own.mem_uc Cert.KernelIdeal.main_arg11 (by decide))).trans (Cert.KernelIdeal.Own.W6_main_arg11 m c),
     (h c _ (Cert.KernelIdeal.Own.mem_uc Cert.KernelIdeal.main_arg12 (by decide))).trans (Cert.KernelIdeal.Own.W6_main_arg12 m c),
     (h c _ (Cert.KernelIdeal.Own.mem_uc Cert.KernelIdeal.main_arg13 (by decide))).trans (Cert.KernelIdeal.Own.W6_main_arg13 m c)⟩)
    (Cert.KernelIdeal.Own.run_main m ρ)

/-- So does the reference: its run with the three results dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2.2)
    (Cert.RefHand.run (F := Ideal) m ρ)

/-- The idealization rewrote no operation. -/
theorem preserves : Cert.preserves_Kernel_KernelIdeal := trivial

/-- On the extended reals, from memories that agree on the arguments, both programs end with the same three results:
    the log-probabilities, the new hidden state and the attention weights. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Own.W6 m c (Proc.devRef .tc Cert.KernelIdeal.main_v16),
    fun c => Cert.KernelIdeal.Own.W6 m c (Proc.devRef .tc Cert.KernelIdeal.main_v17),
    fun c => Cert.KernelIdeal.Own.W6 m c (Proc.devRef .tc Cert.KernelIdeal.main_v13_1), ?_, ?_⟩
  · exact (θ_run (Cert.KernelIdeal.defs (F := Ideal)) _ _).mono (fun r h c =>
      ⟨h c _ (Cert.KernelIdeal.Own.mem_uc Cert.KernelIdeal.main_v16 (by decide)),
       h c _ (Cert.KernelIdeal.Own.mem_uc Cert.KernelIdeal.main_v17 (by decide)),
       h c _ (Cert.KernelIdeal.Own.mem_uc Cert.KernelIdeal.main_v13_1 (by decide)),
       (h c _ (Cert.KernelIdeal.Own.mem_uc Cert.KernelIdeal.main_arg0 (by decide))).trans (Cert.KernelIdeal.Own.W6_main_arg0 m c),
       (h c _ (Cert.KernelIdeal.Own.mem_uc Cert.KernelIdeal.main_arg1 (by decide))).trans (Cert.KernelIdeal.Own.W6_main_arg1 m c),
       (h c _ (Cert.KernelIdeal.Own.mem_uc Cert.KernelIdeal.main_arg2 (by decide))).trans (Cert.KernelIdeal.Own.W6_main_arg2 m c),
       (h c _ (Cert.KernelIdeal.Own.mem_uc Cert.KernelIdeal.main_arg3 (by decide))).trans (Cert.KernelIdeal.Own.W6_main_arg3 m c),
       (h c _ (Cert.KernelIdeal.Own.mem_uc Cert.KernelIdeal.main_arg4 (by decide))).trans (Cert.KernelIdeal.Own.W6_main_arg4 m c),
       (h c _ (Cert.KernelIdeal.Own.mem_uc Cert.KernelIdeal.main_arg5 (by decide))).trans (Cert.KernelIdeal.Own.W6_main_arg5 m c),
       (h c _ (Cert.KernelIdeal.Own.mem_uc Cert.KernelIdeal.main_arg6 (by decide))).trans (Cert.KernelIdeal.Own.W6_main_arg6 m c),
       (h c _ (Cert.KernelIdeal.Own.mem_uc Cert.KernelIdeal.main_arg7 (by decide))).trans (Cert.KernelIdeal.Own.W6_main_arg7 m c),
       (h c _ (Cert.KernelIdeal.Own.mem_uc Cert.KernelIdeal.main_arg8 (by decide))).trans (Cert.KernelIdeal.Own.W6_main_arg8 m c),
       (h c _ (Cert.KernelIdeal.Own.mem_uc Cert.KernelIdeal.main_arg9 (by decide))).trans (Cert.KernelIdeal.Own.W6_main_arg9 m c),
       (h c _ (Cert.KernelIdeal.Own.mem_uc Cert.KernelIdeal.main_arg10 (by decide))).trans (Cert.KernelIdeal.Own.W6_main_arg10 m c),
       (h c _ (Cert.KernelIdeal.Own.mem_uc Cert.KernelIdeal.main_arg11 (by decide))).trans (Cert.KernelIdeal.Own.W6_main_arg11 m c),
       (h c _ (Cert.KernelIdeal.Own.mem_uc Cert.KernelIdeal.main_arg12 (by decide))).trans (Cert.KernelIdeal.Own.W6_main_arg12 m c),
       (h c _ (Cert.KernelIdeal.Own.mem_uc Cert.KernelIdeal.main_arg13 (by decide))).trans (Cert.KernelIdeal.Own.W6_main_arg13 m c)⟩)
      (Cert.KernelIdeal.Own.run_main m ρ)
  · refine (θ_run (Cert.ReferenceIdeal.defs (F := Ideal)) _ _).mono (fun r h c => ?_)
      (Cert.RefHand.run (F := Ideal) m' ρ')
    obtain ⟨h0, h1, h2, h3, h4, h5, h6, h7, h8, h9, h10, h11, h12, h13⟩ := hagree c
    refine ⟨(h c).1.trans ?_, (h c).2.1.trans ?_, (h c).2.2.1.trans ?_, (h c).2.2.2⟩
    · rw [h0, h1, h2, h3, h4, h5, h6, h7, h8, h9, h10, h11, h12, h13]
      exact (Cert.KernelIdeal.Own.res_logp m c).symm
    · rw [h0, h1, h2, h3, h4, h5, h6, h7, h8, h9, h10, h11]
      exact (Cert.KernelIdeal.Own.res_hidden m c).symm
    · rw [h0, h1, h3, h4, h5]
      exact (Cert.KernelIdeal.Own.res_attn m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
